-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x24x32 : Shape := ⟨3, ![32768, 24, 32]⟩
abbrev S32768x448 : Shape := ⟨2, ![32768, 448]⟩
abbrev S24x480x32 : Shape := ⟨3, ![24, 480, 32]⟩
abbrev S24x32 : Shape := ⟨2, ![24, 32]⟩
abbrev S_ : Shape := ⟨0, ![]⟩

class Facts : Prop where
  bcast_S_S32768x24x32 : S_.BroadcastsInDim S32768x24x32 (![] : Fin 0 → Fin S32768x24x32.rank)
  reducesTo_S32768x24x32_S_d0_1_2 : S32768x24x32.ReducesTo [0, 1, 2] S_
  h_S_ : 0 < S_.numel
  bcast_S_S32768x448 : S_.BroadcastsInDim S32768x448 (![] : Fin 0 → Fin S32768x448.rank)
  reducesTo_S32768x448_S_d0_1 : S32768x448.ReducesTo [0, 1] S_
  bcast_S_S24x480x32 : S_.BroadcastsInDim S24x480x32 (![] : Fin 0 → Fin S24x480x32.rank)
  reducesTo_S24x480x32_S_d0_1_2 : S24x480x32.ReducesTo [0, 1, 2] S_
  bcast_S_S24x32 : S_.BroadcastsInDim S24x32 (![] : Fin 0 → Fin S24x32.rank)
  reducesTo_S24x32_S_d0_1 : S24x32.ReducesTo [0, 1] S_

variable [Facts]

def fn_part2 {F : FTy → Type} [FloatOps F] (main_arg7 : FVec F S24x32 .f32) (main_v33 : IVec S_ 1) : IVec S_ 1 :=
  let main_v34 : FVec F S24x32 .f32 := Host.absf main_arg7
  let main_cst_12 : FVec F S_ .f32 := constant S_ .f32 0x7F800000#32
  let main_v35 : FVec F S24x32 .f32 := broadcastInDim S24x32 ![] bcast_S_S24x32 main_cst_12
  let main_v36 : IVec S24x32 1 := cmpf .olt main_v34 main_v35
  let main_c_13 : IVec S_ 1 := constantI S_ 1 1#1
  let main_v37 : IVec S_ 1 := (fun x v => Host.reduce IntOp.andi x v reducesTo_S24x32_S_d0_1 h_S_) main_v36 main_c_13
  let main_v38 : IVec S_ 1 := andi main_v33 main_v37
  main_v38

def fn_part1 {F : FTy → Type} [FloatOps F] (main_arg4 : FVec F S24x480x32 .f32) (main_arg5 : FVec F S24x32 .f32) (main_arg6 : FVec F S24x480x32 .f32) (main_arg7 : FVec F S24x32 .f32) (main_v13 : IVec S_ 1) (main_v16 : IVec S24x32 1) : IVec S_ 1 :=
  let main_c_5 : IVec S_ 1 := constantI S_ 1 1#1
  let main_v17 : IVec S_ 1 := (fun x v => Host.reduce IntOp.andi x v reducesTo_S24x32_S_d0_1 h_S_) main_v16 main_c_5
  let main_v18 : IVec S_ 1 := andi main_v13 main_v17
  let main_v19 : FVec F S24x480x32 .f32 := Host.absf main_arg4
  let main_cst_6 : FVec F S_ .f32 := constant S_ .f32 0x7F800000#32
  let main_v20 : FVec F S24x480x32 .f32 := broadcastInDim S24x480x32 ![] bcast_S_S24x480x32 main_cst_6
  let main_v21 : IVec S24x480x32 1 := cmpf .olt main_v19 main_v20
  let main_c_7 : IVec S_ 1 := constantI S_ 1 1#1
  let main_v22 : IVec S_ 1 := (fun x v => Host.reduce IntOp.andi x v reducesTo_S24x480x32_S_d0_1_2 h_S_) main_v21 main_c_7
  let main_v23 : IVec S_ 1 := andi main_v18 main_v22
  let main_v24 : FVec F S24x32 .f32 := Host.absf main_arg5
  let main_cst_8 : FVec F S_ .f32 := constant S_ .f32 0x7F800000#32
  let main_v25 : FVec F S24x32 .f32 := broadcastInDim S24x32 ![] bcast_S_S24x32 main_cst_8
  let main_v26 : IVec S24x32 1 := cmpf .olt main_v24 main_v25
  let main_c_9 : IVec S_ 1 := constantI S_ 1 1#1
  let main_v27 : IVec S_ 1 := (fun x v => Host.reduce IntOp.andi x v reducesTo_S24x32_S_d0_1 h_S_) main_v26 main_c_9
  let main_v28 : IVec S_ 1 := andi main_v23 main_v27
  let main_v29 : FVec F S24x480x32 .f32 := Host.absf main_arg6
  let main_cst_10 : FVec F S_ .f32 := constant S_ .f32 0x7F800000#32
  let main_v30 : FVec F S24x480x32 .f32 := broadcastInDim S24x480x32 ![] bcast_S_S24x480x32 main_cst_10
  let main_v31 : IVec S24x480x32 1 := cmpf .olt main_v29 main_v30
  let main_c_11 : IVec S_ 1 := constantI S_ 1 1#1
  let main_v32 : IVec S_ 1 := (fun x v => Host.reduce IntOp.andi x v reducesTo_S24x480x32_S_d0_1_2 h_S_) main_v31 main_c_11
  let main_v33 : IVec S_ 1 := andi main_v28 main_v32
  fn_part2 (F := F) main_arg7 main_v33

def fn {F : FTy → Type} [FloatOps F] (main_arg0 : FVec F S32768x24x32 .f32) (main_arg1 : FVec F S32768x448 .f32) (main_arg2 : FVec F S24x480x32 .f32) (main_arg3 : FVec F S24x32 .f32) (main_arg4 : FVec F S24x480x32 .f32) (main_arg5 : FVec F S24x32 .f32) (main_arg6 : FVec F S24x480x32 .f32) (main_arg7 : FVec F S24x32 .f32) : IVec S_ 1 :=
  let main_v0 : FVec F S32768x24x32 .f32 := Host.absf main_arg0
  let main_cst : FVec F S_ .f32 := constant S_ .f32 0x7F800000#32
  let main_v1 : FVec F S32768x24x32 .f32 := broadcastInDim S32768x24x32 ![] bcast_S_S32768x24x32 main_cst
  let main_v2 : IVec S32768x24x32 1 := cmpf .olt main_v0 main_v1
  let main_c : IVec S_ 1 := constantI S_ 1 1#1
  let main_v3 : IVec S_ 1 := (fun x v => Host.reduce IntOp.andi x v reducesTo_S32768x24x32_S_d0_1_2 h_S_) main_v2 main_c
  let main_v4 : FVec F S32768x448 .f32 := Host.absf main_arg1
  let main_cst_0 : FVec F S_ .f32 := constant S_ .f32 0x7F800000#32
  let main_v5 : FVec F S32768x448 .f32 := broadcastInDim S32768x448 ![] bcast_S_S32768x448 main_cst_0
  let main_v6 : IVec S32768x448 1 := cmpf .olt main_v4 main_v5
  let main_c_1 : IVec S_ 1 := constantI S_ 1 1#1
  let main_v7 : IVec S_ 1 := (fun x v => Host.reduce IntOp.andi x v reducesTo_S32768x448_S_d0_1 h_S_) main_v6 main_c_1
  let main_v8 : IVec S_ 1 := andi main_v3 main_v7
  let main_v9 : FVec F S24x480x32 .f32 := Host.absf main_arg2
  let main_cst_2 : FVec F S_ .f32 := constant S_ .f32 0x7F800000#32
  let main_v10 : FVec F S24x480x32 .f32 := broadcastInDim S24x480x32 ![] bcast_S_S24x480x32 main_cst_2
  let main_v11 : IVec S24x480x32 1 := cmpf .olt main_v9 main_v10
  let main_c_3 : IVec S_ 1 := constantI S_ 1 1#1
  let main_v12 : IVec S_ 1 := (fun x v => Host.reduce IntOp.andi x v reducesTo_S24x480x32_S_d0_1_2 h_S_) main_v11 main_c_3
  let main_v13 : IVec S_ 1 := andi main_v8 main_v12
  let main_v14 : FVec F S24x32 .f32 := Host.absf main_arg3
  let main_cst_4 : FVec F S_ .f32 := constant S_ .f32 0x7F800000#32
  let main_v15 : FVec F S24x32 .f32 := broadcastInDim S24x32 ![] bcast_S_S24x32 main_cst_4
  let main_v16 : IVec S24x32 1 := cmpf .olt main_v14 main_v15
  fn_part1 (F := F) main_arg4 main_arg5 main_arg6 main_arg7 main_v13 main_v16
-- ==== Kernel.lean ====
abbrev S32768x24x32 : Shape := ⟨3, ![32768, 24, 32]⟩
abbrev S32768x448 : Shape := ⟨2, ![32768, 448]⟩
abbrev S24x480x32 : Shape := ⟨3, ![24, 480, 32]⟩
abbrev S24x32 : Shape := ⟨2, ![24, 32]⟩
abbrev S1024x24x32 : Shape := ⟨3, ![1024, 24, 32]⟩
abbrev S1024x448 : Shape := ⟨2, ![1024, 448]⟩
abbrev S1024x1x32 : Shape := ⟨3, ![1024, 1, 32]⟩
abbrev S1024x32 : Shape := ⟨2, ![1024, 32]⟩
abbrev S1024x480 : Shape := ⟨2, ![1024, 480]⟩
abbrev S1x480x32 : Shape := ⟨3, ![1, 480, 32]⟩
abbrev S480x32 : Shape := ⟨2, ![480, 32]⟩
abbrev S1x32 : Shape := ⟨2, ![1, 32]⟩
abbrev S32 : Shape := ⟨1, ![32]⟩

abbrev nBuf : Space → Nat
  | .hbm => 9
  | .vmem => 13
  | .smem => 0
  | _ => 0

abbrev bufTy : (tb : Table) → Fin (tcTables nBuf tb) → BufTy
  | .hbm, ⟨0, _⟩ => ⟨S32768x24x32, .f32⟩
  | .hbm, ⟨1, _⟩ => ⟨S32768x448, .f32⟩
  | .hbm, ⟨2, _⟩ => ⟨S24x480x32, .f32⟩
  | .hbm, ⟨3, _⟩ => ⟨S24x32, .f32⟩
  | .hbm, ⟨4, _⟩ => ⟨S24x480x32, .f32⟩
  | .hbm, ⟨5, _⟩ => ⟨S24x32, .f32⟩
  | .hbm, ⟨6, _⟩ => ⟨S24x480x32, .f32⟩
  | .hbm, ⟨7, _⟩ => ⟨S24x32, .f32⟩
  | .hbm, ⟨8, _⟩ => ⟨S32768x24x32, .f32⟩
  | .local _ .vmem, ⟨0, _⟩ => ⟨S1024x24x32, .f32⟩
  | .local _ .vmem, ⟨1, _⟩ => ⟨S1024x24x32, .f32⟩
  | .local _ .vmem, ⟨2, _⟩ => ⟨S1024x448, .f32⟩
  | .local _ .vmem, ⟨3, _⟩ => ⟨S1024x448, .f32⟩
  | .local _ .vmem, ⟨4, _⟩ => ⟨S24x480x32, .f32⟩
  | .local _ .vmem, ⟨5, _⟩ => ⟨S24x32, .f32⟩
  | .local _ .vmem, ⟨6, _⟩ => ⟨S24x480x32, .f32⟩
  | .local _ .vmem, ⟨7, _⟩ => ⟨S24x32, .f32⟩
  | .local _ .vmem, ⟨8, _⟩ => ⟨S24x480x32, .f32⟩
  | .local _ .vmem, ⟨9, _⟩ => ⟨S24x32, .f32⟩
  | .local _ .vmem, ⟨10, _⟩ => ⟨S1024x24x32, .f32⟩
  | .local _ .vmem, ⟨11, _⟩ => ⟨S1024x24x32, .f32⟩
  | .local _ .vmem, ⟨12, _⟩ => ⟨S1024x24x32, .f32⟩
  | _, _ => ⟨S32768x24x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x24x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x480x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x480x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x480x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x24x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1024x24x32_S1024x24x32_0_0_0 : ∀ a, (![0, 0, 0] : Fin 3 → Nat) a + S1024x24x32.size a ≤ S1024x24x32.size a
  h_S1024x24x32 : 0 < S1024x24x32.numel
  shapeCasts_S1024x24x32_S1024x24x32 : S1024x24x32.ShapeCasts S1024x24x32
  inb_S1024x448_S1024x448_0_0 : ∀ a, (![0, 0] : Fin 2 → Nat) a + S1024x448.size a ≤ S1024x448.size a
  h_S1024x448 : 0 < S1024x448.numel
  bitsLt_bf16_f32 : FTy.bits .bf16 < FTy.bits .f32
  inb_S1024x24x32_S1024x1x32_0_0_0 : ∀ a, (![0, 0, 0] : Fin 3 → Nat) a + S1024x1x32.size a ≤ S1024x24x32.size a
  h_S1024x1x32 : 0 < S1024x1x32.numel
  shapeCasts_S1024x1x32_S1024x32 : S1024x1x32.ShapeCasts S1024x32
  concatenates_S1024x32_S1024x448_S1024x480_d1 : Shape.Concatenates [S1024x32, S1024x448] S1024x480 1
  inb_S24x480x32_S1x480x32_0_0_0 : ∀ a, (![0, 0, 0] : Fin 3 → Nat) a + S1x480x32.size a ≤ S24x480x32.size a
  h_S1x480x32 : 0 < S1x480x32.numel
  shapeCasts_S1x480x32_S480x32 : S1x480x32.ShapeCasts S480x32
  inb_S24x32_S1x32_0_0 : ∀ a, (![0, 0] : Fin 2 → Nat) a + S1x32.size a ≤ S24x32.size a
  h_S1x32 : 0 < S1x32.numel
  shapeCasts_S1x32_S32 : S1x32.ShapeCasts S32
  shapeCasts_S32_S1x32 : S32.ShapeCasts S1x32
  broadcasts_S1x32_S1024x32 : S1x32.Broadcasts S1024x32
  shapeCasts_S1024x32_S1024x1x32 : S1024x32.ShapeCasts S1024x1x32
  inb_S24x480x32_S1x480x32_1_0_0 : ∀ a, (![1, 0, 0] : Fin 3 → Nat) a + S1x480x32.size a ≤ S24x480x32.size a
  inb_S24x32_S1x32_1_0 : ∀ a, (![1, 0] : Fin 2 → Nat) a + S1x32.size a ≤ S24x32.size a
  inb_S1024x24x32_S1024x1x32_0_1_0 : ∀ a, (![0, 1, 0] : Fin 3 → Nat) a + S1024x1x32.size a ≤ S1024x24x32.size a
  inb_S24x480x32_S1x480x32_2_0_0 : ∀ a, (![2, 0, 0] : Fin 3 → Nat) a + S1x480x32.size a ≤ S24x480x32.size a
  inb_S24x32_S1x32_2_0 : ∀ a, (![2, 0] : Fin 2 → Nat) a + S1x32.size a ≤ S24x32.size a
  inb_S1024x24x32_S1024x1x32_0_2_0 : ∀ a, (![0, 2, 0] : Fin 3 → Nat) a + S1024x1x32.size a ≤ S1024x24x32.size a
  inb_S24x480x32_S1x480x32_3_0_0 : ∀ a, (![3, 0, 0] : Fin 3 → Nat) a + S1x480x32.size a ≤ S24x480x32.size a
  inb_S24x32_S1x32_3_0 : ∀ a, (![3, 0] : Fin 2 → Nat) a + S1x32.size a ≤ S24x32.size a
  inb_S1024x24x32_S1024x1x32_0_3_0 : ∀ a, (![0, 3, 0] : Fin 3 → Nat) a + S1024x1x32.size a ≤ S1024x24x32.size a
  inb_S24x480x32_S1x480x32_4_0_0 : ∀ a, (![4, 0, 0] : Fin 3 → Nat) a + S1x480x32.size a ≤ S24x480x32.size a
  inb_S24x32_S1x32_4_0 : ∀ a, (![4, 0] : Fin 2 → Nat) a + S1x32.size a ≤ S24x32.size a
  inb_S1024x24x32_S1024x1x32_0_4_0 : ∀ a, (![0, 4, 0] : Fin 3 → Nat) a + S1024x1x32.size a ≤ S1024x24x32.size a
  inb_S24x480x32_S1x480x32_5_0_0 : ∀ a, (![5, 0, 0] : Fin 3 → Nat) a + S1x480x32.size a ≤ S24x480x32.size a
  inb_S24x32_S1x32_5_0 : ∀ a, (![5, 0] : Fin 2 → Nat) a + S1x32.size a ≤ S24x32.size a
  inb_S1024x24x32_S1024x1x32_0_5_0 : ∀ a, (![0, 5, 0] : Fin 3 → Nat) a + S1024x1x32.size a ≤ S1024x24x32.size a
  inb_S24x480x32_S1x480x32_6_0_0 : ∀ a, (![6, 0, 0] : Fin 3 → Nat) a + S1x480x32.size a ≤ S24x480x32.size a
  inb_S24x32_S1x32_6_0 : ∀ a, (![6, 0] : Fin 2 → Nat) a + S1x32.size a ≤ S24x32.size a
  inb_S1024x24x32_S1024x1x32_0_6_0 : ∀ a, (![0, 6, 0] : Fin 3 → Nat) a + S1024x1x32.size a ≤ S1024x24x32.size a
  inb_S24x480x32_S1x480x32_7_0_0 : ∀ a, (![7, 0, 0] : Fin 3 → Nat) a + S1x480x32.size a ≤ S24x480x32.size a
  inb_S24x32_S1x32_7_0 : ∀ a, (![7, 0] : Fin 2 → Nat) a + S1x32.size a ≤ S24x32.size a
  inb_S1024x24x32_S1024x1x32_0_7_0 : ∀ a, (![0, 7, 0] : Fin 3 → Nat) a + S1024x1x32.size a ≤ S1024x24x32.size a
  inb_S24x480x32_S1x480x32_8_0_0 : ∀ a, (![8, 0, 0] : Fin 3 → Nat) a + S1x480x32.size a ≤ S24x480x32.size a
  inb_S24x32_S1x32_8_0 : ∀ a, (![8, 0] : Fin 2 → Nat) a + S1x32.size a ≤ S24x32.size a
  inb_S1024x24x32_S1024x1x32_0_8_0 : ∀ a, (![0, 8, 0] : Fin 3 → Nat) a + S1024x1x32.size a ≤ S1024x24x32.size a
  inb_S24x480x32_S1x480x32_9_0_0 : ∀ a, (![9, 0, 0] : Fin 3 → Nat) a + S1x480x32.size a ≤ S24x480x32.size a
  inb_S24x32_S1x32_9_0 : ∀ a, (![9, 0] : Fin 2 → Nat) a + S1x32.size a ≤ S24x32.size a
  inb_S1024x24x32_S1024x1x32_0_9_0 : ∀ a, (![0, 9, 0] : Fin 3 → Nat) a + S1024x1x32.size a ≤ S1024x24x32.size a
  inb_S24x480x32_S1x480x32_10_0_0 : ∀ a, (![10, 0, 0] : Fin 3 → Nat) a + S1x480x32.size a ≤ S24x480x32.size a
  inb_S24x32_S1x32_10_0 : ∀ a, (![10, 0] : Fin 2 → Nat) a + S1x32.size a ≤ S24x32.size a
  inb_S1024x24x32_S1024x1x32_0_10_0 : ∀ a, (![0, 10, 0] : Fin 3 → Nat) a + S1024x1x32.size a ≤ S1024x24x32.size a
  inb_S24x480x32_S1x480x32_11_0_0 : ∀ a, (![11, 0, 0] : Fin 3 → Nat) a + S1x480x32.size a ≤ S24x480x32.size a
  inb_S24x32_S1x32_11_0 : ∀ a, (![11, 0] : Fin 2 → Nat) a + S1x32.size a ≤ S24x32.size a
  inb_S1024x24x32_S1024x1x32_0_11_0 : ∀ a, (![0, 11, 0] : Fin 3 → Nat) a + S1024x1x32.size a ≤ S1024x24x32.size a
  inb_S24x480x32_S1x480x32_12_0_0 : ∀ a, (![12, 0, 0] : Fin 3 → Nat) a + S1x480x32.size a ≤ S24x480x32.size a
  inb_S24x32_S1x32_12_0 : ∀ a, (![12, 0] : Fin 2 → Nat) a + S1x32.size a ≤ S24x32.size a
  inb_S1024x24x32_S1024x1x32_0_12_0 : ∀ a, (![0, 12, 0] : Fin 3 → Nat) a + S1024x1x32.size a ≤ S1024x24x32.size a
  inb_S24x480x32_S1x480x32_13_0_0 : ∀ a, (![13, 0, 0] : Fin 3 → Nat) a + S1x480x32.size a ≤ S24x480x32.size a
  inb_S24x32_S1x32_13_0 : ∀ a, (![13, 0] : Fin 2 → Nat) a + S1x32.size a ≤ S24x32.size a
  inb_S1024x24x32_S1024x1x32_0_13_0 : ∀ a, (![0, 13, 0] : Fin 3 → Nat) a + S1024x1x32.size a ≤ S1024x24x32.size a
  inb_S24x480x32_S1x480x32_14_0_0 : ∀ a, (![14, 0, 0] : Fin 3 → Nat) a + S1x480x32.size a ≤ S24x480x32.size a
  inb_S24x32_S1x32_14_0 : ∀ a, (![14, 0] : Fin 2 → Nat) a + S1x32.size a ≤ S24x32.size a
  inb_S1024x24x32_S1024x1x32_0_14_0 : ∀ a, (![0, 14, 0] : Fin 3 → Nat) a + S1024x1x32.size a ≤ S1024x24x32.size a
  inb_S24x480x32_S1x480x32_15_0_0 : ∀ a, (![15, 0, 0] : Fin 3 → Nat) a + S1x480x32.size a ≤ S24x480x32.size a
  inb_S24x32_S1x32_15_0 : ∀ a, (![15, 0] : Fin 2 → Nat) a + S1x32.size a ≤ S24x32.size a
  inb_S1024x24x32_S1024x1x32_0_15_0 : ∀ a, (![0, 15, 0] : Fin 3 → Nat) a + S1024x1x32.size a ≤ S1024x24x32.size a
  inb_S24x480x32_S1x480x32_16_0_0 : ∀ a, (![16, 0, 0] : Fin 3 → Nat) a + S1x480x32.size a ≤ S24x480x32.size a
  inb_S24x32_S1x32_16_0 : ∀ a, (![16, 0] : Fin 2 → Nat) a + S1x32.size a ≤ S24x32.size a
  inb_S1024x24x32_S1024x1x32_0_16_0 : ∀ a, (![0, 16, 0] : Fin 3 → Nat) a + S1024x1x32.size a ≤ S1024x24x32.size a
  inb_S24x480x32_S1x480x32_17_0_0 : ∀ a, (![17, 0, 0] : Fin 3 → Nat) a + S1x480x32.size a ≤ S24x480x32.size a
  inb_S24x32_S1x32_17_0 : ∀ a, (![17, 0] : Fin 2 → Nat) a + S1x32.size a ≤ S24x32.size a
  inb_S1024x24x32_S1024x1x32_0_17_0 : ∀ a, (![0, 17, 0] : Fin 3 → Nat) a + S1024x1x32.size a ≤ S1024x24x32.size a
  inb_S24x480x32_S1x480x32_18_0_0 : ∀ a, (![18, 0, 0] : Fin 3 → Nat) a + S1x480x32.size a ≤ S24x480x32.size a
  inb_S24x32_S1x32_18_0 : ∀ a, (![18, 0] : Fin 2 → Nat) a + S1x32.size a ≤ S24x32.size a
  inb_S1024x24x32_S1024x1x32_0_18_0 : ∀ a, (![0, 18, 0] : Fin 3 → Nat) a + S1024x1x32.size a ≤ S1024x24x32.size a
  inb_S24x480x32_S1x480x32_19_0_0 : ∀ a, (![19, 0, 0] : Fin 3 → Nat) a + S1x480x32.size a ≤ S24x480x32.size a
  inb_S24x32_S1x32_19_0 : ∀ a, (![19, 0] : Fin 2 → Nat) a + S1x32.size a ≤ S24x32.size a
  inb_S1024x24x32_S1024x1x32_0_19_0 : ∀ a, (![0, 19, 0] : Fin 3 → Nat) a + S1024x1x32.size a ≤ S1024x24x32.size a
  inb_S24x480x32_S1x480x32_20_0_0 : ∀ a, (![20, 0, 0] : Fin 3 → Nat) a + S1x480x32.size a ≤ S24x480x32.size a
  inb_S24x32_S1x32_20_0 : ∀ a, (![20, 0] : Fin 2 → Nat) a + S1x32.size a ≤ S24x32.size a
  inb_S1024x24x32_S1024x1x32_0_20_0 : ∀ a, (![0, 20, 0] : Fin 3 → Nat) a + S1024x1x32.size a ≤ S1024x24x32.size a
  inb_S24x480x32_S1x480x32_21_0_0 : ∀ a, (![21, 0, 0] : Fin 3 → Nat) a + S1x480x32.size a ≤ S24x480x32.size a
  inb_S24x32_S1x32_21_0 : ∀ a, (![21, 0] : Fin 2 → Nat) a + S1x32.size a ≤ S24x32.size a
  inb_S1024x24x32_S1024x1x32_0_21_0 : ∀ a, (![0, 21, 0] : Fin 3 → Nat) a + S1024x1x32.size a ≤ S1024x24x32.size a
  inb_S24x480x32_S1x480x32_22_0_0 : ∀ a, (![22, 0, 0] : Fin 3 → Nat) a + S1x480x32.size a ≤ S24x480x32.size a
  inb_S24x32_S1x32_22_0 : ∀ a, (![22, 0] : Fin 2 → Nat) a + S1x32.size a ≤ S24x32.size a
  inb_S1024x24x32_S1024x1x32_0_22_0 : ∀ a, (![0, 22, 0] : Fin 3 → Nat) a + S1024x1x32.size a ≤ S1024x24x32.size a
  inb_S24x480x32_S1x480x32_23_0_0 : ∀ a, (![23, 0, 0] : Fin 3 → Nat) a + S1x480x32.size a ≤ S24x480x32.size a
  inb_S24x32_S1x32_23_0 : ∀ a, (![23, 0] : Fin 2 → Nat) a + S1x32.size a ≤ S24x32.size a
  inb_S1024x24x32_S1024x1x32_0_23_0 : ∀ a, (![0, 23, 0] : Fin 3 → Nat) a + S1024x1x32.size a ≤ S1024x24x32.size a
  dot_S1024x480_S480x32_S1024x32_1_0_0_1_n_n_wf : DotDims.WF S1024x480 S480x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x24x32.size a ≤ S32768x24x32.size a
  hwx0_0 : ∀ i : grid0.Coords, EltTy.bits .f32 = 32 ∨ (Rect.block (s := S32768x24x32) S1024x24x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x448.size a ≤ S32768x448.size a
  hwx0_1 : ∀ i : grid0.Coords, EltTy.bits .f32 = 32 ∨ (Rect.block (s := S32768x448) S1024x448.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x480x32.size a ≤ S24x480x32.size a
  hwx0_2 : ∀ i : grid0.Coords, EltTy.bits .f32 = 32 ∨ (Rect.block (s := S24x480x32) S24x480x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x32.size a ≤ S24x32.size a
  hwx0_3 : ∀ i : grid0.Coords, EltTy.bits .f32 = 32 ∨ (Rect.block (s := S24x32) S24x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x480x32.size a ≤ S24x480x32.size a
  hwx0_4 : ∀ i : grid0.Coords, EltTy.bits .f32 = 32 ∨ (Rect.block (s := S24x480x32) S24x480x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x32.size a ≤ S24x32.size a
  hwx0_5 : ∀ i : grid0.Coords, EltTy.bits .f32 = 32 ∨ (Rect.block (s := S24x32) S24x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x480x32.size a ≤ S24x480x32.size a
  hwx0_6 : ∀ i : grid0.Coords, EltTy.bits .f32 = 32 ∨ (Rect.block (s := S24x480x32) S24x480x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24x32.size a ≤ S24x32.size a
  hwx0_7 : ∀ i : grid0.Coords, EltTy.bits .f32 = 32 ∨ (Rect.block (s := S24x32) S24x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x24x32.size a ≤ S32768x24x32.size a
  hwx0_8 : ∀ i : grid0.Coords, EltTy.bits .f32 = 32 ∨ (Rect.block (s := S32768x24x32) S1024x24x32.size (cc0_transform_8 i) (hinb0_8 i)).WholeWords (EltTy.packing .f32)

variable [Facts₀]

def dot_S1024x480_S480x32_S1024x32_1_0_0_1_n_n : DotDims S1024x480 S480x32 S1024x32 where
  lhsContracting := [1]
  rhsContracting := [0]
  lhsNonContracting := [0]
  rhsNonContracting := [1]
  lhsBatch := []
  rhsBatch := []
  wf := dot_S1024x480_S480x32_S1024x32_1_0_0_1_n_n_wf

abbrev win0_0 : Pipeline.Window sig grid0 :=
  Pipeline.Window.ofSpec (Memref.whole main_arg0) S1024x24x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x448.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24x480x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x480x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S24x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S24x480x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S24x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x24x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x24x32 : Shape := ⟨3, ![32768, 24, 32]⟩
abbrev S32768x448 : Shape := ⟨2, ![32768, 448]⟩
abbrev S24x480x32 : Shape := ⟨3, ![24, 480, 32]⟩
abbrev S24x32 : Shape := ⟨2, ![24, 32]⟩
abbrev S32768x1x32 : Shape := ⟨3, ![32768, 1, 32]⟩
abbrev S32768x32 : Shape := ⟨2, ![32768, 32]⟩
abbrev S1x480x32 : Shape := ⟨3, ![1, 480, 32]⟩
abbrev S480x32 : Shape := ⟨2, ![480, 32]⟩
abbrev S1x32 : Shape := ⟨2, ![1, 32]⟩
abbrev S32 : Shape := ⟨1, ![32]⟩
abbrev S32768x480 : Shape := ⟨2, ![32768, 480]⟩
abbrev S_ : Shape := ⟨0, ![]⟩
abbrev S32768x16x32 : Shape := ⟨3, ![32768, 16, 32]⟩
abbrev S32768x8x32 : Shape := ⟨3, ![32768, 8, 32]⟩

abbrev nBuf : Space → Nat
  | .hbm => 1285
  | .vmem => 0
  | .smem => 0
  | _ => 0

abbrev hbmTy0_0 (i : Nat) : BufTy := match i % 128 with
  | 0 => ⟨S32768x24x32, .f32⟩
  | 1 => ⟨S32768x448, .f32⟩
  | 2 => ⟨S24x480x32, .f32⟩
  | 3 => ⟨S24x32, .f32⟩
  | 4 => ⟨S24x480x32, .f32⟩
  | 5 => ⟨S24x32, .f32⟩
  | 6 => ⟨S24x480x32, .f32⟩
  | 7 => ⟨S24x32, .f32⟩
  | 8 => ⟨S32768x1x32, .f32⟩
  | 9 => ⟨S32768x32, .f32⟩
  | 10 => ⟨S32768x1x32, .f32⟩
  | 11 => ⟨S32768x32, .f32⟩
  | 12 => ⟨S32768x1x32, .f32⟩
  | 13 => ⟨S32768x32, .f32⟩
  | 14 => ⟨S32768x1x32, .f32⟩
  | 15 => ⟨S32768x32, .f32⟩
  | 16 => ⟨S32768x1x32, .f32⟩
  | 17 => ⟨S32768x32, .f32⟩
  | 18 => ⟨S32768x1x32, .f32⟩
  | 19 => ⟨S32768x32, .f32⟩
  | 20 => ⟨S32768x1x32, .f32⟩
  | 21 => ⟨S32768x32, .f32⟩
  | 22 => ⟨S32768x1x32, .f32⟩
  | 23 => ⟨S32768x32, .f32⟩
  | 24 => ⟨S32768x1x32, .f32⟩
  | 25 => ⟨S32768x32, .f32⟩
  | 26 => ⟨S32768x1x32, .f32⟩
  | 27 => ⟨S32768x32, .f32⟩
  | 28 => ⟨S32768x1x32, .f32⟩
  | 29 => ⟨S32768x32, .f32⟩
  | 30 => ⟨S32768x1x32, .f32⟩
  | 31 => ⟨S32768x32, .f32⟩
  | 32 => ⟨S32768x1x32, .f32⟩
  | 33 => ⟨S32768x32, .f32⟩
  | 34 => ⟨S32768x1x32, .f32⟩
  | 35 => ⟨S32768x32, .f32⟩
  | 36 => ⟨S32768x1x32, .f32⟩
  | 37 => ⟨S32768x32, .f32⟩
  | 38 => ⟨S32768x1x32, .f32⟩
  | 39 => ⟨S32768x32, .f32⟩
  | 40 => ⟨S32768x1x32, .f32⟩
  | 41 => ⟨S32768x32, .f32⟩
  | 42 => ⟨S32768x1x32, .f32⟩
  | 43 => ⟨S32768x32, .f32⟩
  | 44 => ⟨S32768x1x32, .f32⟩
  | 45 => ⟨S32768x32, .f32⟩
  | 46 => ⟨S32768x1x32, .f32⟩
  | 47 => ⟨S32768x32, .f32⟩
  | 48 => ⟨S32768x1x32, .f32⟩
  | 49 => ⟨S32768x32, .f32⟩
  | 50 => ⟨S32768x1x32, .f32⟩
  | 51 => ⟨S32768x32, .f32⟩
  | 52 => ⟨S32768x1x32, .f32⟩
  | 53 => ⟨S32768x32, .f32⟩
  | 54 => ⟨S32768x1x32, .f32⟩
  | 55 => ⟨S32768x32, .f32⟩
  | 56 => ⟨S32768x1x32, .f32⟩
  | 57 => ⟨S32768x32, .f32⟩
  | 58 => ⟨S1x480x32, .f32⟩
  | 59 => ⟨S480x32, .f32⟩
  | 60 => ⟨S1x32, .f32⟩
  | 61 => ⟨S32, .f32⟩
  | 62 => ⟨S1x480x32, .f32⟩
  | 63 => ⟨S480x32, .f32⟩
  | 64 => ⟨S1x32, .f32⟩
  | 65 => ⟨S32, .f32⟩
  | 66 => ⟨S1x480x32, .f32⟩
  | 67 => ⟨S480x32, .f32⟩
  | 68 => ⟨S1x32, .f32⟩
  | 69 => ⟨S32, .f32⟩
  | 70 => ⟨S32768x480, .f32⟩
  | 71 => ⟨S32768x32, .f32⟩
  | 72 => ⟨S1x32, .f32⟩
  | 73 => ⟨S32768x32, .f32⟩
  | 74 => ⟨S32768x32, .f32⟩
  | 75 => ⟨S32768x32, .f32⟩
  | 76 => ⟨S32768x32, .f32⟩
  | 77 => ⟨S_, .f32⟩
  | 78 => ⟨S32768x32, .f32⟩
  | 79 => ⟨S32768x32, .f32⟩
  | 80 => ⟨S_, .f32⟩
  | 81 => ⟨S32768x32, .f32⟩
  | 82 => ⟨S32768x32, .f32⟩
  | 83 => ⟨S32768x32, .f32⟩
  | 84 => ⟨S1x32, .f32⟩
  | 85 => ⟨S32768x32, .f32⟩
  | 86 => ⟨S32768x32, .f32⟩
  | 87 => ⟨S32768x32, .f32⟩
  | 88 => ⟨S32768x32, .f32⟩
  | 89 => ⟨S_, .f32⟩
  | 90 => ⟨S32768x32, .f32⟩
  | 91 => ⟨S32768x32, .f32⟩
  | 92 => ⟨S_, .f32⟩
  | 93 => ⟨S32768x32, .f32⟩
  | 94 => ⟨S32768x32, .f32⟩
  | 95 => ⟨S32768x32, .f32⟩
  | 96 => ⟨S32768x480, .f32⟩
  | 97 => ⟨S32768x32, .f32⟩
  | 98 => ⟨S1x32, .f32⟩
  | 99 => ⟨S32768x32, .f32⟩
  | 100 => ⟨S32768x32, .f32⟩
  | 101 => ⟨S32768x32, .f32⟩
  | 102 => ⟨S_, .f32⟩
  | 103 => ⟨S32768x32, .f32⟩
  | 104 => ⟨S32768x32, .f32⟩
  | 105 => ⟨S32768x32, .f32⟩
  | 106 => ⟨S32768x32, .f32⟩
  | 107 => ⟨S32768x32, .f32⟩
  | 108 => ⟨S1x480x32, .f32⟩
  | 109 => ⟨S480x32, .f32⟩
  | 110 => ⟨S1x32, .f32⟩
  | 111 => ⟨S32, .f32⟩
  | 112 => ⟨S1x480x32, .f32⟩
  | 113 => ⟨S480x32, .f32⟩
  | 114 => ⟨S1x32, .f32⟩
  | 115 => ⟨S32, .f32⟩
  | 116 => ⟨S1x480x32, .f32⟩
  | 117 => ⟨S480x32, .f32⟩
  | 118 => ⟨S1x32, .f32⟩
  | 119 => ⟨S32, .f32⟩
  | 120 => ⟨S32768x480, .f32⟩
  | 121 => ⟨S32768x32, .f32⟩
  | 122 => ⟨S1x32, .f32⟩
  | 123 => ⟨S32768x32, .f32⟩
  | 124 => ⟨S32768x32, .f32⟩
  | 125 => ⟨S32768x32, .f32⟩
  | 126 => ⟨S32768x32, .f32⟩
  | 127 => ⟨S_, .f32⟩
  | _ => ⟨S32768x24x32, .f32⟩

abbrev hbmTy0_1 (i : Nat) : BufTy := match i % 128 with
  | 0 => ⟨S32768x32, .f32⟩
  | 1 => ⟨S32768x32, .f32⟩
  | 2 => ⟨S_, .f32⟩
  | 3 => ⟨S32768x32, .f32⟩
  | 4 => ⟨S32768x32, .f32⟩
  | 5 => ⟨S32768x32, .f32⟩
  | 6 => ⟨S1x32, .f32⟩
  | 7 => ⟨S32768x32, .f32⟩
  | 8 => ⟨S32768x32, .f32⟩
  | 9 => ⟨S32768x32, .f32⟩
  | 10 => ⟨S32768x32, .f32⟩
  | 11 => ⟨S_, .f32⟩
  | 12 => ⟨S32768x32, .f32⟩
  | 13 => ⟨S32768x32, .f32⟩
  | 14 => ⟨S_, .f32⟩
  | 15 => ⟨S32768x32, .f32⟩
  | 16 => ⟨S32768x32, .f32⟩
  | 17 => ⟨S32768x32, .f32⟩
  | 18 => ⟨S32768x480, .f32⟩
  | 19 => ⟨S32768x32, .f32⟩
  | 20 => ⟨S1x32, .f32⟩
  | 21 => ⟨S32768x32, .f32⟩
  | 22 => ⟨S32768x32, .f32⟩
  | 23 => ⟨S32768x32, .f32⟩
  | 24 => ⟨S_, .f32⟩
  | 25 => ⟨S32768x32, .f32⟩
  | 26 => ⟨S32768x32, .f32⟩
  | 27 => ⟨S32768x32, .f32⟩
  | 28 => ⟨S32768x32, .f32⟩
  | 29 => ⟨S32768x32, .f32⟩
  | 30 => ⟨S1x480x32, .f32⟩
  | 31 => ⟨S480x32, .f32⟩
  | 32 => ⟨S1x32, .f32⟩
  | 33 => ⟨S32, .f32⟩
  | 34 => ⟨S1x480x32, .f32⟩
  | 35 => ⟨S480x32, .f32⟩
  | 36 => ⟨S1x32, .f32⟩
  | 37 => ⟨S32, .f32⟩
  | 38 => ⟨S1x480x32, .f32⟩
  | 39 => ⟨S480x32, .f32⟩
  | 40 => ⟨S1x32, .f32⟩
  | 41 => ⟨S32, .f32⟩
  | 42 => ⟨S32768x480, .f32⟩
  | 43 => ⟨S32768x32, .f32⟩
  | 44 => ⟨S1x32, .f32⟩
  | 45 => ⟨S32768x32, .f32⟩
  | 46 => ⟨S32768x32, .f32⟩
  | 47 => ⟨S32768x32, .f32⟩
  | 48 => ⟨S32768x32, .f32⟩
  | 49 => ⟨S_, .f32⟩
  | 50 => ⟨S32768x32, .f32⟩
  | 51 => ⟨S32768x32, .f32⟩
  | 52 => ⟨S_, .f32⟩
  | 53 => ⟨S32768x32, .f32⟩
  | 54 => ⟨S32768x32, .f32⟩
  | 55 => ⟨S32768x32, .f32⟩
  | 56 => ⟨S1x32, .f32⟩
  | 57 => ⟨S32768x32, .f32⟩
  | 58 => ⟨S32768x32, .f32⟩
  | 59 => ⟨S32768x32, .f32⟩
  | 60 => ⟨S32768x32, .f32⟩
  | 61 => ⟨S_, .f32⟩
  | 62 => ⟨S32768x32, .f32⟩
  | 63 => ⟨S32768x32, .f32⟩
  | 64 => ⟨S_, .f32⟩
  | 65 => ⟨S32768x32, .f32⟩
  | 66 => ⟨S32768x32, .f32⟩
  | 67 => ⟨S32768x32, .f32⟩
  | 68 => ⟨S32768x480, .f32⟩
  | 69 => ⟨S32768x32, .f32⟩
  | 70 => ⟨S1x32, .f32⟩
  | 71 => ⟨S32768x32, .f32⟩
  | 72 => ⟨S32768x32, .f32⟩
  | 73 => ⟨S32768x32, .f32⟩
  | 74 => ⟨S_, .f32⟩
  | 75 => ⟨S32768x32, .f32⟩
  | 76 => ⟨S32768x32, .f32⟩
  | 77 => ⟨S32768x32, .f32⟩
  | 78 => ⟨S32768x32, .f32⟩
  | 79 => ⟨S32768x32, .f32⟩
  | 80 => ⟨S1x480x32, .f32⟩
  | 81 => ⟨S480x32, .f32⟩
  | 82 => ⟨S1x32, .f32⟩
  | 83 => ⟨S32, .f32⟩
  | 84 => ⟨S1x480x32, .f32⟩
  | 85 => ⟨S480x32, .f32⟩
  | 86 => ⟨S1x32, .f32⟩
  | 87 => ⟨S32, .f32⟩
  | 88 => ⟨S1x480x32, .f32⟩
  | 89 => ⟨S480x32, .f32⟩
  | 90 => ⟨S1x32, .f32⟩
  | 91 => ⟨S32, .f32⟩
  | 92 => ⟨S32768x480, .f32⟩
  | 93 => ⟨S32768x32, .f32⟩
  | 94 => ⟨S1x32, .f32⟩
  | 95 => ⟨S32768x32, .f32⟩
  | 96 => ⟨S32768x32, .f32⟩
  | 97 => ⟨S32768x32, .f32⟩
  | 98 => ⟨S32768x32, .f32⟩
  | 99 => ⟨S_, .f32⟩
  | 100 => ⟨S32768x32, .f32⟩
  | 101 => ⟨S32768x32, .f32⟩
  | 102 => ⟨S_, .f32⟩
  | 103 => ⟨S32768x32, .f32⟩
  | 104 => ⟨S32768x32, .f32⟩
  | 105 => ⟨S32768x32, .f32⟩
  | 106 => ⟨S1x32, .f32⟩
  | 107 => ⟨S32768x32, .f32⟩
  | 108 => ⟨S32768x32, .f32⟩
  | 109 => ⟨S32768x32, .f32⟩
  | 110 => ⟨S32768x32, .f32⟩
  | 111 => ⟨S_, .f32⟩
  | 112 => ⟨S32768x32, .f32⟩
  | 113 => ⟨S32768x32, .f32⟩
  | 114 => ⟨S_, .f32⟩
  | 115 => ⟨S32768x32, .f32⟩
  | 116 => ⟨S32768x32, .f32⟩
  | 117 => ⟨S32768x32, .f32⟩
  | 118 => ⟨S32768x480, .f32⟩
  | 119 => ⟨S32768x32, .f32⟩
  | 120 => ⟨S1x32, .f32⟩
  | 121 => ⟨S32768x32, .f32⟩
  | 122 => ⟨S32768x32, .f32⟩
  | 123 => ⟨S32768x32, .f32⟩
  | 124 => ⟨S_, .f32⟩
  | 125 => ⟨S32768x32, .f32⟩
  | 126 => ⟨S32768x32, .f32⟩
  | 127 => ⟨S32768x32, .f32⟩
  | _ => ⟨S32768x24x32, .f32⟩

abbrev hbmTy0_2 (i : Nat) : BufTy := match i % 128 with
  | 0 => ⟨S32768x32, .f32⟩
  | 1 => ⟨S32768x32, .f32⟩
  | 2 => ⟨S1x480x32, .f32⟩
  | 3 => ⟨S480x32, .f32⟩
  | 4 => ⟨S1x32, .f32⟩
  | 5 => ⟨S32, .f32⟩
  | 6 => ⟨S1x480x32, .f32⟩
  | 7 => ⟨S480x32, .f32⟩
  | 8 => ⟨S1x32, .f32⟩
  | 9 => ⟨S32, .f32⟩
  | 10 => ⟨S1x480x32, .f32⟩
  | 11 => ⟨S480x32, .f32⟩
  | 12 => ⟨S1x32, .f32⟩
  | 13 => ⟨S32, .f32⟩
  | 14 => ⟨S32768x480, .f32⟩
  | 15 => ⟨S32768x32, .f32⟩
  | 16 => ⟨S1x32, .f32⟩
  | 17 => ⟨S32768x32, .f32⟩
  | 18 => ⟨S32768x32, .f32⟩
  | 19 => ⟨S32768x32, .f32⟩
  | 20 => ⟨S32768x32, .f32⟩
  | 21 => ⟨S_, .f32⟩
  | 22 => ⟨S32768x32, .f32⟩
  | 23 => ⟨S32768x32, .f32⟩
  | 24 => ⟨S_, .f32⟩
  | 25 => ⟨S32768x32, .f32⟩
  | 26 => ⟨S32768x32, .f32⟩
  | 27 => ⟨S32768x32, .f32⟩
  | 28 => ⟨S1x32, .f32⟩
  | 29 => ⟨S32768x32, .f32⟩
  | 30 => ⟨S32768x32, .f32⟩
  | 31 => ⟨S32768x32, .f32⟩
  | 32 => ⟨S32768x32, .f32⟩
  | 33 => ⟨S_, .f32⟩
  | 34 => ⟨S32768x32, .f32⟩
  | 35 => ⟨S32768x32, .f32⟩
  | 36 => ⟨S_, .f32⟩
  | 37 => ⟨S32768x32, .f32⟩
  | 38 => ⟨S32768x32, .f32⟩
  | 39 => ⟨S32768x32, .f32⟩
  | 40 => ⟨S32768x480, .f32⟩
  | 41 => ⟨S32768x32, .f32⟩
  | 42 => ⟨S1x32, .f32⟩
  | 43 => ⟨S32768x32, .f32⟩
  | 44 => ⟨S32768x32, .f32⟩
  | 45 => ⟨S32768x32, .f32⟩
  | 46 => ⟨S_, .f32⟩
  | 47 => ⟨S32768x32, .f32⟩
  | 48 => ⟨S32768x32, .f32⟩
  | 49 => ⟨S32768x32, .f32⟩
  | 50 => ⟨S32768x32, .f32⟩
  | 51 => ⟨S32768x32, .f32⟩
  | 52 => ⟨S1x480x32, .f32⟩
  | 53 => ⟨S480x32, .f32⟩
  | 54 => ⟨S1x32, .f32⟩
  | 55 => ⟨S32, .f32⟩
  | 56 => ⟨S1x480x32, .f32⟩
  | 57 => ⟨S480x32, .f32⟩
  | 58 => ⟨S1x32, .f32⟩
  | 59 => ⟨S32, .f32⟩
  | 60 => ⟨S1x480x32, .f32⟩
  | 61 => ⟨S480x32, .f32⟩
  | 62 => ⟨S1x32, .f32⟩
  | 63 => ⟨S32, .f32⟩
  | 64 => ⟨S32768x480, .f32⟩
  | 65 => ⟨S32768x32, .f32⟩
  | 66 => ⟨S1x32, .f32⟩
  | 67 => ⟨S32768x32, .f32⟩
  | 68 => ⟨S32768x32, .f32⟩
  | 69 => ⟨S32768x32, .f32⟩
  | 70 => ⟨S32768x32, .f32⟩
  | 71 => ⟨S_, .f32⟩
  | 72 => ⟨S32768x32, .f32⟩
  | 73 => ⟨S32768x32, .f32⟩
  | 74 => ⟨S_, .f32⟩
  | 75 => ⟨S32768x32, .f32⟩
  | 76 => ⟨S32768x32, .f32⟩
  | 77 => ⟨S32768x32, .f32⟩
  | 78 => ⟨S1x32, .f32⟩
  | 79 => ⟨S32768x32, .f32⟩
  | 80 => ⟨S32768x32, .f32⟩
  | 81 => ⟨S32768x32, .f32⟩
  | 82 => ⟨S32768x32, .f32⟩
  | 83 => ⟨S_, .f32⟩
  | 84 => ⟨S32768x32, .f32⟩
  | 85 => ⟨S32768x32, .f32⟩
  | 86 => ⟨S_, .f32⟩
  | 87 => ⟨S32768x32, .f32⟩
  | 88 => ⟨S32768x32, .f32⟩
  | 89 => ⟨S32768x32, .f32⟩
  | 90 => ⟨S32768x480, .f32⟩
  | 91 => ⟨S32768x32, .f32⟩
  | 92 => ⟨S1x32, .f32⟩
  | 93 => ⟨S32768x32, .f32⟩
  | 94 => ⟨S32768x32, .f32⟩
  | 95 => ⟨S32768x32, .f32⟩
  | 96 => ⟨S_, .f32⟩
  | 97 => ⟨S32768x32, .f32⟩
  | 98 => ⟨S32768x32, .f32⟩
  | 99 => ⟨S32768x32, .f32⟩
  | 100 => ⟨S32768x32, .f32⟩
  | 101 => ⟨S32768x32, .f32⟩
  | 102 => ⟨S1x480x32, .f32⟩
  | 103 => ⟨S480x32, .f32⟩
  | 104 => ⟨S1x32, .f32⟩
  | 105 => ⟨S32, .f32⟩
  | 106 => ⟨S1x480x32, .f32⟩
  | 107 => ⟨S480x32, .f32⟩
  | 108 => ⟨S1x32, .f32⟩
  | 109 => ⟨S32, .f32⟩
  | 110 => ⟨S1x480x32, .f32⟩
  | 111 => ⟨S480x32, .f32⟩
  | 112 => ⟨S1x32, .f32⟩
  | 113 => ⟨S32, .f32⟩
  | 114 => ⟨S32768x480, .f32⟩
  | 115 => ⟨S32768x32, .f32⟩
  | 116 => ⟨S1x32, .f32⟩
  | 117 => ⟨S32768x32, .f32⟩
  | 118 => ⟨S32768x32, .f32⟩
  | 119 => ⟨S32768x32, .f32⟩
  | 120 => ⟨S32768x32, .f32⟩
  | 121 => ⟨S_, .f32⟩
  | 122 => ⟨S32768x32, .f32⟩
  | 123 => ⟨S32768x32, .f32⟩
  | 124 => ⟨S_, .f32⟩
  | 125 => ⟨S32768x32, .f32⟩
  | 126 => ⟨S32768x32, .f32⟩
  | 127 => ⟨S32768x32, .f32⟩
  | _ => ⟨S32768x24x32, .f32⟩

abbrev hbmTy0_3 (i : Nat) : BufTy := match i % 128 with
  | 0 => ⟨S1x32, .f32⟩
  | 1 => ⟨S32768x32, .f32⟩
  | 2 => ⟨S32768x32, .f32⟩
  | 3 => ⟨S32768x32, .f32⟩
  | 4 => ⟨S32768x32, .f32⟩
  | 5 => ⟨S_, .f32⟩
  | 6 => ⟨S32768x32, .f32⟩
  | 7 => ⟨S32768x32, .f32⟩
  | 8 => ⟨S_, .f32⟩
  | 9 => ⟨S32768x32, .f32⟩
  | 10 => ⟨S32768x32, .f32⟩
  | 11 => ⟨S32768x32, .f32⟩
  | 12 => ⟨S32768x480, .f32⟩
  | 13 => ⟨S32768x32, .f32⟩
  | 14 => ⟨S1x32, .f32⟩
  | 15 => ⟨S32768x32, .f32⟩
  | 16 => ⟨S32768x32, .f32⟩
  | 17 => ⟨S32768x32, .f32⟩
  | 18 => ⟨S_, .f32⟩
  | 19 => ⟨S32768x32, .f32⟩
  | 20 => ⟨S32768x32, .f32⟩
  | 21 => ⟨S32768x32, .f32⟩
  | 22 => ⟨S32768x32, .f32⟩
  | 23 => ⟨S32768x32, .f32⟩
  | 24 => ⟨S1x480x32, .f32⟩
  | 25 => ⟨S480x32, .f32⟩
  | 26 => ⟨S1x32, .f32⟩
  | 27 => ⟨S32, .f32⟩
  | 28 => ⟨S1x480x32, .f32⟩
  | 29 => ⟨S480x32, .f32⟩
  | 30 => ⟨S1x32, .f32⟩
  | 31 => ⟨S32, .f32⟩
  | 32 => ⟨S1x480x32, .f32⟩
  | 33 => ⟨S480x32, .f32⟩
  | 34 => ⟨S1x32, .f32⟩
  | 35 => ⟨S32, .f32⟩
  | 36 => ⟨S32768x480, .f32⟩
  | 37 => ⟨S32768x32, .f32⟩
  | 38 => ⟨S1x32, .f32⟩
  | 39 => ⟨S32768x32, .f32⟩
  | 40 => ⟨S32768x32, .f32⟩
  | 41 => ⟨S32768x32, .f32⟩
  | 42 => ⟨S32768x32, .f32⟩
  | 43 => ⟨S_, .f32⟩
  | 44 => ⟨S32768x32, .f32⟩
  | 45 => ⟨S32768x32, .f32⟩
  | 46 => ⟨S_, .f32⟩
  | 47 => ⟨S32768x32, .f32⟩
  | 48 => ⟨S32768x32, .f32⟩
  | 49 => ⟨S32768x32, .f32⟩
  | 50 => ⟨S1x32, .f32⟩
  | 51 => ⟨S32768x32, .f32⟩
  | 52 => ⟨S32768x32, .f32⟩
  | 53 => ⟨S32768x32, .f32⟩
  | 54 => ⟨S32768x32, .f32⟩
  | 55 => ⟨S_, .f32⟩
  | 56 => ⟨S32768x32, .f32⟩
  | 57 => ⟨S32768x32, .f32⟩
  | 58 => ⟨S_, .f32⟩
  | 59 => ⟨S32768x32, .f32⟩
  | 60 => ⟨S32768x32, .f32⟩
  | 61 => ⟨S32768x32, .f32⟩
  | 62 => ⟨S32768x480, .f32⟩
  | 63 => ⟨S32768x32, .f32⟩
  | 64 => ⟨S1x32, .f32⟩
  | 65 => ⟨S32768x32, .f32⟩
  | 66 => ⟨S32768x32, .f32⟩
  | 67 => ⟨S32768x32, .f32⟩
  | 68 => ⟨S_, .f32⟩
  | 69 => ⟨S32768x32, .f32⟩
  | 70 => ⟨S32768x32, .f32⟩
  | 71 => ⟨S32768x32, .f32⟩
  | 72 => ⟨S32768x32, .f32⟩
  | 73 => ⟨S32768x32, .f32⟩
  | 74 => ⟨S1x480x32, .f32⟩
  | 75 => ⟨S480x32, .f32⟩
  | 76 => ⟨S1x32, .f32⟩
  | 77 => ⟨S32, .f32⟩
  | 78 => ⟨S1x480x32, .f32⟩
  | 79 => ⟨S480x32, .f32⟩
  | 80 => ⟨S1x32, .f32⟩
  | 81 => ⟨S32, .f32⟩
  | 82 => ⟨S1x480x32, .f32⟩
  | 83 => ⟨S480x32, .f32⟩
  | 84 => ⟨S1x32, .f32⟩
  | 85 => ⟨S32, .f32⟩
  | 86 => ⟨S32768x480, .f32⟩
  | 87 => ⟨S32768x32, .f32⟩
  | 88 => ⟨S1x32, .f32⟩
  | 89 => ⟨S32768x32, .f32⟩
  | 90 => ⟨S32768x32, .f32⟩
  | 91 => ⟨S32768x32, .f32⟩
  | 92 => ⟨S32768x32, .f32⟩
  | 93 => ⟨S_, .f32⟩
  | 94 => ⟨S32768x32, .f32⟩
  | 95 => ⟨S32768x32, .f32⟩
  | 96 => ⟨S_, .f32⟩
  | 97 => ⟨S32768x32, .f32⟩
  | 98 => ⟨S32768x32, .f32⟩
  | 99 => ⟨S32768x32, .f32⟩
  | 100 => ⟨S1x32, .f32⟩
  | 101 => ⟨S32768x32, .f32⟩
  | 102 => ⟨S32768x32, .f32⟩
  | 103 => ⟨S32768x32, .f32⟩
  | 104 => ⟨S32768x32, .f32⟩
  | 105 => ⟨S_, .f32⟩
  | 106 => ⟨S32768x32, .f32⟩
  | 107 => ⟨S32768x32, .f32⟩
  | 108 => ⟨S_, .f32⟩
  | 109 => ⟨S32768x32, .f32⟩
  | 110 => ⟨S32768x32, .f32⟩
  | 111 => ⟨S32768x32, .f32⟩
  | 112 => ⟨S32768x480, .f32⟩
  | 113 => ⟨S32768x32, .f32⟩
  | 114 => ⟨S1x32, .f32⟩
  | 115 => ⟨S32768x32, .f32⟩
  | 116 => ⟨S32768x32, .f32⟩
  | 117 => ⟨S32768x32, .f32⟩
  | 118 => ⟨S_, .f32⟩
  | 119 => ⟨S32768x32, .f32⟩
  | 120 => ⟨S32768x32, .f32⟩
  | 121 => ⟨S32768x32, .f32⟩
  | 122 => ⟨S32768x32, .f32⟩
  | 123 => ⟨S32768x32, .f32⟩
  | 124 => ⟨S1x480x32, .f32⟩
  | 125 => ⟨S480x32, .f32⟩
  | 126 => ⟨S1x32, .f32⟩
  | 127 => ⟨S32, .f32⟩
  | _ => ⟨S32768x24x32, .f32⟩

abbrev hbmTy0_4 (i : Nat) : BufTy := match i % 128 with
  | 0 => ⟨S1x480x32, .f32⟩
  | 1 => ⟨S480x32, .f32⟩
  | 2 => ⟨S1x32, .f32⟩
  | 3 => ⟨S32, .f32⟩
  | 4 => ⟨S1x480x32, .f32⟩
  | 5 => ⟨S480x32, .f32⟩
  | 6 => ⟨S1x32, .f32⟩
  | 7 => ⟨S32, .f32⟩
  | 8 => ⟨S32768x480, .f32⟩
  | 9 => ⟨S32768x32, .f32⟩
  | 10 => ⟨S1x32, .f32⟩
  | 11 => ⟨S32768x32, .f32⟩
  | 12 => ⟨S32768x32, .f32⟩
  | 13 => ⟨S32768x32, .f32⟩
  | 14 => ⟨S32768x32, .f32⟩
  | 15 => ⟨S_, .f32⟩
  | 16 => ⟨S32768x32, .f32⟩
  | 17 => ⟨S32768x32, .f32⟩
  | 18 => ⟨S_, .f32⟩
  | 19 => ⟨S32768x32, .f32⟩
  | 20 => ⟨S32768x32, .f32⟩
  | 21 => ⟨S32768x32, .f32⟩
  | 22 => ⟨S1x32, .f32⟩
  | 23 => ⟨S32768x32, .f32⟩
  | 24 => ⟨S32768x32, .f32⟩
  | 25 => ⟨S32768x32, .f32⟩
  | 26 => ⟨S32768x32, .f32⟩
  | 27 => ⟨S_, .f32⟩
  | 28 => ⟨S32768x32, .f32⟩
  | 29 => ⟨S32768x32, .f32⟩
  | 30 => ⟨S_, .f32⟩
  | 31 => ⟨S32768x32, .f32⟩
  | 32 => ⟨S32768x32, .f32⟩
  | 33 => ⟨S32768x32, .f32⟩
  | 34 => ⟨S32768x480, .f32⟩
  | 35 => ⟨S32768x32, .f32⟩
  | 36 => ⟨S1x32, .f32⟩
  | 37 => ⟨S32768x32, .f32⟩
  | 38 => ⟨S32768x32, .f32⟩
  | 39 => ⟨S32768x32, .f32⟩
  | 40 => ⟨S_, .f32⟩
  | 41 => ⟨S32768x32, .f32⟩
  | 42 => ⟨S32768x32, .f32⟩
  | 43 => ⟨S32768x32, .f32⟩
  | 44 => ⟨S32768x32, .f32⟩
  | 45 => ⟨S32768x32, .f32⟩
  | 46 => ⟨S1x480x32, .f32⟩
  | 47 => ⟨S480x32, .f32⟩
  | 48 => ⟨S1x32, .f32⟩
  | 49 => ⟨S32, .f32⟩
  | 50 => ⟨S1x480x32, .f32⟩
  | 51 => ⟨S480x32, .f32⟩
  | 52 => ⟨S1x32, .f32⟩
  | 53 => ⟨S32, .f32⟩
  | 54 => ⟨S1x480x32, .f32⟩
  | 55 => ⟨S480x32, .f32⟩
  | 56 => ⟨S1x32, .f32⟩
  | 57 => ⟨S32, .f32⟩
  | 58 => ⟨S32768x480, .f32⟩
  | 59 => ⟨S32768x32, .f32⟩
  | 60 => ⟨S1x32, .f32⟩
  | 61 => ⟨S32768x32, .f32⟩
  | 62 => ⟨S32768x32, .f32⟩
  | 63 => ⟨S32768x32, .f32⟩
  | 64 => ⟨S32768x32, .f32⟩
  | 65 => ⟨S_, .f32⟩
  | 66 => ⟨S32768x32, .f32⟩
  | 67 => ⟨S32768x32, .f32⟩
  | 68 => ⟨S_, .f32⟩
  | 69 => ⟨S32768x32, .f32⟩
  | 70 => ⟨S32768x32, .f32⟩
  | 71 => ⟨S32768x32, .f32⟩
  | 72 => ⟨S1x32, .f32⟩
  | 73 => ⟨S32768x32, .f32⟩
  | 74 => ⟨S32768x32, .f32⟩
  | 75 => ⟨S32768x32, .f32⟩
  | 76 => ⟨S32768x32, .f32⟩
  | 77 => ⟨S_, .f32⟩
  | 78 => ⟨S32768x32, .f32⟩
  | 79 => ⟨S32768x32, .f32⟩
  | 80 => ⟨S_, .f32⟩
  | 81 => ⟨S32768x32, .f32⟩
  | 82 => ⟨S32768x32, .f32⟩
  | 83 => ⟨S32768x32, .f32⟩
  | 84 => ⟨S32768x480, .f32⟩
  | 85 => ⟨S32768x32, .f32⟩
  | 86 => ⟨S1x32, .f32⟩
  | 87 => ⟨S32768x32, .f32⟩
  | 88 => ⟨S32768x32, .f32⟩
  | 89 => ⟨S32768x32, .f32⟩
  | 90 => ⟨S_, .f32⟩
  | 91 => ⟨S32768x32, .f32⟩
  | 92 => ⟨S32768x32, .f32⟩
  | 93 => ⟨S32768x32, .f32⟩
  | 94 => ⟨S32768x32, .f32⟩
  | 95 => ⟨S32768x32, .f32⟩
  | 96 => ⟨S1x480x32, .f32⟩
  | 97 => ⟨S480x32, .f32⟩
  | 98 => ⟨S1x32, .f32⟩
  | 99 => ⟨S32, .f32⟩
  | 100 => ⟨S1x480x32, .f32⟩
  | 101 => ⟨S480x32, .f32⟩
  | 102 => ⟨S1x32, .f32⟩
  | 103 => ⟨S32, .f32⟩
  | 104 => ⟨S1x480x32, .f32⟩
  | 105 => ⟨S480x32, .f32⟩
  | 106 => ⟨S1x32, .f32⟩
  | 107 => ⟨S32, .f32⟩
  | 108 => ⟨S32768x480, .f32⟩
  | 109 => ⟨S32768x32, .f32⟩
  | 110 => ⟨S1x32, .f32⟩
  | 111 => ⟨S32768x32, .f32⟩
  | 112 => ⟨S32768x32, .f32⟩
  | 113 => ⟨S32768x32, .f32⟩
  | 114 => ⟨S32768x32, .f32⟩
  | 115 => ⟨S_, .f32⟩
  | 116 => ⟨S32768x32, .f32⟩
  | 117 => ⟨S32768x32, .f32⟩
  | 118 => ⟨S_, .f32⟩
  | 119 => ⟨S32768x32, .f32⟩
  | 120 => ⟨S32768x32, .f32⟩
  | 121 => ⟨S32768x32, .f32⟩
  | 122 => ⟨S1x32, .f32⟩
  | 123 => ⟨S32768x32, .f32⟩
  | 124 => ⟨S32768x32, .f32⟩
  | 125 => ⟨S32768x32, .f32⟩
  | 126 => ⟨S32768x32, .f32⟩
  | 127 => ⟨S_, .f32⟩
  | _ => ⟨S32768x24x32, .f32⟩

abbrev hbmTy0_5 (i : Nat) : BufTy := match i % 128 with
  | 0 => ⟨S32768x32, .f32⟩
  | 1 => ⟨S32768x32, .f32⟩
  | 2 => ⟨S_, .f32⟩
  | 3 => ⟨S32768x32, .f32⟩
  | 4 => ⟨S32768x32, .f32⟩
  | 5 => ⟨S32768x32, .f32⟩
  | 6 => ⟨S32768x480, .f32⟩
  | 7 => ⟨S32768x32, .f32⟩
  | 8 => ⟨S1x32, .f32⟩
  | 9 => ⟨S32768x32, .f32⟩
  | 10 => ⟨S32768x32, .f32⟩
  | 11 => ⟨S32768x32, .f32⟩
  | 12 => ⟨S_, .f32⟩
  | 13 => ⟨S32768x32, .f32⟩
  | 14 => ⟨S32768x32, .f32⟩
  | 15 => ⟨S32768x32, .f32⟩
  | 16 => ⟨S32768x32, .f32⟩
  | 17 => ⟨S32768x32, .f32⟩
  | 18 => ⟨S1x480x32, .f32⟩
  | 19 => ⟨S480x32, .f32⟩
  | 20 => ⟨S1x32, .f32⟩
  | 21 => ⟨S32, .f32⟩
  | 22 => ⟨S1x480x32, .f32⟩
  | 23 => ⟨S480x32, .f32⟩
  | 24 => ⟨S1x32, .f32⟩
  | 25 => ⟨S32, .f32⟩
  | 26 => ⟨S1x480x32, .f32⟩
  | 27 => ⟨S480x32, .f32⟩
  | 28 => ⟨S1x32, .f32⟩
  | 29 => ⟨S32, .f32⟩
  | 30 => ⟨S32768x480, .f32⟩
  | 31 => ⟨S32768x32, .f32⟩
  | 32 => ⟨S1x32, .f32⟩
  | 33 => ⟨S32768x32, .f32⟩
  | 34 => ⟨S32768x32, .f32⟩
  | 35 => ⟨S32768x32, .f32⟩
  | 36 => ⟨S32768x32, .f32⟩
  | 37 => ⟨S_, .f32⟩
  | 38 => ⟨S32768x32, .f32⟩
  | 39 => ⟨S32768x32, .f32⟩
  | 40 => ⟨S_, .f32⟩
  | 41 => ⟨S32768x32, .f32⟩
  | 42 => ⟨S32768x32, .f32⟩
  | 43 => ⟨S32768x32, .f32⟩
  | 44 => ⟨S1x32, .f32⟩
  | 45 => ⟨S32768x32, .f32⟩
  | 46 => ⟨S32768x32, .f32⟩
  | 47 => ⟨S32768x32, .f32⟩
  | 48 => ⟨S32768x32, .f32⟩
  | 49 => ⟨S_, .f32⟩
  | 50 => ⟨S32768x32, .f32⟩
  | 51 => ⟨S32768x32, .f32⟩
  | 52 => ⟨S_, .f32⟩
  | 53 => ⟨S32768x32, .f32⟩
  | 54 => ⟨S32768x32, .f32⟩
  | 55 => ⟨S32768x32, .f32⟩
  | 56 => ⟨S32768x480, .f32⟩
  | 57 => ⟨S32768x32, .f32⟩
  | 58 => ⟨S1x32, .f32⟩
  | 59 => ⟨S32768x32, .f32⟩
  | 60 => ⟨S32768x32, .f32⟩
  | 61 => ⟨S32768x32, .f32⟩
  | 62 => ⟨S_, .f32⟩
  | 63 => ⟨S32768x32, .f32⟩
  | 64 => ⟨S32768x32, .f32⟩
  | 65 => ⟨S32768x32, .f32⟩
  | 66 => ⟨S32768x32, .f32⟩
  | 67 => ⟨S32768x32, .f32⟩
  | 68 => ⟨S1x480x32, .f32⟩
  | 69 => ⟨S480x32, .f32⟩
  | 70 => ⟨S1x32, .f32⟩
  | 71 => ⟨S32, .f32⟩
  | 72 => ⟨S1x480x32, .f32⟩
  | 73 => ⟨S480x32, .f32⟩
  | 74 => ⟨S1x32, .f32⟩
  | 75 => ⟨S32, .f32⟩
  | 76 => ⟨S1x480x32, .f32⟩
  | 77 => ⟨S480x32, .f32⟩
  | 78 => ⟨S1x32, .f32⟩
  | 79 => ⟨S32, .f32⟩
  | 80 => ⟨S32768x480, .f32⟩
  | 81 => ⟨S32768x32, .f32⟩
  | 82 => ⟨S1x32, .f32⟩
  | 83 => ⟨S32768x32, .f32⟩
  | 84 => ⟨S32768x32, .f32⟩
  | 85 => ⟨S32768x32, .f32⟩
  | 86 => ⟨S32768x32, .f32⟩
  | 87 => ⟨S_, .f32⟩
  | 88 => ⟨S32768x32, .f32⟩
  | 89 => ⟨S32768x32, .f32⟩
  | 90 => ⟨S_, .f32⟩
  | 91 => ⟨S32768x32, .f32⟩
  | 92 => ⟨S32768x32, .f32⟩
  | 93 => ⟨S32768x32, .f32⟩
  | 94 => ⟨S1x32, .f32⟩
  | 95 => ⟨S32768x32, .f32⟩
  | 96 => ⟨S32768x32, .f32⟩
  | 97 => ⟨S32768x32, .f32⟩
  | 98 => ⟨S32768x32, .f32⟩
  | 99 => ⟨S_, .f32⟩
  | 100 => ⟨S32768x32, .f32⟩
  | 101 => ⟨S32768x32, .f32⟩
  | 102 => ⟨S_, .f32⟩
  | 103 => ⟨S32768x32, .f32⟩
  | 104 => ⟨S32768x32, .f32⟩
  | 105 => ⟨S32768x32, .f32⟩
  | 106 => ⟨S32768x480, .f32⟩
  | 107 => ⟨S32768x32, .f32⟩
  | 108 => ⟨S1x32, .f32⟩
  | 109 => ⟨S32768x32, .f32⟩
  | 110 => ⟨S32768x32, .f32⟩
  | 111 => ⟨S32768x32, .f32⟩
  | 112 => ⟨S_, .f32⟩
  | 113 => ⟨S32768x32, .f32⟩
  | 114 => ⟨S32768x32, .f32⟩
  | 115 => ⟨S32768x32, .f32⟩
  | 116 => ⟨S32768x32, .f32⟩
  | 117 => ⟨S32768x32, .f32⟩
  | 118 => ⟨S1x480x32, .f32⟩
  | 119 => ⟨S480x32, .f32⟩
  | 120 => ⟨S1x32, .f32⟩
  | 121 => ⟨S32, .f32⟩
  | 122 => ⟨S1x480x32, .f32⟩
  | 123 => ⟨S480x32, .f32⟩
  | 124 => ⟨S1x32, .f32⟩
  | 125 => ⟨S32, .f32⟩
  | 126 => ⟨S1x480x32, .f32⟩
  | 127 => ⟨S480x32, .f32⟩
  | _ => ⟨S32768x24x32, .f32⟩

abbrev hbmTy0_6 (i : Nat) : BufTy := match i % 128 with
  | 0 => ⟨S1x32, .f32⟩
  | 1 => ⟨S32, .f32⟩
  | 2 => ⟨S32768x480, .f32⟩
  | 3 => ⟨S32768x32, .f32⟩
  | 4 => ⟨S1x32, .f32⟩
  | 5 => ⟨S32768x32, .f32⟩
  | 6 => ⟨S32768x32, .f32⟩
  | 7 => ⟨S32768x32, .f32⟩
  | 8 => ⟨S32768x32, .f32⟩
  | 9 => ⟨S_, .f32⟩
  | 10 => ⟨S32768x32, .f32⟩
  | 11 => ⟨S32768x32, .f32⟩
  | 12 => ⟨S_, .f32⟩
  | 13 => ⟨S32768x32, .f32⟩
  | 14 => ⟨S32768x32, .f32⟩
  | 15 => ⟨S32768x32, .f32⟩
  | 16 => ⟨S1x32, .f32⟩
  | 17 => ⟨S32768x32, .f32⟩
  | 18 => ⟨S32768x32, .f32⟩
  | 19 => ⟨S32768x32, .f32⟩
  | 20 => ⟨S32768x32, .f32⟩
  | 21 => ⟨S_, .f32⟩
  | 22 => ⟨S32768x32, .f32⟩
  | 23 => ⟨S32768x32, .f32⟩
  | 24 => ⟨S_, .f32⟩
  | 25 => ⟨S32768x32, .f32⟩
  | 26 => ⟨S32768x32, .f32⟩
  | 27 => ⟨S32768x32, .f32⟩
  | 28 => ⟨S32768x480, .f32⟩
  | 29 => ⟨S32768x32, .f32⟩
  | 30 => ⟨S1x32, .f32⟩
  | 31 => ⟨S32768x32, .f32⟩
  | 32 => ⟨S32768x32, .f32⟩
  | 33 => ⟨S32768x32, .f32⟩
  | 34 => ⟨S_, .f32⟩
  | 35 => ⟨S32768x32, .f32⟩
  | 36 => ⟨S32768x32, .f32⟩
  | 37 => ⟨S32768x32, .f32⟩
  | 38 => ⟨S32768x32, .f32⟩
  | 39 => ⟨S32768x32, .f32⟩
  | 40 => ⟨S1x480x32, .f32⟩
  | 41 => ⟨S480x32, .f32⟩
  | 42 => ⟨S1x32, .f32⟩
  | 43 => ⟨S32, .f32⟩
  | 44 => ⟨S1x480x32, .f32⟩
  | 45 => ⟨S480x32, .f32⟩
  | 46 => ⟨S1x32, .f32⟩
  | 47 => ⟨S32, .f32⟩
  | 48 => ⟨S1x480x32, .f32⟩
  | 49 => ⟨S480x32, .f32⟩
  | 50 => ⟨S1x32, .f32⟩
  | 51 => ⟨S32, .f32⟩
  | 52 => ⟨S32768x480, .f32⟩
  | 53 => ⟨S32768x32, .f32⟩
  | 54 => ⟨S1x32, .f32⟩
  | 55 => ⟨S32768x32, .f32⟩
  | 56 => ⟨S32768x32, .f32⟩
  | 57 => ⟨S32768x32, .f32⟩
  | 58 => ⟨S32768x32, .f32⟩
  | 59 => ⟨S_, .f32⟩
  | 60 => ⟨S32768x32, .f32⟩
  | 61 => ⟨S32768x32, .f32⟩
  | 62 => ⟨S_, .f32⟩
  | 63 => ⟨S32768x32, .f32⟩
  | 64 => ⟨S32768x32, .f32⟩
  | 65 => ⟨S32768x32, .f32⟩
  | 66 => ⟨S1x32, .f32⟩
  | 67 => ⟨S32768x32, .f32⟩
  | 68 => ⟨S32768x32, .f32⟩
  | 69 => ⟨S32768x32, .f32⟩
  | 70 => ⟨S32768x32, .f32⟩
  | 71 => ⟨S_, .f32⟩
  | 72 => ⟨S32768x32, .f32⟩
  | 73 => ⟨S32768x32, .f32⟩
  | 74 => ⟨S_, .f32⟩
  | 75 => ⟨S32768x32, .f32⟩
  | 76 => ⟨S32768x32, .f32⟩
  | 77 => ⟨S32768x32, .f32⟩
  | 78 => ⟨S32768x480, .f32⟩
  | 79 => ⟨S32768x32, .f32⟩
  | 80 => ⟨S1x32, .f32⟩
  | 81 => ⟨S32768x32, .f32⟩
  | 82 => ⟨S32768x32, .f32⟩
  | 83 => ⟨S32768x32, .f32⟩
  | 84 => ⟨S_, .f32⟩
  | 85 => ⟨S32768x32, .f32⟩
  | 86 => ⟨S32768x32, .f32⟩
  | 87 => ⟨S32768x32, .f32⟩
  | 88 => ⟨S32768x32, .f32⟩
  | 89 => ⟨S32768x32, .f32⟩
  | 90 => ⟨S1x480x32, .f32⟩
  | 91 => ⟨S480x32, .f32⟩
  | 92 => ⟨S1x32, .f32⟩
  | 93 => ⟨S32, .f32⟩
  | 94 => ⟨S1x480x32, .f32⟩
  | 95 => ⟨S480x32, .f32⟩
  | 96 => ⟨S1x32, .f32⟩
  | 97 => ⟨S32, .f32⟩
  | 98 => ⟨S1x480x32, .f32⟩
  | 99 => ⟨S480x32, .f32⟩
  | 100 => ⟨S1x32, .f32⟩
  | 101 => ⟨S32, .f32⟩
  | 102 => ⟨S32768x480, .f32⟩
  | 103 => ⟨S32768x32, .f32⟩
  | 104 => ⟨S1x32, .f32⟩
  | 105 => ⟨S32768x32, .f32⟩
  | 106 => ⟨S32768x32, .f32⟩
  | 107 => ⟨S32768x32, .f32⟩
  | 108 => ⟨S32768x32, .f32⟩
  | 109 => ⟨S_, .f32⟩
  | 110 => ⟨S32768x32, .f32⟩
  | 111 => ⟨S32768x32, .f32⟩
  | 112 => ⟨S_, .f32⟩
  | 113 => ⟨S32768x32, .f32⟩
  | 114 => ⟨S32768x32, .f32⟩
  | 115 => ⟨S32768x32, .f32⟩
  | 116 => ⟨S1x32, .f32⟩
  | 117 => ⟨S32768x32, .f32⟩
  | 118 => ⟨S32768x32, .f32⟩
  | 119 => ⟨S32768x32, .f32⟩
  | 120 => ⟨S32768x32, .f32⟩
  | 121 => ⟨S_, .f32⟩
  | 122 => ⟨S32768x32, .f32⟩
  | 123 => ⟨S32768x32, .f32⟩
  | 124 => ⟨S_, .f32⟩
  | 125 => ⟨S32768x32, .f32⟩
  | 126 => ⟨S32768x32, .f32⟩
  | 127 => ⟨S32768x32, .f32⟩
  | _ => ⟨S32768x24x32, .f32⟩

abbrev hbmTy0_7 (i : Nat) : BufTy := match i % 128 with
  | 0 => ⟨S32768x480, .f32⟩
  | 1 => ⟨S32768x32, .f32⟩
  | 2 => ⟨S1x32, .f32⟩
  | 3 => ⟨S32768x32, .f32⟩
  | 4 => ⟨S32768x32, .f32⟩
  | 5 => ⟨S32768x32, .f32⟩
  | 6 => ⟨S_, .f32⟩
  | 7 => ⟨S32768x32, .f32⟩
  | 8 => ⟨S32768x32, .f32⟩
  | 9 => ⟨S32768x32, .f32⟩
  | 10 => ⟨S32768x32, .f32⟩
  | 11 => ⟨S32768x32, .f32⟩
  | 12 => ⟨S1x480x32, .f32⟩
  | 13 => ⟨S480x32, .f32⟩
  | 14 => ⟨S1x32, .f32⟩
  | 15 => ⟨S32, .f32⟩
  | 16 => ⟨S1x480x32, .f32⟩
  | 17 => ⟨S480x32, .f32⟩
  | 18 => ⟨S1x32, .f32⟩
  | 19 => ⟨S32, .f32⟩
  | 20 => ⟨S1x480x32, .f32⟩
  | 21 => ⟨S480x32, .f32⟩
  | 22 => ⟨S1x32, .f32⟩
  | 23 => ⟨S32, .f32⟩
  | 24 => ⟨S32768x480, .f32⟩
  | 25 => ⟨S32768x32, .f32⟩
  | 26 => ⟨S1x32, .f32⟩
  | 27 => ⟨S32768x32, .f32⟩
  | 28 => ⟨S32768x32, .f32⟩
  | 29 => ⟨S32768x32, .f32⟩
  | 30 => ⟨S32768x32, .f32⟩
  | 31 => ⟨S_, .f32⟩
  | 32 => ⟨S32768x32, .f32⟩
  | 33 => ⟨S32768x32, .f32⟩
  | 34 => ⟨S_, .f32⟩
  | 35 => ⟨S32768x32, .f32⟩
  | 36 => ⟨S32768x32, .f32⟩
  | 37 => ⟨S32768x32, .f32⟩
  | 38 => ⟨S1x32, .f32⟩
  | 39 => ⟨S32768x32, .f32⟩
  | 40 => ⟨S32768x32, .f32⟩
  | 41 => ⟨S32768x32, .f32⟩
  | 42 => ⟨S32768x32, .f32⟩
  | 43 => ⟨S_, .f32⟩
  | 44 => ⟨S32768x32, .f32⟩
  | 45 => ⟨S32768x32, .f32⟩
  | 46 => ⟨S_, .f32⟩
  | 47 => ⟨S32768x32, .f32⟩
  | 48 => ⟨S32768x32, .f32⟩
  | 49 => ⟨S32768x32, .f32⟩
  | 50 => ⟨S32768x480, .f32⟩
  | 51 => ⟨S32768x32, .f32⟩
  | 52 => ⟨S1x32, .f32⟩
  | 53 => ⟨S32768x32, .f32⟩
  | 54 => ⟨S32768x32, .f32⟩
  | 55 => ⟨S32768x32, .f32⟩
  | 56 => ⟨S_, .f32⟩
  | 57 => ⟨S32768x32, .f32⟩
  | 58 => ⟨S32768x32, .f32⟩
  | 59 => ⟨S32768x32, .f32⟩
  | 60 => ⟨S32768x32, .f32⟩
  | 61 => ⟨S32768x32, .f32⟩
  | 62 => ⟨S1x480x32, .f32⟩
  | 63 => ⟨S480x32, .f32⟩
  | 64 => ⟨S1x32, .f32⟩
  | 65 => ⟨S32, .f32⟩
  | 66 => ⟨S1x480x32, .f32⟩
  | 67 => ⟨S480x32, .f32⟩
  | 68 => ⟨S1x32, .f32⟩
  | 69 => ⟨S32, .f32⟩
  | 70 => ⟨S1x480x32, .f32⟩
  | 71 => ⟨S480x32, .f32⟩
  | 72 => ⟨S1x32, .f32⟩
  | 73 => ⟨S32, .f32⟩
  | 74 => ⟨S32768x480, .f32⟩
  | 75 => ⟨S32768x32, .f32⟩
  | 76 => ⟨S1x32, .f32⟩
  | 77 => ⟨S32768x32, .f32⟩
  | 78 => ⟨S32768x32, .f32⟩
  | 79 => ⟨S32768x32, .f32⟩
  | 80 => ⟨S32768x32, .f32⟩
  | 81 => ⟨S_, .f32⟩
  | 82 => ⟨S32768x32, .f32⟩
  | 83 => ⟨S32768x32, .f32⟩
  | 84 => ⟨S_, .f32⟩
  | 85 => ⟨S32768x32, .f32⟩
  | 86 => ⟨S32768x32, .f32⟩
  | 87 => ⟨S32768x32, .f32⟩
  | 88 => ⟨S1x32, .f32⟩
  | 89 => ⟨S32768x32, .f32⟩
  | 90 => ⟨S32768x32, .f32⟩
  | 91 => ⟨S32768x32, .f32⟩
  | 92 => ⟨S32768x32, .f32⟩
  | 93 => ⟨S_, .f32⟩
  | 94 => ⟨S32768x32, .f32⟩
  | 95 => ⟨S32768x32, .f32⟩
  | 96 => ⟨S_, .f32⟩
  | 97 => ⟨S32768x32, .f32⟩
  | 98 => ⟨S32768x32, .f32⟩
  | 99 => ⟨S32768x32, .f32⟩
  | 100 => ⟨S32768x480, .f32⟩
  | 101 => ⟨S32768x32, .f32⟩
  | 102 => ⟨S1x32, .f32⟩
  | 103 => ⟨S32768x32, .f32⟩
  | 104 => ⟨S32768x32, .f32⟩
  | 105 => ⟨S32768x32, .f32⟩
  | 106 => ⟨S_, .f32⟩
  | 107 => ⟨S32768x32, .f32⟩
  | 108 => ⟨S32768x32, .f32⟩
  | 109 => ⟨S32768x32, .f32⟩
  | 110 => ⟨S32768x32, .f32⟩
  | 111 => ⟨S32768x32, .f32⟩
  | 112 => ⟨S1x480x32, .f32⟩
  | 113 => ⟨S480x32, .f32⟩
  | 114 => ⟨S1x32, .f32⟩
  | 115 => ⟨S32, .f32⟩
  | 116 => ⟨S1x480x32, .f32⟩
  | 117 => ⟨S480x32, .f32⟩
  | 118 => ⟨S1x32, .f32⟩
  | 119 => ⟨S32, .f32⟩
  | 120 => ⟨S1x480x32, .f32⟩
  | 121 => ⟨S480x32, .f32⟩
  | 122 => ⟨S1x32, .f32⟩
  | 123 => ⟨S32, .f32⟩
  | 124 => ⟨S32768x480, .f32⟩
  | 125 => ⟨S32768x32, .f32⟩
  | 126 => ⟨S1x32, .f32⟩
  | 127 => ⟨S32768x32, .f32⟩
  | _ => ⟨S32768x24x32, .f32⟩

abbrev hbmTy0_8 (i : Nat) : BufTy := match i % 128 with
  | 0 => ⟨S32768x32, .f32⟩
  | 1 => ⟨S32768x32, .f32⟩
  | 2 => ⟨S32768x32, .f32⟩
  | 3 => ⟨S_, .f32⟩
  | 4 => ⟨S32768x32, .f32⟩
  | 5 => ⟨S32768x32, .f32⟩
  | 6 => ⟨S_, .f32⟩
  | 7 => ⟨S32768x32, .f32⟩
  | 8 => ⟨S32768x32, .f32⟩
  | 9 => ⟨S32768x32, .f32⟩
  | 10 => ⟨S1x32, .f32⟩
  | 11 => ⟨S32768x32, .f32⟩
  | 12 => ⟨S32768x32, .f32⟩
  | 13 => ⟨S32768x32, .f32⟩
  | 14 => ⟨S32768x32, .f32⟩
  | 15 => ⟨S_, .f32⟩
  | 16 => ⟨S32768x32, .f32⟩
  | 17 => ⟨S32768x32, .f32⟩
  | 18 => ⟨S_, .f32⟩
  | 19 => ⟨S32768x32, .f32⟩
  | 20 => ⟨S32768x32, .f32⟩
  | 21 => ⟨S32768x32, .f32⟩
  | 22 => ⟨S32768x480, .f32⟩
  | 23 => ⟨S32768x32, .f32⟩
  | 24 => ⟨S1x32, .f32⟩
  | 25 => ⟨S32768x32, .f32⟩
  | 26 => ⟨S32768x32, .f32⟩
  | 27 => ⟨S32768x32, .f32⟩
  | 28 => ⟨S_, .f32⟩
  | 29 => ⟨S32768x32, .f32⟩
  | 30 => ⟨S32768x32, .f32⟩
  | 31 => ⟨S32768x32, .f32⟩
  | 32 => ⟨S32768x32, .f32⟩
  | 33 => ⟨S32768x32, .f32⟩
  | 34 => ⟨S1x480x32, .f32⟩
  | 35 => ⟨S480x32, .f32⟩
  | 36 => ⟨S1x32, .f32⟩
  | 37 => ⟨S32, .f32⟩
  | 38 => ⟨S1x480x32, .f32⟩
  | 39 => ⟨S480x32, .f32⟩
  | 40 => ⟨S1x32, .f32⟩
  | 41 => ⟨S32, .f32⟩
  | 42 => ⟨S1x480x32, .f32⟩
  | 43 => ⟨S480x32, .f32⟩
  | 44 => ⟨S1x32, .f32⟩
  | 45 => ⟨S32, .f32⟩
  | 46 => ⟨S32768x480, .f32⟩
  | 47 => ⟨S32768x32, .f32⟩
  | 48 => ⟨S1x32, .f32⟩
  | 49 => ⟨S32768x32, .f32⟩
  | 50 => ⟨S32768x32, .f32⟩
  | 51 => ⟨S32768x32, .f32⟩
  | 52 => ⟨S32768x32, .f32⟩
  | 53 => ⟨S_, .f32⟩
  | 54 => ⟨S32768x32, .f32⟩
  | 55 => ⟨S32768x32, .f32⟩
  | 56 => ⟨S_, .f32⟩
  | 57 => ⟨S32768x32, .f32⟩
  | 58 => ⟨S32768x32, .f32⟩
  | 59 => ⟨S32768x32, .f32⟩
  | 60 => ⟨S1x32, .f32⟩
  | 61 => ⟨S32768x32, .f32⟩
  | 62 => ⟨S32768x32, .f32⟩
  | 63 => ⟨S32768x32, .f32⟩
  | 64 => ⟨S32768x32, .f32⟩
  | 65 => ⟨S_, .f32⟩
  | 66 => ⟨S32768x32, .f32⟩
  | 67 => ⟨S32768x32, .f32⟩
  | 68 => ⟨S_, .f32⟩
  | 69 => ⟨S32768x32, .f32⟩
  | 70 => ⟨S32768x32, .f32⟩
  | 71 => ⟨S32768x32, .f32⟩
  | 72 => ⟨S32768x480, .f32⟩
  | 73 => ⟨S32768x32, .f32⟩
  | 74 => ⟨S1x32, .f32⟩
  | 75 => ⟨S32768x32, .f32⟩
  | 76 => ⟨S32768x32, .f32⟩
  | 77 => ⟨S32768x32, .f32⟩
  | 78 => ⟨S_, .f32⟩
  | 79 => ⟨S32768x32, .f32⟩
  | 80 => ⟨S32768x32, .f32⟩
  | 81 => ⟨S32768x32, .f32⟩
  | 82 => ⟨S32768x32, .f32⟩
  | 83 => ⟨S32768x32, .f32⟩
  | 84 => ⟨S1x480x32, .f32⟩
  | 85 => ⟨S480x32, .f32⟩
  | 86 => ⟨S1x32, .f32⟩
  | 87 => ⟨S32, .f32⟩
  | 88 => ⟨S1x480x32, .f32⟩
  | 89 => ⟨S480x32, .f32⟩
  | 90 => ⟨S1x32, .f32⟩
  | 91 => ⟨S32, .f32⟩
  | 92 => ⟨S1x480x32, .f32⟩
  | 93 => ⟨S480x32, .f32⟩
  | 94 => ⟨S1x32, .f32⟩
  | 95 => ⟨S32, .f32⟩
  | 96 => ⟨S32768x480, .f32⟩
  | 97 => ⟨S32768x32, .f32⟩
  | 98 => ⟨S1x32, .f32⟩
  | 99 => ⟨S32768x32, .f32⟩
  | 100 => ⟨S32768x32, .f32⟩
  | 101 => ⟨S32768x32, .f32⟩
  | 102 => ⟨S32768x32, .f32⟩
  | 103 => ⟨S_, .f32⟩
  | 104 => ⟨S32768x32, .f32⟩
  | 105 => ⟨S32768x32, .f32⟩
  | 106 => ⟨S_, .f32⟩
  | 107 => ⟨S32768x32, .f32⟩
  | 108 => ⟨S32768x32, .f32⟩
  | 109 => ⟨S32768x32, .f32⟩
  | 110 => ⟨S1x32, .f32⟩
  | 111 => ⟨S32768x32, .f32⟩
  | 112 => ⟨S32768x32, .f32⟩
  | 113 => ⟨S32768x32, .f32⟩
  | 114 => ⟨S32768x32, .f32⟩
  | 115 => ⟨S_, .f32⟩
  | 116 => ⟨S32768x32, .f32⟩
  | 117 => ⟨S32768x32, .f32⟩
  | 118 => ⟨S_, .f32⟩
  | 119 => ⟨S32768x32, .f32⟩
  | 120 => ⟨S32768x32, .f32⟩
  | 121 => ⟨S32768x32, .f32⟩
  | 122 => ⟨S32768x480, .f32⟩
  | 123 => ⟨S32768x32, .f32⟩
  | 124 => ⟨S1x32, .f32⟩
  | 125 => ⟨S32768x32, .f32⟩
  | 126 => ⟨S32768x32, .f32⟩
  | 127 => ⟨S32768x32, .f32⟩
  | _ => ⟨S32768x24x32, .f32⟩

abbrev hbmTy0_9 (i : Nat) : BufTy := match i % 128 with
  | 0 => ⟨S_, .f32⟩
  | 1 => ⟨S32768x32, .f32⟩
  | 2 => ⟨S32768x32, .f32⟩
  | 3 => ⟨S32768x32, .f32⟩
  | 4 => ⟨S32768x32, .f32⟩
  | 5 => ⟨S32768x32, .f32⟩
  | 6 => ⟨S1x480x32, .f32⟩
  | 7 => ⟨S480x32, .f32⟩
  | 8 => ⟨S1x32, .f32⟩
  | 9 => ⟨S32, .f32⟩
  | 10 => ⟨S1x480x32, .f32⟩
  | 11 => ⟨S480x32, .f32⟩
  | 12 => ⟨S1x32, .f32⟩
  | 13 => ⟨S32, .f32⟩
  | 14 => ⟨S1x480x32, .f32⟩
  | 15 => ⟨S480x32, .f32⟩
  | 16 => ⟨S1x32, .f32⟩
  | 17 => ⟨S32, .f32⟩
  | 18 => ⟨S32768x480, .f32⟩
  | 19 => ⟨S32768x32, .f32⟩
  | 20 => ⟨S1x32, .f32⟩
  | 21 => ⟨S32768x32, .f32⟩
  | 22 => ⟨S32768x32, .f32⟩
  | 23 => ⟨S32768x32, .f32⟩
  | 24 => ⟨S32768x32, .f32⟩
  | 25 => ⟨S_, .f32⟩
  | 26 => ⟨S32768x32, .f32⟩
  | 27 => ⟨S32768x32, .f32⟩
  | 28 => ⟨S_, .f32⟩
  | 29 => ⟨S32768x32, .f32⟩
  | 30 => ⟨S32768x32, .f32⟩
  | 31 => ⟨S32768x32, .f32⟩
  | 32 => ⟨S1x32, .f32⟩
  | 33 => ⟨S32768x32, .f32⟩
  | 34 => ⟨S32768x32, .f32⟩
  | 35 => ⟨S32768x32, .f32⟩
  | 36 => ⟨S32768x32, .f32⟩
  | 37 => ⟨S_, .f32⟩
  | 38 => ⟨S32768x32, .f32⟩
  | 39 => ⟨S32768x32, .f32⟩
  | 40 => ⟨S_, .f32⟩
  | 41 => ⟨S32768x32, .f32⟩
  | 42 => ⟨S32768x32, .f32⟩
  | 43 => ⟨S32768x32, .f32⟩
  | 44 => ⟨S32768x480, .f32⟩
  | 45 => ⟨S32768x32, .f32⟩
  | 46 => ⟨S1x32, .f32⟩
  | 47 => ⟨S32768x32, .f32⟩
  | 48 => ⟨S32768x32, .f32⟩
  | 49 => ⟨S32768x32, .f32⟩
  | 50 => ⟨S_, .f32⟩
  | 51 => ⟨S32768x32, .f32⟩
  | 52 => ⟨S32768x32, .f32⟩
  | 53 => ⟨S32768x32, .f32⟩
  | 54 => ⟨S32768x32, .f32⟩
  | 55 => ⟨S32768x32, .f32⟩
  | 56 => ⟨S1x480x32, .f32⟩
  | 57 => ⟨S480x32, .f32⟩
  | 58 => ⟨S1x32, .f32⟩
  | 59 => ⟨S32, .f32⟩
  | 60 => ⟨S1x480x32, .f32⟩
  | 61 => ⟨S480x32, .f32⟩
  | 62 => ⟨S1x32, .f32⟩
  | 63 => ⟨S32, .f32⟩
  | 64 => ⟨S1x480x32, .f32⟩
  | 65 => ⟨S480x32, .f32⟩
  | 66 => ⟨S1x32, .f32⟩
  | 67 => ⟨S32, .f32⟩
  | 68 => ⟨S32768x480, .f32⟩
  | 69 => ⟨S32768x32, .f32⟩
  | 70 => ⟨S1x32, .f32⟩
  | 71 => ⟨S32768x32, .f32⟩
  | 72 => ⟨S32768x32, .f32⟩
  | 73 => ⟨S32768x32, .f32⟩
  | 74 => ⟨S32768x32, .f32⟩
  | 75 => ⟨S_, .f32⟩
  | 76 => ⟨S32768x32, .f32⟩
  | 77 => ⟨S32768x32, .f32⟩
  | 78 => ⟨S_, .f32⟩
  | 79 => ⟨S32768x32, .f32⟩
  | 80 => ⟨S32768x32, .f32⟩
  | 81 => ⟨S32768x32, .f32⟩
  | 82 => ⟨S1x32, .f32⟩
  | 83 => ⟨S32768x32, .f32⟩
  | 84 => ⟨S32768x32, .f32⟩
  | 85 => ⟨S32768x32, .f32⟩
  | 86 => ⟨S32768x32, .f32⟩
  | 87 => ⟨S_, .f32⟩
  | 88 => ⟨S32768x32, .f32⟩
  | 89 => ⟨S32768x32, .f32⟩
  | 90 => ⟨S_, .f32⟩
  | 91 => ⟨S32768x32, .f32⟩
  | 92 => ⟨S32768x32, .f32⟩
  | 93 => ⟨S32768x32, .f32⟩
  | 94 => ⟨S32768x480, .f32⟩
  | 95 => ⟨S32768x32, .f32⟩
  | 96 => ⟨S1x32, .f32⟩
  | 97 => ⟨S32768x32, .f32⟩
  | 98 => ⟨S32768x32, .f32⟩
  | 99 => ⟨S32768x32, .f32⟩
  | 100 => ⟨S_, .f32⟩
  | 101 => ⟨S32768x32, .f32⟩
  | 102 => ⟨S32768x32, .f32⟩
  | 103 => ⟨S32768x32, .f32⟩
  | 104 => ⟨S32768x32, .f32⟩
  | 105 => ⟨S32768x32, .f32⟩
  | 106 => ⟨S32768x1x32, .f32⟩
  | 107 => ⟨S32768x1x32, .f32⟩
  | 108 => ⟨S32768x1x32, .f32⟩
  | 109 => ⟨S32768x1x32, .f32⟩
  | 110 => ⟨S32768x1x32, .f32⟩
  | 111 => ⟨S32768x1x32, .f32⟩
  | 112 => ⟨S32768x1x32, .f32⟩
  | 113 => ⟨S32768x1x32, .f32⟩
  | 114 => ⟨S32768x1x32, .f32⟩
  | 115 => ⟨S32768x1x32, .f32⟩
  | 116 => ⟨S32768x1x32, .f32⟩
  | 117 => ⟨S32768x1x32, .f32⟩
  | 118 => ⟨S32768x1x32, .f32⟩
  | 119 => ⟨S32768x1x32, .f32⟩
  | 120 => ⟨S32768x1x32, .f32⟩
  | 121 => ⟨S32768x1x32, .f32⟩
  | 122 => ⟨S32768x1x32, .f32⟩
  | 123 => ⟨S32768x1x32, .f32⟩
  | 124 => ⟨S32768x1x32, .f32⟩
  | 125 => ⟨S32768x1x32, .f32⟩
  | 126 => ⟨S32768x1x32, .f32⟩
  | 127 => ⟨S32768x1x32, .f32⟩
  | _ => ⟨S32768x24x32, .f32⟩

abbrev hbmTy0_10 (i : Nat) : BufTy := match i % 128 with
  | 0 => ⟨S32768x1x32, .f32⟩
  | 1 => ⟨S32768x1x32, .f32⟩
  | 2 => ⟨S32768x16x32, .f32⟩
  | 3 => ⟨S32768x8x32, .f32⟩
  | 4 => ⟨S32768x24x32, .f32⟩
  | _ => ⟨S32768x24x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S32768x24x32, .f32⟩

abbrev bufTy : (tb : Table) → Fin (tcTables nBuf tb) → BufTy
  | .hbm, ⟨i, _⟩ => hbmTy i
  | _, _ => ⟨S32768x24x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst : Ref sig .tc := ⟨.hbm, 77, rfl⟩
abbrev main_v69 : Ref sig .tc := ⟨.hbm, 78, rfl⟩
abbrev main_v70 : Ref sig .tc := ⟨.hbm, 79, rfl⟩
abbrev main_cst_0 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_1 : Ref sig .tc := ⟨.hbm, 89, rfl⟩
abbrev main_v79 : Ref sig .tc := ⟨.hbm, 90, rfl⟩
abbrev main_v80 : Ref sig .tc := ⟨.hbm, 91, rfl⟩
abbrev main_cst_2 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_3 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_cst_4 : Ref sig .tc := ⟨.hbm, 127, rfl⟩
abbrev main_v114 : Ref sig .tc := ⟨.hbm, 128, rfl⟩
abbrev main_v115 : Ref sig .tc := ⟨.hbm, 129, rfl⟩
abbrev main_cst_5 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_cst_6 : Ref sig .tc := ⟨.hbm, 139, rfl⟩
abbrev main_v124 : Ref sig .tc := ⟨.hbm, 140, rfl⟩
abbrev main_v125 : Ref sig .tc := ⟨.hbm, 141, rfl⟩
abbrev main_cst_7 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_cst_8 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_cst_9 : Ref sig .tc := ⟨.hbm, 177, rfl⟩
abbrev main_v159 : Ref sig .tc := ⟨.hbm, 178, rfl⟩
abbrev main_v160 : Ref sig .tc := ⟨.hbm, 179, rfl⟩
abbrev main_cst_10 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_cst_11 : Ref sig .tc := ⟨.hbm, 189, rfl⟩
abbrev main_v169 : Ref sig .tc := ⟨.hbm, 190, rfl⟩
abbrev main_v170 : Ref sig .tc := ⟨.hbm, 191, rfl⟩
abbrev main_cst_12 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_cst_13 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_cst_14 : Ref sig .tc := ⟨.hbm, 227, rfl⟩
abbrev main_v204 : Ref sig .tc := ⟨.hbm, 228, rfl⟩
abbrev main_v205 : Ref sig .tc := ⟨.hbm, 229, rfl⟩
abbrev main_cst_15 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_cst_16 : Ref sig .tc := ⟨.hbm, 239, rfl⟩
abbrev main_v214 : Ref sig .tc := ⟨.hbm, 240, rfl⟩
abbrev main_v215 : Ref sig .tc := ⟨.hbm, 241, rfl⟩
abbrev main_cst_17 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_cst_18 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_cst_19 : Ref sig .tc := ⟨.hbm, 277, rfl⟩
abbrev main_v249 : Ref sig .tc := ⟨.hbm, 278, rfl⟩
abbrev main_v250 : Ref sig .tc := ⟨.hbm, 279, rfl⟩
abbrev main_cst_20 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_cst_21 : Ref sig .tc := ⟨.hbm, 289, rfl⟩
abbrev main_v259 : Ref sig .tc := ⟨.hbm, 290, rfl⟩
abbrev main_v260 : Ref sig .tc := ⟨.hbm, 291, rfl⟩
abbrev main_cst_22 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_cst_23 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_cst_24 : Ref sig .tc := ⟨.hbm, 327, rfl⟩
abbrev main_v294 : Ref sig .tc := ⟨.hbm, 328, rfl⟩
abbrev main_v295 : Ref sig .tc := ⟨.hbm, 329, rfl⟩
abbrev main_cst_25 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_cst_26 : Ref sig .tc := ⟨.hbm, 339, rfl⟩
abbrev main_v304 : Ref sig .tc := ⟨.hbm, 340, rfl⟩
abbrev main_v305 : Ref sig .tc := ⟨.hbm, 341, rfl⟩
abbrev main_cst_27 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_v314 : Ref sig .tc := ⟨.hbm, 351, rfl⟩
abbrev main_cst_28 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩
abbrev main_v328 : Ref sig .tc := ⟨.hbm, 366, rfl⟩
abbrev main_v329 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_cst_29 : Ref sig .tc := ⟨.hbm, 377, rfl⟩
abbrev main_v339 : Ref sig .tc := ⟨.hbm, 378, rfl⟩
abbrev main_v340 : Ref sig .tc := ⟨.hbm, 379, rfl⟩
abbrev main_cst_30 : Ref sig .tc := ⟨.hbm, 380, rfl⟩
abbrev main_v341 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_cst_31 : Ref sig .tc := ⟨.hbm, 389, rfl⟩
abbrev main_v349 : Ref sig .tc := ⟨.hbm, 390, rfl⟩
abbrev main_v350 : Ref sig .tc := ⟨.hbm, 391, rfl⟩
abbrev main_cst_32 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_v355 : Ref sig .tc := ⟨.hbm, 397, rfl⟩
abbrev main_v356 : Ref sig .tc := ⟨.hbm, 398, rfl⟩
abbrev main_v357 : Ref sig .tc := ⟨.hbm, 399, rfl⟩
abbrev main_v358 : Ref sig .tc := ⟨.hbm, 400, rfl⟩
abbrev main_v359 : Ref sig .tc := ⟨.hbm, 401, rfl⟩
abbrev main_cst_33 : Ref sig .tc := ⟨.hbm, 402, rfl⟩
abbrev main_v360 : Ref sig .tc := ⟨.hbm, 403, rfl⟩
abbrev main_v361 : Ref sig .tc := ⟨.hbm, 404, rfl⟩
abbrev main_v362 : Ref sig .tc := ⟨.hbm, 405, rfl⟩
abbrev main_v363 : Ref sig .tc := ⟨.hbm, 406, rfl⟩
abbrev main_v364 : Ref sig .tc := ⟨.hbm, 407, rfl⟩
abbrev main_v365 : Ref sig .tc := ⟨.hbm, 408, rfl⟩
abbrev main_v366 : Ref sig .tc := ⟨.hbm, 409, rfl⟩
abbrev main_v367 : Ref sig .tc := ⟨.hbm, 410, rfl⟩
abbrev main_v368 : Ref sig .tc := ⟨.hbm, 411, rfl⟩
abbrev main_v369 : Ref sig .tc := ⟨.hbm, 412, rfl⟩
abbrev main_v370 : Ref sig .tc := ⟨.hbm, 413, rfl⟩
abbrev main_v371 : Ref sig .tc := ⟨.hbm, 414, rfl⟩
abbrev main_v372 : Ref sig .tc := ⟨.hbm, 415, rfl⟩
abbrev main_v373 : Ref sig .tc := ⟨.hbm, 416, rfl⟩
abbrev main_v374 : Ref sig .tc := ⟨.hbm, 417, rfl⟩
abbrev main_v375 : Ref sig .tc := ⟨.hbm, 418, rfl⟩
abbrev main_v376 : Ref sig .tc := ⟨.hbm, 419, rfl⟩
abbrev main_v377 : Ref sig .tc := ⟨.hbm, 420, rfl⟩
abbrev main_v378 : Ref sig .tc := ⟨.hbm, 421, rfl⟩
abbrev main_v379 : Ref sig .tc := ⟨.hbm, 422, rfl⟩
abbrev main_v380 : Ref sig .tc := ⟨.hbm, 423, rfl⟩
abbrev main_v381 : Ref sig .tc := ⟨.hbm, 424, rfl⟩
abbrev main_v382 : Ref sig .tc := ⟨.hbm, 425, rfl⟩
abbrev main_v383 : Ref sig .tc := ⟨.hbm, 426, rfl⟩
abbrev main_cst_34 : Ref sig .tc := ⟨.hbm, 427, rfl⟩
abbrev main_v384 : Ref sig .tc := ⟨.hbm, 428, rfl⟩
abbrev main_v385 : Ref sig .tc := ⟨.hbm, 429, rfl⟩
abbrev main_cst_35 : Ref sig .tc := ⟨.hbm, 430, rfl⟩
abbrev main_v386 : Ref sig .tc := ⟨.hbm, 431, rfl⟩
abbrev main_v387 : Ref sig .tc := ⟨.hbm, 432, rfl⟩
abbrev main_v388 : Ref sig .tc := ⟨.hbm, 433, rfl⟩
abbrev main_v389 : Ref sig .tc := ⟨.hbm, 434, rfl⟩
abbrev main_v390 : Ref sig .tc := ⟨.hbm, 435, rfl⟩
abbrev main_v391 : Ref sig .tc := ⟨.hbm, 436, rfl⟩
abbrev main_v392 : Ref sig .tc := ⟨.hbm, 437, rfl⟩
abbrev main_v393 : Ref sig .tc := ⟨.hbm, 438, rfl⟩
abbrev main_cst_36 : Ref sig .tc := ⟨.hbm, 439, rfl⟩
abbrev main_v394 : Ref sig .tc := ⟨.hbm, 440, rfl⟩
abbrev main_v395 : Ref sig .tc := ⟨.hbm, 441, rfl⟩
abbrev main_cst_37 : Ref sig .tc := ⟨.hbm, 442, rfl⟩
abbrev main_v396 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_cst_38 : Ref sig .tc := ⟨.hbm, 452, rfl⟩
abbrev main_v405 : Ref sig .tc := ⟨.hbm, 453, rfl⟩
abbrev main_v406 : Ref sig .tc := ⟨.hbm, 454, rfl⟩
abbrev main_v407 : Ref sig .tc := ⟨.hbm, 455, rfl⟩
abbrev main_v408 : Ref sig .tc := ⟨.hbm, 456, rfl⟩
abbrev main_v409 : Ref sig .tc := ⟨.hbm, 457, rfl⟩
abbrev main_v410 : Ref sig .tc := ⟨.hbm, 458, rfl⟩
abbrev main_v411 : Ref sig .tc := ⟨.hbm, 459, rfl⟩
abbrev main_v412 : Ref sig .tc := ⟨.hbm, 460, rfl⟩
abbrev main_v413 : Ref sig .tc := ⟨.hbm, 461, rfl⟩
abbrev main_v414 : Ref sig .tc := ⟨.hbm, 462, rfl⟩
abbrev main_v415 : Ref sig .tc := ⟨.hbm, 463, rfl⟩
abbrev main_v416 : Ref sig .tc := ⟨.hbm, 464, rfl⟩
abbrev main_v417 : Ref sig .tc := ⟨.hbm, 465, rfl⟩
abbrev main_v418 : Ref sig .tc := ⟨.hbm, 466, rfl⟩
abbrev main_v419 : Ref sig .tc := ⟨.hbm, 467, rfl⟩
abbrev main_v420 : Ref sig .tc := ⟨.hbm, 468, rfl⟩
abbrev main_v421 : Ref sig .tc := ⟨.hbm, 469, rfl⟩
abbrev main_v422 : Ref sig .tc := ⟨.hbm, 470, rfl⟩
abbrev main_v423 : Ref sig .tc := ⟨.hbm, 471, rfl⟩
abbrev main_v424 : Ref sig .tc := ⟨.hbm, 472, rfl⟩
abbrev main_v425 : Ref sig .tc := ⟨.hbm, 473, rfl⟩
abbrev main_v426 : Ref sig .tc := ⟨.hbm, 474, rfl⟩
abbrev main_v427 : Ref sig .tc := ⟨.hbm, 475, rfl⟩
abbrev main_v428 : Ref sig .tc := ⟨.hbm, 476, rfl⟩
abbrev main_cst_39 : Ref sig .tc := ⟨.hbm, 477, rfl⟩
abbrev main_v429 : Ref sig .tc := ⟨.hbm, 478, rfl⟩
abbrev main_v430 : Ref sig .tc := ⟨.hbm, 479, rfl⟩
abbrev main_cst_40 : Ref sig .tc := ⟨.hbm, 480, rfl⟩
abbrev main_v431 : Ref sig .tc := ⟨.hbm, 481, rfl⟩
abbrev main_v432 : Ref sig .tc := ⟨.hbm, 482, rfl⟩
abbrev main_v433 : Ref sig .tc := ⟨.hbm, 483, rfl⟩
abbrev main_v434 : Ref sig .tc := ⟨.hbm, 484, rfl⟩
abbrev main_v435 : Ref sig .tc := ⟨.hbm, 485, rfl⟩
abbrev main_v436 : Ref sig .tc := ⟨.hbm, 486, rfl⟩
abbrev main_v437 : Ref sig .tc := ⟨.hbm, 487, rfl⟩
abbrev main_v438 : Ref sig .tc := ⟨.hbm, 488, rfl⟩
abbrev main_cst_41 : Ref sig .tc := ⟨.hbm, 489, rfl⟩
abbrev main_v439 : Ref sig .tc := ⟨.hbm, 490, rfl⟩
abbrev main_v440 : Ref sig .tc := ⟨.hbm, 491, rfl⟩
abbrev main_cst_42 : Ref sig .tc := ⟨.hbm, 492, rfl⟩
abbrev main_v441 : Ref sig .tc := ⟨.hbm, 493, rfl⟩
abbrev main_v442 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_v446 : Ref sig .tc := ⟨.hbm, 498, rfl⟩
abbrev main_v447 : Ref sig .tc := ⟨.hbm, 499, rfl⟩
abbrev main_v448 : Ref sig .tc := ⟨.hbm, 500, rfl⟩
abbrev main_v449 : Ref sig .tc := ⟨.hbm, 501, rfl⟩
abbrev main_cst_43 : Ref sig .tc := ⟨.hbm, 502, rfl⟩
abbrev main_v450 : Ref sig .tc := ⟨.hbm, 503, rfl⟩
abbrev main_v451 : Ref sig .tc := ⟨.hbm, 504, rfl⟩
abbrev main_v452 : Ref sig .tc := ⟨.hbm, 505, rfl⟩
abbrev main_v453 : Ref sig .tc := ⟨.hbm, 506, rfl⟩
abbrev main_v454 : Ref sig .tc := ⟨.hbm, 507, rfl⟩
abbrev main_v455 : Ref sig .tc := ⟨.hbm, 508, rfl⟩
abbrev main_v456 : Ref sig .tc := ⟨.hbm, 509, rfl⟩
abbrev main_v457 : Ref sig .tc := ⟨.hbm, 510, rfl⟩
abbrev main_v458 : Ref sig .tc := ⟨.hbm, 511, rfl⟩
abbrev main_v459 : Ref sig .tc := ⟨.hbm, 512, rfl⟩
abbrev main_v460 : Ref sig .tc := ⟨.hbm, 513, rfl⟩
abbrev main_v461 : Ref sig .tc := ⟨.hbm, 514, rfl⟩
abbrev main_v462 : Ref sig .tc := ⟨.hbm, 515, rfl⟩
abbrev main_v463 : Ref sig .tc := ⟨.hbm, 516, rfl⟩
abbrev main_v464 : Ref sig .tc := ⟨.hbm, 517, rfl⟩
abbrev main_v465 : Ref sig .tc := ⟨.hbm, 518, rfl⟩
abbrev main_v466 : Ref sig .tc := ⟨.hbm, 519, rfl⟩
abbrev main_v467 : Ref sig .tc := ⟨.hbm, 520, rfl⟩
abbrev main_v468 : Ref sig .tc := ⟨.hbm, 521, rfl⟩
abbrev main_v469 : Ref sig .tc := ⟨.hbm, 522, rfl⟩
abbrev main_v470 : Ref sig .tc := ⟨.hbm, 523, rfl⟩
abbrev main_v471 : Ref sig .tc := ⟨.hbm, 524, rfl⟩
abbrev main_v472 : Ref sig .tc := ⟨.hbm, 525, rfl⟩
abbrev main_v473 : Ref sig .tc := ⟨.hbm, 526, rfl⟩
abbrev main_cst_44 : Ref sig .tc := ⟨.hbm, 527, rfl⟩
abbrev main_v474 : Ref sig .tc := ⟨.hbm, 528, rfl⟩
abbrev main_v475 : Ref sig .tc := ⟨.hbm, 529, rfl⟩
abbrev main_cst_45 : Ref sig .tc := ⟨.hbm, 530, rfl⟩
abbrev main_v476 : Ref sig .tc := ⟨.hbm, 531, rfl⟩
abbrev main_v477 : Ref sig .tc := ⟨.hbm, 532, rfl⟩
abbrev main_v478 : Ref sig .tc := ⟨.hbm, 533, rfl⟩
abbrev main_v479 : Ref sig .tc := ⟨.hbm, 534, rfl⟩
abbrev main_v480 : Ref sig .tc := ⟨.hbm, 535, rfl⟩
abbrev main_v481 : Ref sig .tc := ⟨.hbm, 536, rfl⟩
abbrev main_v482 : Ref sig .tc := ⟨.hbm, 537, rfl⟩
abbrev main_v483 : Ref sig .tc := ⟨.hbm, 538, rfl⟩
abbrev main_cst_46 : Ref sig .tc := ⟨.hbm, 539, rfl⟩
abbrev main_v484 : Ref sig .tc := ⟨.hbm, 540, rfl⟩
abbrev main_v485 : Ref sig .tc := ⟨.hbm, 541, rfl⟩
abbrev main_cst_47 : Ref sig .tc := ⟨.hbm, 542, rfl⟩
abbrev main_v486 : Ref sig .tc := ⟨.hbm, 543, rfl⟩
abbrev main_v487 : Ref sig .tc := ⟨.hbm, 544, rfl⟩
abbrev main_v488 : Ref sig .tc := ⟨.hbm, 545, rfl⟩
abbrev main_v489 : Ref sig .tc := ⟨.hbm, 546, rfl⟩
abbrev main_v490 : Ref sig .tc := ⟨.hbm, 547, rfl⟩
abbrev main_v491 : Ref sig .tc := ⟨.hbm, 548, rfl⟩
abbrev main_v492 : Ref sig .tc := ⟨.hbm, 549, rfl⟩
abbrev main_v493 : Ref sig .tc := ⟨.hbm, 550, rfl⟩
abbrev main_v494 : Ref sig .tc := ⟨.hbm, 551, rfl⟩
abbrev main_cst_48 : Ref sig .tc := ⟨.hbm, 552, rfl⟩
abbrev main_v495 : Ref sig .tc := ⟨.hbm, 553, rfl⟩
abbrev main_v496 : Ref sig .tc := ⟨.hbm, 554, rfl⟩
abbrev main_v497 : Ref sig .tc := ⟨.hbm, 555, rfl⟩
abbrev main_v498 : Ref sig .tc := ⟨.hbm, 556, rfl⟩
abbrev main_v499 : Ref sig .tc := ⟨.hbm, 557, rfl⟩
abbrev main_v500 : Ref sig .tc := ⟨.hbm, 558, rfl⟩
abbrev main_v501 : Ref sig .tc := ⟨.hbm, 559, rfl⟩
abbrev main_v502 : Ref sig .tc := ⟨.hbm, 560, rfl⟩
abbrev main_v503 : Ref sig .tc := ⟨.hbm, 561, rfl⟩
abbrev main_v504 : Ref sig .tc := ⟨.hbm, 562, rfl⟩
abbrev main_v505 : Ref sig .tc := ⟨.hbm, 563, rfl⟩
abbrev main_v506 : Ref sig .tc := ⟨.hbm, 564, rfl⟩
abbrev main_v507 : Ref sig .tc := ⟨.hbm, 565, rfl⟩
abbrev main_v508 : Ref sig .tc := ⟨.hbm, 566, rfl⟩
abbrev main_v509 : Ref sig .tc := ⟨.hbm, 567, rfl⟩
abbrev main_v510 : Ref sig .tc := ⟨.hbm, 568, rfl⟩
abbrev main_v511 : Ref sig .tc := ⟨.hbm, 569, rfl⟩
abbrev main_v512 : Ref sig .tc := ⟨.hbm, 570, rfl⟩
abbrev main_v513 : Ref sig .tc := ⟨.hbm, 571, rfl⟩
abbrev main_v514 : Ref sig .tc := ⟨.hbm, 572, rfl⟩
abbrev main_v515 : Ref sig .tc := ⟨.hbm, 573, rfl⟩
abbrev main_v516 : Ref sig .tc := ⟨.hbm, 574, rfl⟩
abbrev main_v517 : Ref sig .tc := ⟨.hbm, 575, rfl⟩
abbrev main_v518 : Ref sig .tc := ⟨.hbm, 576, rfl⟩
abbrev main_cst_49 : Ref sig .tc := ⟨.hbm, 577, rfl⟩
abbrev main_v519 : Ref sig .tc := ⟨.hbm, 578, rfl⟩
abbrev main_v520 : Ref sig .tc := ⟨.hbm, 579, rfl⟩
abbrev main_cst_50 : Ref sig .tc := ⟨.hbm, 580, rfl⟩
abbrev main_v521 : Ref sig .tc := ⟨.hbm, 581, rfl⟩
abbrev main_v522 : Ref sig .tc := ⟨.hbm, 582, rfl⟩
abbrev main_v523 : Ref sig .tc := ⟨.hbm, 583, rfl⟩
abbrev main_v524 : Ref sig .tc := ⟨.hbm, 584, rfl⟩
abbrev main_v525 : Ref sig .tc := ⟨.hbm, 585, rfl⟩
abbrev main_v526 : Ref sig .tc := ⟨.hbm, 586, rfl⟩
abbrev main_v527 : Ref sig .tc := ⟨.hbm, 587, rfl⟩
abbrev main_v528 : Ref sig .tc := ⟨.hbm, 588, rfl⟩
abbrev main_cst_51 : Ref sig .tc := ⟨.hbm, 589, rfl⟩
abbrev main_v529 : Ref sig .tc := ⟨.hbm, 590, rfl⟩
abbrev main_v530 : Ref sig .tc := ⟨.hbm, 591, rfl⟩
abbrev main_cst_52 : Ref sig .tc := ⟨.hbm, 592, rfl⟩
abbrev main_v531 : Ref sig .tc := ⟨.hbm, 593, rfl⟩
abbrev main_v532 : Ref sig .tc := ⟨.hbm, 594, rfl⟩
abbrev main_v533 : Ref sig .tc := ⟨.hbm, 595, rfl⟩
abbrev main_v534 : Ref sig .tc := ⟨.hbm, 596, rfl⟩
abbrev main_v535 : Ref sig .tc := ⟨.hbm, 597, rfl⟩
abbrev main_v536 : Ref sig .tc := ⟨.hbm, 598, rfl⟩
abbrev main_v537 : Ref sig .tc := ⟨.hbm, 599, rfl⟩
abbrev main_v538 : Ref sig .tc := ⟨.hbm, 600, rfl⟩
abbrev main_v539 : Ref sig .tc := ⟨.hbm, 601, rfl⟩
abbrev main_cst_53 : Ref sig .tc := ⟨.hbm, 602, rfl⟩
abbrev main_v540 : Ref sig .tc := ⟨.hbm, 603, rfl⟩
abbrev main_v541 : Ref sig .tc := ⟨.hbm, 604, rfl⟩
abbrev main_v542 : Ref sig .tc := ⟨.hbm, 605, rfl⟩
abbrev main_v543 : Ref sig .tc := ⟨.hbm, 606, rfl⟩
abbrev main_v544 : Ref sig .tc := ⟨.hbm, 607, rfl⟩
abbrev main_v545 : Ref sig .tc := ⟨.hbm, 608, rfl⟩
abbrev main_v546 : Ref sig .tc := ⟨.hbm, 609, rfl⟩
abbrev main_v547 : Ref sig .tc := ⟨.hbm, 610, rfl⟩
abbrev main_v548 : Ref sig .tc := ⟨.hbm, 611, rfl⟩
abbrev main_v549 : Ref sig .tc := ⟨.hbm, 612, rfl⟩
abbrev main_v550 : Ref sig .tc := ⟨.hbm, 613, rfl⟩
abbrev main_v551 : Ref sig .tc := ⟨.hbm, 614, rfl⟩
abbrev main_v552 : Ref sig .tc := ⟨.hbm, 615, rfl⟩
abbrev main_v553 : Ref sig .tc := ⟨.hbm, 616, rfl⟩
abbrev main_v554 : Ref sig .tc := ⟨.hbm, 617, rfl⟩
abbrev main_v555 : Ref sig .tc := ⟨.hbm, 618, rfl⟩
abbrev main_v556 : Ref sig .tc := ⟨.hbm, 619, rfl⟩
abbrev main_v557 : Ref sig .tc := ⟨.hbm, 620, rfl⟩
abbrev main_v558 : Ref sig .tc := ⟨.hbm, 621, rfl⟩
abbrev main_v559 : Ref sig .tc := ⟨.hbm, 622, rfl⟩
abbrev main_v560 : Ref sig .tc := ⟨.hbm, 623, rfl⟩
abbrev main_v561 : Ref sig .tc := ⟨.hbm, 624, rfl⟩
abbrev main_v562 : Ref sig .tc := ⟨.hbm, 625, rfl⟩
abbrev main_v563 : Ref sig .tc := ⟨.hbm, 626, rfl⟩
abbrev main_cst_54 : Ref sig .tc := ⟨.hbm, 627, rfl⟩
abbrev main_v564 : Ref sig .tc := ⟨.hbm, 628, rfl⟩
abbrev main_v565 : Ref sig .tc := ⟨.hbm, 629, rfl⟩
abbrev main_cst_55 : Ref sig .tc := ⟨.hbm, 630, rfl⟩
abbrev main_v566 : Ref sig .tc := ⟨.hbm, 631, rfl⟩
abbrev main_v567 : Ref sig .tc := ⟨.hbm, 632, rfl⟩
abbrev main_v568 : Ref sig .tc := ⟨.hbm, 633, rfl⟩
abbrev main_v569 : Ref sig .tc := ⟨.hbm, 634, rfl⟩
abbrev main_v570 : Ref sig .tc := ⟨.hbm, 635, rfl⟩
abbrev main_v571 : Ref sig .tc := ⟨.hbm, 636, rfl⟩
abbrev main_v572 : Ref sig .tc := ⟨.hbm, 637, rfl⟩
abbrev main_v573 : Ref sig .tc := ⟨.hbm, 638, rfl⟩
abbrev main_cst_56 : Ref sig .tc := ⟨.hbm, 639, rfl⟩
abbrev main_v574 : Ref sig .tc := ⟨.hbm, 640, rfl⟩
abbrev main_v575 : Ref sig .tc := ⟨.hbm, 641, rfl⟩
abbrev main_cst_57 : Ref sig .tc := ⟨.hbm, 642, rfl⟩
abbrev main_v576 : Ref sig .tc := ⟨.hbm, 643, rfl⟩
abbrev main_v577 : Ref sig .tc := ⟨.hbm, 644, rfl⟩
abbrev main_v578 : Ref sig .tc := ⟨.hbm, 645, rfl⟩
abbrev main_v579 : Ref sig .tc := ⟨.hbm, 646, rfl⟩
abbrev main_v580 : Ref sig .tc := ⟨.hbm, 647, rfl⟩
abbrev main_v581 : Ref sig .tc := ⟨.hbm, 648, rfl⟩
abbrev main_v582 : Ref sig .tc := ⟨.hbm, 649, rfl⟩
abbrev main_v583 : Ref sig .tc := ⟨.hbm, 650, rfl⟩
abbrev main_v584 : Ref sig .tc := ⟨.hbm, 651, rfl⟩
abbrev main_cst_58 : Ref sig .tc := ⟨.hbm, 652, rfl⟩
abbrev main_v585 : Ref sig .tc := ⟨.hbm, 653, rfl⟩
abbrev main_v586 : Ref sig .tc := ⟨.hbm, 654, rfl⟩
abbrev main_v587 : Ref sig .tc := ⟨.hbm, 655, rfl⟩
abbrev main_v588 : Ref sig .tc := ⟨.hbm, 656, rfl⟩
abbrev main_v589 : Ref sig .tc := ⟨.hbm, 657, rfl⟩
abbrev main_v590 : Ref sig .tc := ⟨.hbm, 658, rfl⟩
abbrev main_v591 : Ref sig .tc := ⟨.hbm, 659, rfl⟩
abbrev main_v592 : Ref sig .tc := ⟨.hbm, 660, rfl⟩
abbrev main_v593 : Ref sig .tc := ⟨.hbm, 661, rfl⟩
abbrev main_v594 : Ref sig .tc := ⟨.hbm, 662, rfl⟩
abbrev main_v595 : Ref sig .tc := ⟨.hbm, 663, rfl⟩
abbrev main_v596 : Ref sig .tc := ⟨.hbm, 664, rfl⟩
abbrev main_v597 : Ref sig .tc := ⟨.hbm, 665, rfl⟩
abbrev main_v598 : Ref sig .tc := ⟨.hbm, 666, rfl⟩
abbrev main_v599 : Ref sig .tc := ⟨.hbm, 667, rfl⟩
abbrev main_v600 : Ref sig .tc := ⟨.hbm, 668, rfl⟩
abbrev main_v601 : Ref sig .tc := ⟨.hbm, 669, rfl⟩
abbrev main_v602 : Ref sig .tc := ⟨.hbm, 670, rfl⟩
abbrev main_v603 : Ref sig .tc := ⟨.hbm, 671, rfl⟩
abbrev main_v604 : Ref sig .tc := ⟨.hbm, 672, rfl⟩
abbrev main_v605 : Ref sig .tc := ⟨.hbm, 673, rfl⟩
abbrev main_v606 : Ref sig .tc := ⟨.hbm, 674, rfl⟩
abbrev main_v607 : Ref sig .tc := ⟨.hbm, 675, rfl⟩
abbrev main_v608 : Ref sig .tc := ⟨.hbm, 676, rfl⟩
abbrev main_cst_59 : Ref sig .tc := ⟨.hbm, 677, rfl⟩
abbrev main_v609 : Ref sig .tc := ⟨.hbm, 678, rfl⟩
abbrev main_v610 : Ref sig .tc := ⟨.hbm, 679, rfl⟩
abbrev main_cst_60 : Ref sig .tc := ⟨.hbm, 680, rfl⟩
abbrev main_v611 : Ref sig .tc := ⟨.hbm, 681, rfl⟩
abbrev main_v612 : Ref sig .tc := ⟨.hbm, 682, rfl⟩
abbrev main_v613 : Ref sig .tc := ⟨.hbm, 683, rfl⟩
abbrev main_v614 : Ref sig .tc := ⟨.hbm, 684, rfl⟩
abbrev main_v615 : Ref sig .tc := ⟨.hbm, 685, rfl⟩
abbrev main_v616 : Ref sig .tc := ⟨.hbm, 686, rfl⟩
abbrev main_v617 : Ref sig .tc := ⟨.hbm, 687, rfl⟩
abbrev main_v618 : Ref sig .tc := ⟨.hbm, 688, rfl⟩
abbrev main_cst_61 : Ref sig .tc := ⟨.hbm, 689, rfl⟩
abbrev main_v619 : Ref sig .tc := ⟨.hbm, 690, rfl⟩
abbrev main_v620 : Ref sig .tc := ⟨.hbm, 691, rfl⟩
abbrev main_cst_62 : Ref sig .tc := ⟨.hbm, 692, rfl⟩
abbrev main_v621 : Ref sig .tc := ⟨.hbm, 693, rfl⟩
abbrev main_v622 : Ref sig .tc := ⟨.hbm, 694, rfl⟩
abbrev main_v623 : Ref sig .tc := ⟨.hbm, 695, rfl⟩
abbrev main_v624 : Ref sig .tc := ⟨.hbm, 696, rfl⟩
abbrev main_v625 : Ref sig .tc := ⟨.hbm, 697, rfl⟩
abbrev main_v626 : Ref sig .tc := ⟨.hbm, 698, rfl⟩
abbrev main_v627 : Ref sig .tc := ⟨.hbm, 699, rfl⟩
abbrev main_v628 : Ref sig .tc := ⟨.hbm, 700, rfl⟩
abbrev main_v629 : Ref sig .tc := ⟨.hbm, 701, rfl⟩
abbrev main_cst_63 : Ref sig .tc := ⟨.hbm, 702, rfl⟩
abbrev main_v630 : Ref sig .tc := ⟨.hbm, 703, rfl⟩
abbrev main_v631 : Ref sig .tc := ⟨.hbm, 704, rfl⟩
abbrev main_v632 : Ref sig .tc := ⟨.hbm, 705, rfl⟩
abbrev main_v633 : Ref sig .tc := ⟨.hbm, 706, rfl⟩
abbrev main_v634 : Ref sig .tc := ⟨.hbm, 707, rfl⟩
abbrev main_v635 : Ref sig .tc := ⟨.hbm, 708, rfl⟩
abbrev main_v636 : Ref sig .tc := ⟨.hbm, 709, rfl⟩
abbrev main_v637 : Ref sig .tc := ⟨.hbm, 710, rfl⟩
abbrev main_v638 : Ref sig .tc := ⟨.hbm, 711, rfl⟩
abbrev main_v639 : Ref sig .tc := ⟨.hbm, 712, rfl⟩
abbrev main_v640 : Ref sig .tc := ⟨.hbm, 713, rfl⟩
abbrev main_v641 : Ref sig .tc := ⟨.hbm, 714, rfl⟩
abbrev main_v642 : Ref sig .tc := ⟨.hbm, 715, rfl⟩
abbrev main_v643 : Ref sig .tc := ⟨.hbm, 716, rfl⟩
abbrev main_v644 : Ref sig .tc := ⟨.hbm, 717, rfl⟩
abbrev main_v645 : Ref sig .tc := ⟨.hbm, 718, rfl⟩
abbrev main_v646 : Ref sig .tc := ⟨.hbm, 719, rfl⟩
abbrev main_v647 : Ref sig .tc := ⟨.hbm, 720, rfl⟩
abbrev main_v648 : Ref sig .tc := ⟨.hbm, 721, rfl⟩
abbrev main_v649 : Ref sig .tc := ⟨.hbm, 722, rfl⟩
abbrev main_v650 : Ref sig .tc := ⟨.hbm, 723, rfl⟩
abbrev main_v651 : Ref sig .tc := ⟨.hbm, 724, rfl⟩
abbrev main_v652 : Ref sig .tc := ⟨.hbm, 725, rfl⟩
abbrev main_v653 : Ref sig .tc := ⟨.hbm, 726, rfl⟩
abbrev main_cst_64 : Ref sig .tc := ⟨.hbm, 727, rfl⟩
abbrev main_v654 : Ref sig .tc := ⟨.hbm, 728, rfl⟩
abbrev main_v655 : Ref sig .tc := ⟨.hbm, 729, rfl⟩
abbrev main_cst_65 : Ref sig .tc := ⟨.hbm, 730, rfl⟩
abbrev main_v656 : Ref sig .tc := ⟨.hbm, 731, rfl⟩
abbrev main_v657 : Ref sig .tc := ⟨.hbm, 732, rfl⟩
abbrev main_v658 : Ref sig .tc := ⟨.hbm, 733, rfl⟩
abbrev main_v659 : Ref sig .tc := ⟨.hbm, 734, rfl⟩
abbrev main_v660 : Ref sig .tc := ⟨.hbm, 735, rfl⟩
abbrev main_v661 : Ref sig .tc := ⟨.hbm, 736, rfl⟩
abbrev main_v662 : Ref sig .tc := ⟨.hbm, 737, rfl⟩
abbrev main_v663 : Ref sig .tc := ⟨.hbm, 738, rfl⟩
abbrev main_cst_66 : Ref sig .tc := ⟨.hbm, 739, rfl⟩
abbrev main_v664 : Ref sig .tc := ⟨.hbm, 740, rfl⟩
abbrev main_v665 : Ref sig .tc := ⟨.hbm, 741, rfl⟩
abbrev main_cst_67 : Ref sig .tc := ⟨.hbm, 742, rfl⟩
abbrev main_v666 : Ref sig .tc := ⟨.hbm, 743, rfl⟩
abbrev main_v667 : Ref sig .tc := ⟨.hbm, 744, rfl⟩
abbrev main_v668 : Ref sig .tc := ⟨.hbm, 745, rfl⟩
abbrev main_v669 : Ref sig .tc := ⟨.hbm, 746, rfl⟩
abbrev main_v670 : Ref sig .tc := ⟨.hbm, 747, rfl⟩
abbrev main_v671 : Ref sig .tc := ⟨.hbm, 748, rfl⟩
abbrev main_v672 : Ref sig .tc := ⟨.hbm, 749, rfl⟩
abbrev main_v673 : Ref sig .tc := ⟨.hbm, 750, rfl⟩
abbrev main_v674 : Ref sig .tc := ⟨.hbm, 751, rfl⟩
abbrev main_cst_68 : Ref sig .tc := ⟨.hbm, 752, rfl⟩
abbrev main_v675 : Ref sig .tc := ⟨.hbm, 753, rfl⟩
abbrev main_v676 : Ref sig .tc := ⟨.hbm, 754, rfl⟩
abbrev main_v677 : Ref sig .tc := ⟨.hbm, 755, rfl⟩
abbrev main_v678 : Ref sig .tc := ⟨.hbm, 756, rfl⟩
abbrev main_v679 : Ref sig .tc := ⟨.hbm, 757, rfl⟩
abbrev main_v680 : Ref sig .tc := ⟨.hbm, 758, rfl⟩
abbrev main_v681 : Ref sig .tc := ⟨.hbm, 759, rfl⟩
abbrev main_v682 : Ref sig .tc := ⟨.hbm, 760, rfl⟩
abbrev main_v683 : Ref sig .tc := ⟨.hbm, 761, rfl⟩
abbrev main_v684 : Ref sig .tc := ⟨.hbm, 762, rfl⟩
abbrev main_v685 : Ref sig .tc := ⟨.hbm, 763, rfl⟩
abbrev main_v686 : Ref sig .tc := ⟨.hbm, 764, rfl⟩
abbrev main_v687 : Ref sig .tc := ⟨.hbm, 765, rfl⟩
abbrev main_v688 : Ref sig .tc := ⟨.hbm, 766, rfl⟩
abbrev main_v689 : Ref sig .tc := ⟨.hbm, 767, rfl⟩
abbrev main_v690 : Ref sig .tc := ⟨.hbm, 768, rfl⟩
abbrev main_v691 : Ref sig .tc := ⟨.hbm, 769, rfl⟩
abbrev main_v692 : Ref sig .tc := ⟨.hbm, 770, rfl⟩
abbrev main_v693 : Ref sig .tc := ⟨.hbm, 771, rfl⟩
abbrev main_v694 : Ref sig .tc := ⟨.hbm, 772, rfl⟩
abbrev main_v695 : Ref sig .tc := ⟨.hbm, 773, rfl⟩
abbrev main_v696 : Ref sig .tc := ⟨.hbm, 774, rfl⟩
abbrev main_v697 : Ref sig .tc := ⟨.hbm, 775, rfl⟩
abbrev main_v698 : Ref sig .tc := ⟨.hbm, 776, rfl⟩
abbrev main_cst_69 : Ref sig .tc := ⟨.hbm, 777, rfl⟩
abbrev main_v699 : Ref sig .tc := ⟨.hbm, 778, rfl⟩
abbrev main_v700 : Ref sig .tc := ⟨.hbm, 779, rfl⟩
abbrev main_cst_70 : Ref sig .tc := ⟨.hbm, 780, rfl⟩
abbrev main_v701 : Ref sig .tc := ⟨.hbm, 781, rfl⟩
abbrev main_v702 : Ref sig .tc := ⟨.hbm, 782, rfl⟩
abbrev main_v703 : Ref sig .tc := ⟨.hbm, 783, rfl⟩
abbrev main_v704 : Ref sig .tc := ⟨.hbm, 784, rfl⟩
abbrev main_v705 : Ref sig .tc := ⟨.hbm, 785, rfl⟩
abbrev main_v706 : Ref sig .tc := ⟨.hbm, 786, rfl⟩
abbrev main_v707 : Ref sig .tc := ⟨.hbm, 787, rfl⟩
abbrev main_v708 : Ref sig .tc := ⟨.hbm, 788, rfl⟩
abbrev main_cst_71 : Ref sig .tc := ⟨.hbm, 789, rfl⟩
abbrev main_v709 : Ref sig .tc := ⟨.hbm, 790, rfl⟩
abbrev main_v710 : Ref sig .tc := ⟨.hbm, 791, rfl⟩
abbrev main_cst_72 : Ref sig .tc := ⟨.hbm, 792, rfl⟩
abbrev main_v711 : Ref sig .tc := ⟨.hbm, 793, rfl⟩
abbrev main_v712 : Ref sig .tc := ⟨.hbm, 794, rfl⟩
abbrev main_v713 : Ref sig .tc := ⟨.hbm, 795, rfl⟩
abbrev main_v714 : Ref sig .tc := ⟨.hbm, 796, rfl⟩
abbrev main_v715 : Ref sig .tc := ⟨.hbm, 797, rfl⟩
abbrev main_v716 : Ref sig .tc := ⟨.hbm, 798, rfl⟩
abbrev main_v717 : Ref sig .tc := ⟨.hbm, 799, rfl⟩
abbrev main_v718 : Ref sig .tc := ⟨.hbm, 800, rfl⟩
abbrev main_v719 : Ref sig .tc := ⟨.hbm, 801, rfl⟩
abbrev main_cst_73 : Ref sig .tc := ⟨.hbm, 802, rfl⟩
abbrev main_v720 : Ref sig .tc := ⟨.hbm, 803, rfl⟩
abbrev main_v721 : Ref sig .tc := ⟨.hbm, 804, rfl⟩
abbrev main_v722 : Ref sig .tc := ⟨.hbm, 805, rfl⟩
abbrev main_v723 : Ref sig .tc := ⟨.hbm, 806, rfl⟩
abbrev main_v724 : Ref sig .tc := ⟨.hbm, 807, rfl⟩
abbrev main_v725 : Ref sig .tc := ⟨.hbm, 808, rfl⟩
abbrev main_v726 : Ref sig .tc := ⟨.hbm, 809, rfl⟩
abbrev main_v727 : Ref sig .tc := ⟨.hbm, 810, rfl⟩
abbrev main_v728 : Ref sig .tc := ⟨.hbm, 811, rfl⟩
abbrev main_v729 : Ref sig .tc := ⟨.hbm, 812, rfl⟩
abbrev main_v730 : Ref sig .tc := ⟨.hbm, 813, rfl⟩
abbrev main_v731 : Ref sig .tc := ⟨.hbm, 814, rfl⟩
abbrev main_v732 : Ref sig .tc := ⟨.hbm, 815, rfl⟩
abbrev main_v733 : Ref sig .tc := ⟨.hbm, 816, rfl⟩
abbrev main_v734 : Ref sig .tc := ⟨.hbm, 817, rfl⟩
abbrev main_v735 : Ref sig .tc := ⟨.hbm, 818, rfl⟩
abbrev main_v736 : Ref sig .tc := ⟨.hbm, 819, rfl⟩
abbrev main_v737 : Ref sig .tc := ⟨.hbm, 820, rfl⟩
abbrev main_v738 : Ref sig .tc := ⟨.hbm, 821, rfl⟩
abbrev main_v739 : Ref sig .tc := ⟨.hbm, 822, rfl⟩
abbrev main_v740 : Ref sig .tc := ⟨.hbm, 823, rfl⟩
abbrev main_v741 : Ref sig .tc := ⟨.hbm, 824, rfl⟩
abbrev main_v742 : Ref sig .tc := ⟨.hbm, 825, rfl⟩
abbrev main_v743 : Ref sig .tc := ⟨.hbm, 826, rfl⟩
abbrev main_cst_74 : Ref sig .tc := ⟨.hbm, 827, rfl⟩
abbrev main_v744 : Ref sig .tc := ⟨.hbm, 828, rfl⟩
abbrev main_v745 : Ref sig .tc := ⟨.hbm, 829, rfl⟩
abbrev main_cst_75 : Ref sig .tc := ⟨.hbm, 830, rfl⟩
abbrev main_v746 : Ref sig .tc := ⟨.hbm, 831, rfl⟩
abbrev main_v747 : Ref sig .tc := ⟨.hbm, 832, rfl⟩
abbrev main_v748 : Ref sig .tc := ⟨.hbm, 833, rfl⟩
abbrev main_v749 : Ref sig .tc := ⟨.hbm, 834, rfl⟩
abbrev main_v750 : Ref sig .tc := ⟨.hbm, 835, rfl⟩
abbrev main_v751 : Ref sig .tc := ⟨.hbm, 836, rfl⟩
abbrev main_v752 : Ref sig .tc := ⟨.hbm, 837, rfl⟩
abbrev main_v753 : Ref sig .tc := ⟨.hbm, 838, rfl⟩
abbrev main_cst_76 : Ref sig .tc := ⟨.hbm, 839, rfl⟩
abbrev main_v754 : Ref sig .tc := ⟨.hbm, 840, rfl⟩
abbrev main_v755 : Ref sig .tc := ⟨.hbm, 841, rfl⟩
abbrev main_cst_77 : Ref sig .tc := ⟨.hbm, 842, rfl⟩
abbrev main_v756 : Ref sig .tc := ⟨.hbm, 843, rfl⟩
abbrev main_v757 : Ref sig .tc := ⟨.hbm, 844, rfl⟩
abbrev main_v758 : Ref sig .tc := ⟨.hbm, 845, rfl⟩
abbrev main_v759 : Ref sig .tc := ⟨.hbm, 846, rfl⟩
abbrev main_v760 : Ref sig .tc := ⟨.hbm, 847, rfl⟩
abbrev main_v761 : Ref sig .tc := ⟨.hbm, 848, rfl⟩
abbrev main_v762 : Ref sig .tc := ⟨.hbm, 849, rfl⟩
abbrev main_v763 : Ref sig .tc := ⟨.hbm, 850, rfl⟩
abbrev main_v764 : Ref sig .tc := ⟨.hbm, 851, rfl⟩
abbrev main_cst_78 : Ref sig .tc := ⟨.hbm, 852, rfl⟩
abbrev main_v765 : Ref sig .tc := ⟨.hbm, 853, rfl⟩
abbrev main_v766 : Ref sig .tc := ⟨.hbm, 854, rfl⟩
abbrev main_v767 : Ref sig .tc := ⟨.hbm, 855, rfl⟩
abbrev main_v768 : Ref sig .tc := ⟨.hbm, 856, rfl⟩
abbrev main_v769 : Ref sig .tc := ⟨.hbm, 857, rfl⟩
abbrev main_v770 : Ref sig .tc := ⟨.hbm, 858, rfl⟩
abbrev main_v771 : Ref sig .tc := ⟨.hbm, 859, rfl⟩
abbrev main_v772 : Ref sig .tc := ⟨.hbm, 860, rfl⟩
abbrev main_v773 : Ref sig .tc := ⟨.hbm, 861, rfl⟩
abbrev main_v774 : Ref sig .tc := ⟨.hbm, 862, rfl⟩
abbrev main_v775 : Ref sig .tc := ⟨.hbm, 863, rfl⟩
abbrev main_v776 : Ref sig .tc := ⟨.hbm, 864, rfl⟩
abbrev main_v777 : Ref sig .tc := ⟨.hbm, 865, rfl⟩
abbrev main_v778 : Ref sig .tc := ⟨.hbm, 866, rfl⟩
abbrev main_v779 : Ref sig .tc := ⟨.hbm, 867, rfl⟩
abbrev main_v780 : Ref sig .tc := ⟨.hbm, 868, rfl⟩
abbrev main_v781 : Ref sig .tc := ⟨.hbm, 869, rfl⟩
abbrev main_v782 : Ref sig .tc := ⟨.hbm, 870, rfl⟩
abbrev main_v783 : Ref sig .tc := ⟨.hbm, 871, rfl⟩
abbrev main_v784 : Ref sig .tc := ⟨.hbm, 872, rfl⟩
abbrev main_v785 : Ref sig .tc := ⟨.hbm, 873, rfl⟩
abbrev main_v786 : Ref sig .tc := ⟨.hbm, 874, rfl⟩
abbrev main_v787 : Ref sig .tc := ⟨.hbm, 875, rfl⟩
abbrev main_v788 : Ref sig .tc := ⟨.hbm, 876, rfl⟩
abbrev main_cst_79 : Ref sig .tc := ⟨.hbm, 877, rfl⟩
abbrev main_v789 : Ref sig .tc := ⟨.hbm, 878, rfl⟩
abbrev main_v790 : Ref sig .tc := ⟨.hbm, 879, rfl⟩
abbrev main_cst_80 : Ref sig .tc := ⟨.hbm, 880, rfl⟩
abbrev main_v791 : Ref sig .tc := ⟨.hbm, 881, rfl⟩
abbrev main_v792 : Ref sig .tc := ⟨.hbm, 882, rfl⟩
abbrev main_v793 : Ref sig .tc := ⟨.hbm, 883, rfl⟩
abbrev main_v794 : Ref sig .tc := ⟨.hbm, 884, rfl⟩
abbrev main_v795 : Ref sig .tc := ⟨.hbm, 885, rfl⟩
abbrev main_v796 : Ref sig .tc := ⟨.hbm, 886, rfl⟩
abbrev main_v797 : Ref sig .tc := ⟨.hbm, 887, rfl⟩
abbrev main_v798 : Ref sig .tc := ⟨.hbm, 888, rfl⟩
abbrev main_cst_81 : Ref sig .tc := ⟨.hbm, 889, rfl⟩
abbrev main_v799 : Ref sig .tc := ⟨.hbm, 890, rfl⟩
abbrev main_v800 : Ref sig .tc := ⟨.hbm, 891, rfl⟩
abbrev main_cst_82 : Ref sig .tc := ⟨.hbm, 892, rfl⟩
abbrev main_v801 : Ref sig .tc := ⟨.hbm, 893, rfl⟩
abbrev main_v802 : Ref sig .tc := ⟨.hbm, 894, rfl⟩
abbrev main_v803 : Ref sig .tc := ⟨.hbm, 895, rfl⟩
abbrev main_v804 : Ref sig .tc := ⟨.hbm, 896, rfl⟩
abbrev main_v805 : Ref sig .tc := ⟨.hbm, 897, rfl⟩
abbrev main_v806 : Ref sig .tc := ⟨.hbm, 898, rfl⟩
abbrev main_v807 : Ref sig .tc := ⟨.hbm, 899, rfl⟩
abbrev main_v808 : Ref sig .tc := ⟨.hbm, 900, rfl⟩
abbrev main_v809 : Ref sig .tc := ⟨.hbm, 901, rfl⟩
abbrev main_cst_83 : Ref sig .tc := ⟨.hbm, 902, rfl⟩
abbrev main_v810 : Ref sig .tc := ⟨.hbm, 903, rfl⟩
abbrev main_v811 : Ref sig .tc := ⟨.hbm, 904, rfl⟩
abbrev main_v812 : Ref sig .tc := ⟨.hbm, 905, rfl⟩
abbrev main_v813 : Ref sig .tc := ⟨.hbm, 906, rfl⟩
abbrev main_v814 : Ref sig .tc := ⟨.hbm, 907, rfl⟩
abbrev main_v815 : Ref sig .tc := ⟨.hbm, 908, rfl⟩
abbrev main_v816 : Ref sig .tc := ⟨.hbm, 909, rfl⟩
abbrev main_v817 : Ref sig .tc := ⟨.hbm, 910, rfl⟩
abbrev main_v818 : Ref sig .tc := ⟨.hbm, 911, rfl⟩
abbrev main_v819 : Ref sig .tc := ⟨.hbm, 912, rfl⟩
abbrev main_v820 : Ref sig .tc := ⟨.hbm, 913, rfl⟩
abbrev main_v821 : Ref sig .tc := ⟨.hbm, 914, rfl⟩
abbrev main_v822 : Ref sig .tc := ⟨.hbm, 915, rfl⟩
abbrev main_v823 : Ref sig .tc := ⟨.hbm, 916, rfl⟩
abbrev main_v824 : Ref sig .tc := ⟨.hbm, 917, rfl⟩
abbrev main_v825 : Ref sig .tc := ⟨.hbm, 918, rfl⟩
abbrev main_v826 : Ref sig .tc := ⟨.hbm, 919, rfl⟩
abbrev main_v827 : Ref sig .tc := ⟨.hbm, 920, rfl⟩
abbrev main_v828 : Ref sig .tc := ⟨.hbm, 921, rfl⟩
abbrev main_v829 : Ref sig .tc := ⟨.hbm, 922, rfl⟩
abbrev main_v830 : Ref sig .tc := ⟨.hbm, 923, rfl⟩
abbrev main_v831 : Ref sig .tc := ⟨.hbm, 924, rfl⟩
abbrev main_v832 : Ref sig .tc := ⟨.hbm, 925, rfl⟩
abbrev main_v833 : Ref sig .tc := ⟨.hbm, 926, rfl⟩
abbrev main_cst_84 : Ref sig .tc := ⟨.hbm, 927, rfl⟩
abbrev main_v834 : Ref sig .tc := ⟨.hbm, 928, rfl⟩
abbrev main_v835 : Ref sig .tc := ⟨.hbm, 929, rfl⟩
abbrev main_cst_85 : Ref sig .tc := ⟨.hbm, 930, rfl⟩
abbrev main_v836 : Ref sig .tc := ⟨.hbm, 931, rfl⟩
abbrev main_v837 : Ref sig .tc := ⟨.hbm, 932, rfl⟩
abbrev main_v838 : Ref sig .tc := ⟨.hbm, 933, rfl⟩
abbrev main_v839 : Ref sig .tc := ⟨.hbm, 934, rfl⟩
abbrev main_v840 : Ref sig .tc := ⟨.hbm, 935, rfl⟩
abbrev main_v841 : Ref sig .tc := ⟨.hbm, 936, rfl⟩
abbrev main_v842 : Ref sig .tc := ⟨.hbm, 937, rfl⟩
abbrev main_v843 : Ref sig .tc := ⟨.hbm, 938, rfl⟩
abbrev main_cst_86 : Ref sig .tc := ⟨.hbm, 939, rfl⟩
abbrev main_v844 : Ref sig .tc := ⟨.hbm, 940, rfl⟩
abbrev main_v845 : Ref sig .tc := ⟨.hbm, 941, rfl⟩
abbrev main_cst_87 : Ref sig .tc := ⟨.hbm, 942, rfl⟩
abbrev main_v846 : Ref sig .tc := ⟨.hbm, 943, rfl⟩
abbrev main_v847 : Ref sig .tc := ⟨.hbm, 944, rfl⟩
abbrev main_v848 : Ref sig .tc := ⟨.hbm, 945, rfl⟩
abbrev main_v849 : Ref sig .tc := ⟨.hbm, 946, rfl⟩
abbrev main_v850 : Ref sig .tc := ⟨.hbm, 947, rfl⟩
abbrev main_v851 : Ref sig .tc := ⟨.hbm, 948, rfl⟩
abbrev main_v852 : Ref sig .tc := ⟨.hbm, 949, rfl⟩
abbrev main_v853 : Ref sig .tc := ⟨.hbm, 950, rfl⟩
abbrev main_v854 : Ref sig .tc := ⟨.hbm, 951, rfl⟩
abbrev main_cst_88 : Ref sig .tc := ⟨.hbm, 952, rfl⟩
abbrev main_v855 : Ref sig .tc := ⟨.hbm, 953, rfl⟩
abbrev main_v856 : Ref sig .tc := ⟨.hbm, 954, rfl⟩
abbrev main_v857 : Ref sig .tc := ⟨.hbm, 955, rfl⟩
abbrev main_v858 : Ref sig .tc := ⟨.hbm, 956, rfl⟩
abbrev main_v859 : Ref sig .tc := ⟨.hbm, 957, rfl⟩
abbrev main_v860 : Ref sig .tc := ⟨.hbm, 958, rfl⟩
abbrev main_v861 : Ref sig .tc := ⟨.hbm, 959, rfl⟩
abbrev main_v862 : Ref sig .tc := ⟨.hbm, 960, rfl⟩
abbrev main_v863 : Ref sig .tc := ⟨.hbm, 961, rfl⟩
abbrev main_v864 : Ref sig .tc := ⟨.hbm, 962, rfl⟩
abbrev main_v865 : Ref sig .tc := ⟨.hbm, 963, rfl⟩
abbrev main_v866 : Ref sig .tc := ⟨.hbm, 964, rfl⟩
abbrev main_v867 : Ref sig .tc := ⟨.hbm, 965, rfl⟩
abbrev main_v868 : Ref sig .tc := ⟨.hbm, 966, rfl⟩
abbrev main_v869 : Ref sig .tc := ⟨.hbm, 967, rfl⟩
abbrev main_v870 : Ref sig .tc := ⟨.hbm, 968, rfl⟩
abbrev main_v871 : Ref sig .tc := ⟨.hbm, 969, rfl⟩
abbrev main_v872 : Ref sig .tc := ⟨.hbm, 970, rfl⟩
abbrev main_v873 : Ref sig .tc := ⟨.hbm, 971, rfl⟩
abbrev main_v874 : Ref sig .tc := ⟨.hbm, 972, rfl⟩
abbrev main_v875 : Ref sig .tc := ⟨.hbm, 973, rfl⟩
abbrev main_v876 : Ref sig .tc := ⟨.hbm, 974, rfl⟩
abbrev main_v877 : Ref sig .tc := ⟨.hbm, 975, rfl⟩
abbrev main_v878 : Ref sig .tc := ⟨.hbm, 976, rfl⟩
abbrev main_cst_89 : Ref sig .tc := ⟨.hbm, 977, rfl⟩
abbrev main_v879 : Ref sig .tc := ⟨.hbm, 978, rfl⟩
abbrev main_v880 : Ref sig .tc := ⟨.hbm, 979, rfl⟩
abbrev main_cst_90 : Ref sig .tc := ⟨.hbm, 980, rfl⟩
abbrev main_v881 : Ref sig .tc := ⟨.hbm, 981, rfl⟩
abbrev main_v882 : Ref sig .tc := ⟨.hbm, 982, rfl⟩
abbrev main_v883 : Ref sig .tc := ⟨.hbm, 983, rfl⟩
abbrev main_v884 : Ref sig .tc := ⟨.hbm, 984, rfl⟩
abbrev main_v885 : Ref sig .tc := ⟨.hbm, 985, rfl⟩
abbrev main_v886 : Ref sig .tc := ⟨.hbm, 986, rfl⟩
abbrev main_v887 : Ref sig .tc := ⟨.hbm, 987, rfl⟩
abbrev main_v888 : Ref sig .tc := ⟨.hbm, 988, rfl⟩
abbrev main_cst_91 : Ref sig .tc := ⟨.hbm, 989, rfl⟩
abbrev main_v889 : Ref sig .tc := ⟨.hbm, 990, rfl⟩
abbrev main_v890 : Ref sig .tc := ⟨.hbm, 991, rfl⟩
abbrev main_cst_92 : Ref sig .tc := ⟨.hbm, 992, rfl⟩
abbrev main_v891 : Ref sig .tc := ⟨.hbm, 993, rfl⟩
abbrev main_v892 : Ref sig .tc := ⟨.hbm, 994, rfl⟩
abbrev main_v893 : Ref sig .tc := ⟨.hbm, 995, rfl⟩
abbrev main_v894 : Ref sig .tc := ⟨.hbm, 996, rfl⟩
abbrev main_v895 : Ref sig .tc := ⟨.hbm, 997, rfl⟩
abbrev main_v896 : Ref sig .tc := ⟨.hbm, 998, rfl⟩
abbrev main_v897 : Ref sig .tc := ⟨.hbm, 999, rfl⟩
abbrev main_v898 : Ref sig .tc := ⟨.hbm, 1000, rfl⟩
abbrev main_v899 : Ref sig .tc := ⟨.hbm, 1001, rfl⟩
abbrev main_cst_93 : Ref sig .tc := ⟨.hbm, 1002, rfl⟩
abbrev main_v900 : Ref sig .tc := ⟨.hbm, 1003, rfl⟩
abbrev main_v901 : Ref sig .tc := ⟨.hbm, 1004, rfl⟩
abbrev main_v902 : Ref sig .tc := ⟨.hbm, 1005, rfl⟩
abbrev main_v903 : Ref sig .tc := ⟨.hbm, 1006, rfl⟩
abbrev main_v904 : Ref sig .tc := ⟨.hbm, 1007, rfl⟩
abbrev main_v905 : Ref sig .tc := ⟨.hbm, 1008, rfl⟩
abbrev main_v906 : Ref sig .tc := ⟨.hbm, 1009, rfl⟩
abbrev main_v907 : Ref sig .tc := ⟨.hbm, 1010, rfl⟩
abbrev main_v908 : Ref sig .tc := ⟨.hbm, 1011, rfl⟩
abbrev main_v909 : Ref sig .tc := ⟨.hbm, 1012, rfl⟩
abbrev main_v910 : Ref sig .tc := ⟨.hbm, 1013, rfl⟩
abbrev main_v911 : Ref sig .tc := ⟨.hbm, 1014, rfl⟩
abbrev main_v912 : Ref sig .tc := ⟨.hbm, 1015, rfl⟩
abbrev main_v913 : Ref sig .tc := ⟨.hbm, 1016, rfl⟩
abbrev main_v914 : Ref sig .tc := ⟨.hbm, 1017, rfl⟩
abbrev main_v915 : Ref sig .tc := ⟨.hbm, 1018, rfl⟩
abbrev main_v916 : Ref sig .tc := ⟨.hbm, 1019, rfl⟩
abbrev main_v917 : Ref sig .tc := ⟨.hbm, 1020, rfl⟩
abbrev main_v918 : Ref sig .tc := ⟨.hbm, 1021, rfl⟩
abbrev main_v919 : Ref sig .tc := ⟨.hbm, 1022, rfl⟩
abbrev main_v920 : Ref sig .tc := ⟨.hbm, 1023, rfl⟩
abbrev main_v921 : Ref sig .tc := ⟨.hbm, 1024, rfl⟩
abbrev main_v922 : Ref sig .tc := ⟨.hbm, 1025, rfl⟩
abbrev main_v923 : Ref sig .tc := ⟨.hbm, 1026, rfl⟩
abbrev main_cst_94 : Ref sig .tc := ⟨.hbm, 1027, rfl⟩
abbrev main_v924 : Ref sig .tc := ⟨.hbm, 1028, rfl⟩
abbrev main_v925 : Ref sig .tc := ⟨.hbm, 1029, rfl⟩
abbrev main_cst_95 : Ref sig .tc := ⟨.hbm, 1030, rfl⟩
abbrev main_v926 : Ref sig .tc := ⟨.hbm, 1031, rfl⟩
abbrev main_v927 : Ref sig .tc := ⟨.hbm, 1032, rfl⟩
abbrev main_v928 : Ref sig .tc := ⟨.hbm, 1033, rfl⟩
abbrev main_v929 : Ref sig .tc := ⟨.hbm, 1034, rfl⟩
abbrev main_v930 : Ref sig .tc := ⟨.hbm, 1035, rfl⟩
abbrev main_v931 : Ref sig .tc := ⟨.hbm, 1036, rfl⟩
abbrev main_v932 : Ref sig .tc := ⟨.hbm, 1037, rfl⟩
abbrev main_v933 : Ref sig .tc := ⟨.hbm, 1038, rfl⟩
abbrev main_cst_96 : Ref sig .tc := ⟨.hbm, 1039, rfl⟩
abbrev main_v934 : Ref sig .tc := ⟨.hbm, 1040, rfl⟩
abbrev main_v935 : Ref sig .tc := ⟨.hbm, 1041, rfl⟩
abbrev main_cst_97 : Ref sig .tc := ⟨.hbm, 1042, rfl⟩
abbrev main_v936 : Ref sig .tc := ⟨.hbm, 1043, rfl⟩
abbrev main_v937 : Ref sig .tc := ⟨.hbm, 1044, rfl⟩
abbrev main_v938 : Ref sig .tc := ⟨.hbm, 1045, rfl⟩
abbrev main_v939 : Ref sig .tc := ⟨.hbm, 1046, rfl⟩
abbrev main_v940 : Ref sig .tc := ⟨.hbm, 1047, rfl⟩
abbrev main_v941 : Ref sig .tc := ⟨.hbm, 1048, rfl⟩
abbrev main_v942 : Ref sig .tc := ⟨.hbm, 1049, rfl⟩
abbrev main_v943 : Ref sig .tc := ⟨.hbm, 1050, rfl⟩
abbrev main_v944 : Ref sig .tc := ⟨.hbm, 1051, rfl⟩
abbrev main_cst_98 : Ref sig .tc := ⟨.hbm, 1052, rfl⟩
abbrev main_v945 : Ref sig .tc := ⟨.hbm, 1053, rfl⟩
abbrev main_v946 : Ref sig .tc := ⟨.hbm, 1054, rfl⟩
abbrev main_v947 : Ref sig .tc := ⟨.hbm, 1055, rfl⟩
abbrev main_v948 : Ref sig .tc := ⟨.hbm, 1056, rfl⟩
abbrev main_v949 : Ref sig .tc := ⟨.hbm, 1057, rfl⟩
abbrev main_v950 : Ref sig .tc := ⟨.hbm, 1058, rfl⟩
abbrev main_v951 : Ref sig .tc := ⟨.hbm, 1059, rfl⟩
abbrev main_v952 : Ref sig .tc := ⟨.hbm, 1060, rfl⟩
abbrev main_v953 : Ref sig .tc := ⟨.hbm, 1061, rfl⟩
abbrev main_v954 : Ref sig .tc := ⟨.hbm, 1062, rfl⟩
abbrev main_v955 : Ref sig .tc := ⟨.hbm, 1063, rfl⟩
abbrev main_v956 : Ref sig .tc := ⟨.hbm, 1064, rfl⟩
abbrev main_v957 : Ref sig .tc := ⟨.hbm, 1065, rfl⟩
abbrev main_v958 : Ref sig .tc := ⟨.hbm, 1066, rfl⟩
abbrev main_v959 : Ref sig .tc := ⟨.hbm, 1067, rfl⟩
abbrev main_v960 : Ref sig .tc := ⟨.hbm, 1068, rfl⟩
abbrev main_v961 : Ref sig .tc := ⟨.hbm, 1069, rfl⟩
abbrev main_v962 : Ref sig .tc := ⟨.hbm, 1070, rfl⟩
abbrev main_v963 : Ref sig .tc := ⟨.hbm, 1071, rfl⟩
abbrev main_v964 : Ref sig .tc := ⟨.hbm, 1072, rfl⟩
abbrev main_v965 : Ref sig .tc := ⟨.hbm, 1073, rfl⟩
abbrev main_v966 : Ref sig .tc := ⟨.hbm, 1074, rfl⟩
abbrev main_v967 : Ref sig .tc := ⟨.hbm, 1075, rfl⟩
abbrev main_v968 : Ref sig .tc := ⟨.hbm, 1076, rfl⟩
abbrev main_cst_99 : Ref sig .tc := ⟨.hbm, 1077, rfl⟩
abbrev main_v969 : Ref sig .tc := ⟨.hbm, 1078, rfl⟩
abbrev main_v970 : Ref sig .tc := ⟨.hbm, 1079, rfl⟩
abbrev main_cst_100 : Ref sig .tc := ⟨.hbm, 1080, rfl⟩
abbrev main_v971 : Ref sig .tc := ⟨.hbm, 1081, rfl⟩
abbrev main_v972 : Ref sig .tc := ⟨.hbm, 1082, rfl⟩
abbrev main_v973 : Ref sig .tc := ⟨.hbm, 1083, rfl⟩
abbrev main_v974 : Ref sig .tc := ⟨.hbm, 1084, rfl⟩
abbrev main_v975 : Ref sig .tc := ⟨.hbm, 1085, rfl⟩
abbrev main_v976 : Ref sig .tc := ⟨.hbm, 1086, rfl⟩
abbrev main_v977 : Ref sig .tc := ⟨.hbm, 1087, rfl⟩
abbrev main_v978 : Ref sig .tc := ⟨.hbm, 1088, rfl⟩
abbrev main_cst_101 : Ref sig .tc := ⟨.hbm, 1089, rfl⟩
abbrev main_v979 : Ref sig .tc := ⟨.hbm, 1090, rfl⟩
abbrev main_v980 : Ref sig .tc := ⟨.hbm, 1091, rfl⟩
abbrev main_cst_102 : Ref sig .tc := ⟨.hbm, 1092, rfl⟩
abbrev main_v981 : Ref sig .tc := ⟨.hbm, 1093, rfl⟩
abbrev main_v982 : Ref sig .tc := ⟨.hbm, 1094, rfl⟩
abbrev main_v983 : Ref sig .tc := ⟨.hbm, 1095, rfl⟩
abbrev main_v984 : Ref sig .tc := ⟨.hbm, 1096, rfl⟩
abbrev main_v985 : Ref sig .tc := ⟨.hbm, 1097, rfl⟩
abbrev main_v986 : Ref sig .tc := ⟨.hbm, 1098, rfl⟩
abbrev main_v987 : Ref sig .tc := ⟨.hbm, 1099, rfl⟩
abbrev main_v988 : Ref sig .tc := ⟨.hbm, 1100, rfl⟩
abbrev main_v989 : Ref sig .tc := ⟨.hbm, 1101, rfl⟩
abbrev main_cst_103 : Ref sig .tc := ⟨.hbm, 1102, rfl⟩
abbrev main_v990 : Ref sig .tc := ⟨.hbm, 1103, rfl⟩
abbrev main_v991 : Ref sig .tc := ⟨.hbm, 1104, rfl⟩
abbrev main_v992 : Ref sig .tc := ⟨.hbm, 1105, rfl⟩
abbrev main_v993 : Ref sig .tc := ⟨.hbm, 1106, rfl⟩
abbrev main_v994 : Ref sig .tc := ⟨.hbm, 1107, rfl⟩
abbrev main_v995 : Ref sig .tc := ⟨.hbm, 1108, rfl⟩
abbrev main_v996 : Ref sig .tc := ⟨.hbm, 1109, rfl⟩
abbrev main_v997 : Ref sig .tc := ⟨.hbm, 1110, rfl⟩
abbrev main_v998 : Ref sig .tc := ⟨.hbm, 1111, rfl⟩
abbrev main_v999 : Ref sig .tc := ⟨.hbm, 1112, rfl⟩
abbrev main_v1000 : Ref sig .tc := ⟨.hbm, 1113, rfl⟩
abbrev main_v1001 : Ref sig .tc := ⟨.hbm, 1114, rfl⟩
abbrev main_v1002 : Ref sig .tc := ⟨.hbm, 1115, rfl⟩
abbrev main_v1003 : Ref sig .tc := ⟨.hbm, 1116, rfl⟩
abbrev main_v1004 : Ref sig .tc := ⟨.hbm, 1117, rfl⟩
abbrev main_v1005 : Ref sig .tc := ⟨.hbm, 1118, rfl⟩
abbrev main_v1006 : Ref sig .tc := ⟨.hbm, 1119, rfl⟩
abbrev main_v1007 : Ref sig .tc := ⟨.hbm, 1120, rfl⟩
abbrev main_v1008 : Ref sig .tc := ⟨.hbm, 1121, rfl⟩
abbrev main_v1009 : Ref sig .tc := ⟨.hbm, 1122, rfl⟩
abbrev main_v1010 : Ref sig .tc := ⟨.hbm, 1123, rfl⟩
abbrev main_v1011 : Ref sig .tc := ⟨.hbm, 1124, rfl⟩
abbrev main_v1012 : Ref sig .tc := ⟨.hbm, 1125, rfl⟩
abbrev main_v1013 : Ref sig .tc := ⟨.hbm, 1126, rfl⟩
abbrev main_cst_104 : Ref sig .tc := ⟨.hbm, 1127, rfl⟩
abbrev main_v1014 : Ref sig .tc := ⟨.hbm, 1128, rfl⟩
abbrev main_v1015 : Ref sig .tc := ⟨.hbm, 1129, rfl⟩
abbrev main_cst_105 : Ref sig .tc := ⟨.hbm, 1130, rfl⟩
abbrev main_v1016 : Ref sig .tc := ⟨.hbm, 1131, rfl⟩
abbrev main_v1017 : Ref sig .tc := ⟨.hbm, 1132, rfl⟩
abbrev main_v1018 : Ref sig .tc := ⟨.hbm, 1133, rfl⟩
abbrev main_v1019 : Ref sig .tc := ⟨.hbm, 1134, rfl⟩
abbrev main_v1020 : Ref sig .tc := ⟨.hbm, 1135, rfl⟩
abbrev main_v1021 : Ref sig .tc := ⟨.hbm, 1136, rfl⟩
abbrev main_v1022 : Ref sig .tc := ⟨.hbm, 1137, rfl⟩
abbrev main_v1023 : Ref sig .tc := ⟨.hbm, 1138, rfl⟩
abbrev main_cst_106 : Ref sig .tc := ⟨.hbm, 1139, rfl⟩
abbrev main_v1024 : Ref sig .tc := ⟨.hbm, 1140, rfl⟩
abbrev main_v1025 : Ref sig .tc := ⟨.hbm, 1141, rfl⟩
abbrev main_cst_107 : Ref sig .tc := ⟨.hbm, 1142, rfl⟩
abbrev main_v1026 : Ref sig .tc := ⟨.hbm, 1143, rfl⟩
abbrev main_v1027 : Ref sig .tc := ⟨.hbm, 1144, rfl⟩
abbrev main_v1028 : Ref sig .tc := ⟨.hbm, 1145, rfl⟩
abbrev main_v1029 : Ref sig .tc := ⟨.hbm, 1146, rfl⟩
abbrev main_v1030 : Ref sig .tc := ⟨.hbm, 1147, rfl⟩
abbrev main_v1031 : Ref sig .tc := ⟨.hbm, 1148, rfl⟩
abbrev main_v1032 : Ref sig .tc := ⟨.hbm, 1149, rfl⟩
abbrev main_v1033 : Ref sig .tc := ⟨.hbm, 1150, rfl⟩
abbrev main_v1034 : Ref sig .tc := ⟨.hbm, 1151, rfl⟩
abbrev main_cst_108 : Ref sig .tc := ⟨.hbm, 1152, rfl⟩
abbrev main_v1035 : Ref sig .tc := ⟨.hbm, 1153, rfl⟩
abbrev main_v1036 : Ref sig .tc := ⟨.hbm, 1154, rfl⟩
abbrev main_v1037 : Ref sig .tc := ⟨.hbm, 1155, rfl⟩
abbrev main_v1038 : Ref sig .tc := ⟨.hbm, 1156, rfl⟩
abbrev main_v1039 : Ref sig .tc := ⟨.hbm, 1157, rfl⟩
abbrev main_v1040 : Ref sig .tc := ⟨.hbm, 1158, rfl⟩
abbrev main_v1041 : Ref sig .tc := ⟨.hbm, 1159, rfl⟩
abbrev main_v1042 : Ref sig .tc := ⟨.hbm, 1160, rfl⟩
abbrev main_v1043 : Ref sig .tc := ⟨.hbm, 1161, rfl⟩
abbrev main_v1044 : Ref sig .tc := ⟨.hbm, 1162, rfl⟩
abbrev main_v1045 : Ref sig .tc := ⟨.hbm, 1163, rfl⟩
abbrev main_v1046 : Ref sig .tc := ⟨.hbm, 1164, rfl⟩
abbrev main_v1047 : Ref sig .tc := ⟨.hbm, 1165, rfl⟩
abbrev main_v1048 : Ref sig .tc := ⟨.hbm, 1166, rfl⟩
abbrev main_v1049 : Ref sig .tc := ⟨.hbm, 1167, rfl⟩
abbrev main_v1050 : Ref sig .tc := ⟨.hbm, 1168, rfl⟩
abbrev main_v1051 : Ref sig .tc := ⟨.hbm, 1169, rfl⟩
abbrev main_v1052 : Ref sig .tc := ⟨.hbm, 1170, rfl⟩
abbrev main_v1053 : Ref sig .tc := ⟨.hbm, 1171, rfl⟩
abbrev main_v1054 : Ref sig .tc := ⟨.hbm, 1172, rfl⟩
abbrev main_v1055 : Ref sig .tc := ⟨.hbm, 1173, rfl⟩
abbrev main_v1056 : Ref sig .tc := ⟨.hbm, 1174, rfl⟩
abbrev main_v1057 : Ref sig .tc := ⟨.hbm, 1175, rfl⟩
abbrev main_v1058 : Ref sig .tc := ⟨.hbm, 1176, rfl⟩
abbrev main_cst_109 : Ref sig .tc := ⟨.hbm, 1177, rfl⟩
abbrev main_v1059 : Ref sig .tc := ⟨.hbm, 1178, rfl⟩
abbrev main_v1060 : Ref sig .tc := ⟨.hbm, 1179, rfl⟩
abbrev main_cst_110 : Ref sig .tc := ⟨.hbm, 1180, rfl⟩
abbrev main_v1061 : Ref sig .tc := ⟨.hbm, 1181, rfl⟩
abbrev main_v1062 : Ref sig .tc := ⟨.hbm, 1182, rfl⟩
abbrev main_v1063 : Ref sig .tc := ⟨.hbm, 1183, rfl⟩
abbrev main_v1064 : Ref sig .tc := ⟨.hbm, 1184, rfl⟩
abbrev main_v1065 : Ref sig .tc := ⟨.hbm, 1185, rfl⟩
abbrev main_v1066 : Ref sig .tc := ⟨.hbm, 1186, rfl⟩
abbrev main_v1067 : Ref sig .tc := ⟨.hbm, 1187, rfl⟩
abbrev main_v1068 : Ref sig .tc := ⟨.hbm, 1188, rfl⟩
abbrev main_cst_111 : Ref sig .tc := ⟨.hbm, 1189, rfl⟩
abbrev main_v1069 : Ref sig .tc := ⟨.hbm, 1190, rfl⟩
abbrev main_v1070 : Ref sig .tc := ⟨.hbm, 1191, rfl⟩
abbrev main_cst_112 : Ref sig .tc := ⟨.hbm, 1192, rfl⟩
abbrev main_v1071 : Ref sig .tc := ⟨.hbm, 1193, rfl⟩
abbrev main_v1072 : Ref sig .tc := ⟨.hbm, 1194, rfl⟩
abbrev main_v1073 : Ref sig .tc := ⟨.hbm, 1195, rfl⟩
abbrev main_v1074 : Ref sig .tc := ⟨.hbm, 1196, rfl⟩
abbrev main_v1075 : Ref sig .tc := ⟨.hbm, 1197, rfl⟩
abbrev main_v1076 : Ref sig .tc := ⟨.hbm, 1198, rfl⟩
abbrev main_v1077 : Ref sig .tc := ⟨.hbm, 1199, rfl⟩
abbrev main_v1078 : Ref sig .tc := ⟨.hbm, 1200, rfl⟩
abbrev main_v1079 : Ref sig .tc := ⟨.hbm, 1201, rfl⟩
abbrev main_cst_113 : Ref sig .tc := ⟨.hbm, 1202, rfl⟩
abbrev main_v1080 : Ref sig .tc := ⟨.hbm, 1203, rfl⟩
abbrev main_v1081 : Ref sig .tc := ⟨.hbm, 1204, rfl⟩
abbrev main_v1082 : Ref sig .tc := ⟨.hbm, 1205, rfl⟩
abbrev main_v1083 : Ref sig .tc := ⟨.hbm, 1206, rfl⟩
abbrev main_v1084 : Ref sig .tc := ⟨.hbm, 1207, rfl⟩
abbrev main_v1085 : Ref sig .tc := ⟨.hbm, 1208, rfl⟩
abbrev main_v1086 : Ref sig .tc := ⟨.hbm, 1209, rfl⟩
abbrev main_v1087 : Ref sig .tc := ⟨.hbm, 1210, rfl⟩
abbrev main_v1088 : Ref sig .tc := ⟨.hbm, 1211, rfl⟩
abbrev main_v1089 : Ref sig .tc := ⟨.hbm, 1212, rfl⟩
abbrev main_v1090 : Ref sig .tc := ⟨.hbm, 1213, rfl⟩
abbrev main_v1091 : Ref sig .tc := ⟨.hbm, 1214, rfl⟩
abbrev main_v1092 : Ref sig .tc := ⟨.hbm, 1215, rfl⟩
abbrev main_v1093 : Ref sig .tc := ⟨.hbm, 1216, rfl⟩
abbrev main_v1094 : Ref sig .tc := ⟨.hbm, 1217, rfl⟩
abbrev main_v1095 : Ref sig .tc := ⟨.hbm, 1218, rfl⟩
abbrev main_v1096 : Ref sig .tc := ⟨.hbm, 1219, rfl⟩
abbrev main_v1097 : Ref sig .tc := ⟨.hbm, 1220, rfl⟩
abbrev main_v1098 : Ref sig .tc := ⟨.hbm, 1221, rfl⟩
abbrev main_v1099 : Ref sig .tc := ⟨.hbm, 1222, rfl⟩
abbrev main_v1100 : Ref sig .tc := ⟨.hbm, 1223, rfl⟩
abbrev main_v1101 : Ref sig .tc := ⟨.hbm, 1224, rfl⟩
abbrev main_v1102 : Ref sig .tc := ⟨.hbm, 1225, rfl⟩
abbrev main_v1103 : Ref sig .tc := ⟨.hbm, 1226, rfl⟩
abbrev main_cst_114 : Ref sig .tc := ⟨.hbm, 1227, rfl⟩
abbrev main_v1104 : Ref sig .tc := ⟨.hbm, 1228, rfl⟩
abbrev main_v1105 : Ref sig .tc := ⟨.hbm, 1229, rfl⟩
abbrev main_cst_115 : Ref sig .tc := ⟨.hbm, 1230, rfl⟩
abbrev main_v1106 : Ref sig .tc := ⟨.hbm, 1231, rfl⟩
abbrev main_v1107 : Ref sig .tc := ⟨.hbm, 1232, rfl⟩
abbrev main_v1108 : Ref sig .tc := ⟨.hbm, 1233, rfl⟩
abbrev main_v1109 : Ref sig .tc := ⟨.hbm, 1234, rfl⟩
abbrev main_v1110 : Ref sig .tc := ⟨.hbm, 1235, rfl⟩
abbrev main_v1111 : Ref sig .tc := ⟨.hbm, 1236, rfl⟩
abbrev main_v1112 : Ref sig .tc := ⟨.hbm, 1237, rfl⟩
abbrev main_v1113 : Ref sig .tc := ⟨.hbm, 1238, rfl⟩
abbrev main_cst_116 : Ref sig .tc := ⟨.hbm, 1239, rfl⟩
abbrev main_v1114 : Ref sig .tc := ⟨.hbm, 1240, rfl⟩
abbrev main_v1115 : Ref sig .tc := ⟨.hbm, 1241, rfl⟩
abbrev main_cst_117 : Ref sig .tc := ⟨.hbm, 1242, rfl⟩
abbrev main_v1116 : Ref sig .tc := ⟨.hbm, 1243, rfl⟩
abbrev main_v1117 : Ref sig .tc := ⟨.hbm, 1244, rfl⟩
abbrev main_v1118 : Ref sig .tc := ⟨.hbm, 1245, rfl⟩
abbrev main_v1119 : Ref sig .tc := ⟨.hbm, 1246, rfl⟩
abbrev main_v1120 : Ref sig .tc := ⟨.hbm, 1247, rfl⟩
abbrev main_v1121 : Ref sig .tc := ⟨.hbm, 1248, rfl⟩
abbrev main_v1122 : Ref sig .tc := ⟨.hbm, 1249, rfl⟩
abbrev main_v1123 : Ref sig .tc := ⟨.hbm, 1250, rfl⟩
abbrev main_v1124 : Ref sig .tc := ⟨.hbm, 1251, rfl⟩
abbrev main_cst_118 : Ref sig .tc := ⟨.hbm, 1252, rfl⟩
abbrev main_v1125 : Ref sig .tc := ⟨.hbm, 1253, rfl⟩
abbrev main_v1126 : Ref sig .tc := ⟨.hbm, 1254, rfl⟩
abbrev main_v1127 : Ref sig .tc := ⟨.hbm, 1255, rfl⟩
abbrev main_v1128 : Ref sig .tc := ⟨.hbm, 1256, rfl⟩
abbrev main_v1129 : Ref sig .tc := ⟨.hbm, 1257, rfl⟩
abbrev main_v1130 : Ref sig .tc := ⟨.hbm, 1258, rfl⟩
abbrev main_v1131 : Ref sig .tc := ⟨.hbm, 1259, rfl⟩
abbrev main_v1132 : Ref sig .tc := ⟨.hbm, 1260, rfl⟩
abbrev main_v1133 : Ref sig .tc := ⟨.hbm, 1261, rfl⟩
abbrev main_v1134 : Ref sig .tc := ⟨.hbm, 1262, rfl⟩
abbrev main_v1135 : Ref sig .tc := ⟨.hbm, 1263, rfl⟩
abbrev main_v1136 : Ref sig .tc := ⟨.hbm, 1264, rfl⟩
abbrev main_v1137 : Ref sig .tc := ⟨.hbm, 1265, rfl⟩
abbrev main_v1138 : Ref sig .tc := ⟨.hbm, 1266, rfl⟩
abbrev main_v1139 : Ref sig .tc := ⟨.hbm, 1267, rfl⟩
abbrev main_v1140 : Ref sig .tc := ⟨.hbm, 1268, rfl⟩
abbrev main_v1141 : Ref sig .tc := ⟨.hbm, 1269, rfl⟩
abbrev main_v1142 : Ref sig .tc := ⟨.hbm, 1270, rfl⟩
abbrev main_v1143 : Ref sig .tc := ⟨.hbm, 1271, rfl⟩
abbrev main_v1144 : Ref sig .tc := ⟨.hbm, 1272, rfl⟩
abbrev main_v1145 : Ref sig .tc := ⟨.hbm, 1273, rfl⟩
abbrev main_v1146 : Ref sig .tc := ⟨.hbm, 1274, rfl⟩
abbrev main_v1147 : Ref sig .tc := ⟨.hbm, 1275, rfl⟩
abbrev main_v1148 : Ref sig .tc := ⟨.hbm, 1276, rfl⟩
abbrev main_v1149 : Ref sig .tc := ⟨.hbm, 1277, rfl⟩
abbrev main_v1150 : Ref sig .tc := ⟨.hbm, 1278, rfl⟩
abbrev main_v1151 : Ref sig .tc := ⟨.hbm, 1279, rfl⟩
abbrev main_v1152 : Ref sig .tc := ⟨.hbm, 1280, rfl⟩
abbrev main_v1153 : Ref sig .tc := ⟨.hbm, 1281, rfl⟩
abbrev main_v1154 : Ref sig .tc := ⟨.hbm, 1282, rfl⟩
abbrev main_v1155 : Ref sig .tc := ⟨.hbm, 1283, rfl⟩
abbrev main_v1156 : Ref sig .tc := ⟨.hbm, 1284, rfl⟩

abbrev nD : Nat := 1
abbrev τ : Topo := Topo.v7x

variable {F : FTy → Type} [FloatOps F]

class Facts₀ : Prop where
  slices_S32768x24x32_S32768x1x32_0_0_0 : S32768x24x32.Slices ![0, 0, 0] S32768x1x32
  shapeCasts_S32768x1x32_S32768x32 : S32768x1x32.ShapeCasts S32768x32
  slices_S32768x24x32_S32768x1x32_0_1_0 : S32768x24x32.Slices ![0, 1, 0] S32768x1x32
  slices_S32768x24x32_S32768x1x32_0_2_0 : S32768x24x32.Slices ![0, 2, 0] S32768x1x32
  slices_S32768x24x32_S32768x1x32_0_3_0 : S32768x24x32.Slices ![0, 3, 0] S32768x1x32
  slices_S32768x24x32_S32768x1x32_0_4_0 : S32768x24x32.Slices ![0, 4, 0] S32768x1x32
  slices_S32768x24x32_S32768x1x32_0_5_0 : S32768x24x32.Slices ![0, 5, 0] S32768x1x32
  slices_S32768x24x32_S32768x1x32_0_6_0 : S32768x24x32.Slices ![0, 6, 0] S32768x1x32
  slices_S32768x24x32_S32768x1x32_0_7_0 : S32768x24x32.Slices ![0, 7, 0] S32768x1x32
  slices_S32768x24x32_S32768x1x32_0_8_0 : S32768x24x32.Slices ![0, 8, 0] S32768x1x32
  slices_S32768x24x32_S32768x1x32_0_9_0 : S32768x24x32.Slices ![0, 9, 0] S32768x1x32
  slices_S32768x24x32_S32768x1x32_0_10_0 : S32768x24x32.Slices ![0, 10, 0] S32768x1x32
  slices_S32768x24x32_S32768x1x32_0_11_0 : S32768x24x32.Slices ![0, 11, 0] S32768x1x32
  slices_S32768x24x32_S32768x1x32_0_12_0 : S32768x24x32.Slices ![0, 12, 0] S32768x1x32
  slices_S32768x24x32_S32768x1x32_0_13_0 : S32768x24x32.Slices ![0, 13, 0] S32768x1x32
  slices_S32768x24x32_S32768x1x32_0_14_0 : S32768x24x32.Slices ![0, 14, 0] S32768x1x32
  slices_S32768x24x32_S32768x1x32_0_15_0 : S32768x24x32.Slices ![0, 15, 0] S32768x1x32
  slices_S32768x24x32_S32768x1x32_0_16_0 : S32768x24x32.Slices ![0, 16, 0] S32768x1x32
  slices_S32768x24x32_S32768x1x32_0_17_0 : S32768x24x32.Slices ![0, 17, 0] S32768x1x32
  slices_S32768x24x32_S32768x1x32_0_18_0 : S32768x24x32.Slices ![0, 18, 0] S32768x1x32
  slices_S32768x24x32_S32768x1x32_0_19_0 : S32768x24x32.Slices ![0, 19, 0] S32768x1x32
  slices_S32768x24x32_S32768x1x32_0_20_0 : S32768x24x32.Slices ![0, 20, 0] S32768x1x32
  slices_S32768x24x32_S32768x1x32_0_21_0 : S32768x24x32.Slices ![0, 21, 0] S32768x1x32
  slices_S32768x24x32_S32768x1x32_0_22_0 : S32768x24x32.Slices ![0, 22, 0] S32768x1x32
  slices_S32768x24x32_S32768x1x32_0_23_0 : S32768x24x32.Slices ![0, 23, 0] S32768x1x32
  slices_S24x480x32_S1x480x32_0_0_0 : S24x480x32.Slices ![0, 0, 0] S1x480x32
  shapeCasts_S1x480x32_S480x32 : S1x480x32.ShapeCasts S480x32
  slices_S24x32_S1x32_0_0 : S24x32.Slices ![0, 0] S1x32
  shapeCasts_S1x32_S32 : S1x32.ShapeCasts S32
  concatenates_S32768x32_S32768x448_S32768x480_d1 : Shape.Concatenates [S32768x32, S32768x448] S32768x480 1
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  slices_S24x480x32_S1x480x32_1_0_0 : S24x480x32.Slices ![1, 0, 0] S1x480x32
  slices_S24x32_S1x32_1_0 : S24x32.Slices ![1, 0] S1x32
  slices_S24x480x32_S1x480x32_2_0_0 : S24x480x32.Slices ![2, 0, 0] S1x480x32
  slices_S24x32_S1x32_2_0 : S24x32.Slices ![2, 0] S1x32
  slices_S24x480x32_S1x480x32_3_0_0 : S24x480x32.Slices ![3, 0, 0] S1x480x32
  slices_S24x32_S1x32_3_0 : S24x32.Slices ![3, 0] S1x32
  slices_S24x480x32_S1x480x32_4_0_0 : S24x480x32.Slices ![4, 0, 0] S1x480x32
  slices_S24x32_S1x32_4_0 : S24x32.Slices ![4, 0] S1x32
  slices_S24x480x32_S1x480x32_5_0_0 : S24x480x32.Slices ![5, 0, 0] S1x480x32
  slices_S24x32_S1x32_5_0 : S24x32.Slices ![5, 0] S1x32
  slices_S24x480x32_S1x480x32_6_0_0 : S24x480x32.Slices ![6, 0, 0] S1x480x32
  slices_S24x32_S1x32_6_0 : S24x32.Slices ![6, 0] S1x32
  slices_S24x480x32_S1x480x32_7_0_0 : S24x480x32.Slices ![7, 0, 0] S1x480x32
  slices_S24x32_S1x32_7_0 : S24x32.Slices ![7, 0] S1x32
  slices_S24x480x32_S1x480x32_8_0_0 : S24x480x32.Slices ![8, 0, 0] S1x480x32
  slices_S24x32_S1x32_8_0 : S24x32.Slices ![8, 0] S1x32
  slices_S24x480x32_S1x480x32_9_0_0 : S24x480x32.Slices ![9, 0, 0] S1x480x32
  slices_S24x32_S1x32_9_0 : S24x32.Slices ![9, 0] S1x32
  slices_S24x480x32_S1x480x32_10_0_0 : S24x480x32.Slices ![10, 0, 0] S1x480x32
  slices_S24x32_S1x32_10_0 : S24x32.Slices ![10, 0] S1x32
  slices_S24x480x32_S1x480x32_11_0_0 : S24x480x32.Slices ![11, 0, 0] S1x480x32
  slices_S24x32_S1x32_11_0 : S24x32.Slices ![11, 0] S1x32
  slices_S24x480x32_S1x480x32_12_0_0 : S24x480x32.Slices ![12, 0, 0] S1x480x32
  slices_S24x32_S1x32_12_0 : S24x32.Slices ![12, 0] S1x32
  slices_S24x480x32_S1x480x32_13_0_0 : S24x480x32.Slices ![13, 0, 0] S1x480x32
  slices_S24x32_S1x32_13_0 : S24x32.Slices ![13, 0] S1x32
  slices_S24x480x32_S1x480x32_14_0_0 : S24x480x32.Slices ![14, 0, 0] S1x480x32
  slices_S24x32_S1x32_14_0 : S24x32.Slices ![14, 0] S1x32
  slices_S24x480x32_S1x480x32_15_0_0 : S24x480x32.Slices ![15, 0, 0] S1x480x32
  slices_S24x32_S1x32_15_0 : S24x32.Slices ![15, 0] S1x32
  slices_S24x480x32_S1x480x32_16_0_0 : S24x480x32.Slices ![16, 0, 0] S1x480x32
  slices_S24x32_S1x32_16_0 : S24x32.Slices ![16, 0] S1x32
  slices_S24x480x32_S1x480x32_17_0_0 : S24x480x32.Slices ![17, 0, 0] S1x480x32
  slices_S24x32_S1x32_17_0 : S24x32.Slices ![17, 0] S1x32
  slices_S24x480x32_S1x480x32_18_0_0 : S24x480x32.Slices ![18, 0, 0] S1x480x32
  slices_S24x32_S1x32_18_0 : S24x32.Slices ![18, 0] S1x32
  slices_S24x480x32_S1x480x32_19_0_0 : S24x480x32.Slices ![19, 0, 0] S1x480x32
  slices_S24x32_S1x32_19_0 : S24x32.Slices ![19, 0] S1x32
  slices_S24x480x32_S1x480x32_20_0_0 : S24x480x32.Slices ![20, 0, 0] S1x480x32
  slices_S24x32_S1x32_20_0 : S24x32.Slices ![20, 0] S1x32
  slices_S24x480x32_S1x480x32_21_0_0 : S24x480x32.Slices ![21, 0, 0] S1x480x32
  slices_S24x32_S1x32_21_0 : S24x32.Slices ![21, 0] S1x32
  slices_S24x480x32_S1x480x32_22_0_0 : S24x480x32.Slices ![22, 0, 0] S1x480x32
  slices_S24x32_S1x32_22_0 : S24x32.Slices ![22, 0] S1x32
  slices_S24x480x32_S1x480x32_23_0_0 : S24x480x32.Slices ![23, 0, 0] S1x480x32
  slices_S24x32_S1x32_23_0 : S24x32.Slices ![23, 0] S1x32
  bcast_S32768x32_S32768x1x32_0_2 : S32768x32.BroadcastsInDim S32768x1x32 (![0, 2] : Fin 2 → Fin S32768x1x32.rank)
  concatenates_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x16x32_d1 : Shape.Concatenates [S32768x1x32, S32768x1x32, S32768x1x32, S32768x1x32, S32768x1x32, S32768x1x32, S32768x1x32, S32768x1x32, S32768x1x32, S32768x1x32, S32768x1x32, S32768x1x32, S32768x1x32, S32768x1x32, S32768x1x32, S32768x1x32] S32768x16x32 1
  concatenates_S32768x1x32_S32768x1x32_S32768x1x32_S32768x1x32_S32768x1x32_S32768x1x32_S32768x1x32_S32768x1x32_S32768x8x32_d1 : Shape.Concatenates [S32768x1x32, S32768x1x32, S32768x1x32, S32768x1x32, S32768x1x32, S32768x1x32, S32768x1x32, S32768x1x32] S32768x8x32 1
  concatenates_S32768x16x32_S32768x8x32_S32768x24x32_d1 : Shape.Concatenates [S32768x16x32, S32768x8x32] S32768x24x32 1
  dot_S32768x480_S480x32_S32768x32_1_0_0_1_n_n_wf : DotDims.WF S32768x480 S480x32 S32768x32 [1] [0] [0] [1] [] []

variable [Facts₀]

def dot_S32768x480_S480x32_S32768x32_1_0_0_1_n_n : DotDims S32768x480 S480x32 S32768x32 where
  lhsContracting := [1]
  rhsContracting := [0]
  lhsNonContracting := [0]
  rhsNonContracting := [1]
  lhsBatch := []
  rhsBatch := []
  wf := dot_S32768x480_S480x32_S32768x32_1_0_0_1_n_n_wf

class Facts : Prop extends Facts₀ where

variable [Facts]
-- ==== Proof.Spec.lean ====
/-
  The pose GRU over a tree of 24 joints, read one batch row at a time on the extended reals.

  A row carries a hidden state of 24 joints by 32 features and an input of 448 features. Joint `j` has its own three
  affine maps on the 480 numbers "hidden state of the source joint, then the input": an update gate `z`, a reset gate `r`
  (both through the logistic function) and a candidate `q` (through tanh, on "reset gate times source state, then the
  input"). The joint's new state is `(1 - z) * h + z * q`, `h` the source joint's state. The source of the root is the
  root itself; the source of any other joint is its parent in the tree, which has a smaller number, so that when the
  joints are visited in order each one reads a state that is already final.

  `state k` is the table of all 24 joints' states after the first `k` joints have been visited; `state 24` is the
  result. `rows` reads this off arrays whose leading axis is the batch: every batch row is treated alone, so the
  function commutes with cutting the batch into blocks of rows.
-/
import Idealize.ShloMosaic.PureOps.Ideal
import Idealize.ShloMosaic.Lib.ValueIdx

noncomputable section

open scoped BigOperators

namespace Cert.PoseGru

open Idealize.ShloMosaic Idealize.ShloMosaic.ValueIdx

/-- The number one as both programs spell it: the binary32 word of 1.0. The same word stands on both sides and is
    only evaluated where the logistic function's own `1` has to meet it. -/
abbrev one : EReal := Ideal.ofBits .f32 0x3F800000#32

/-- The 480 numbers an affine map takes: the 32 features of a hidden state followed by the 448 input features. -/
def cat (h : Fin 32 → EReal) (x : Fin 448 → EReal) (k : Fin 480) : EReal :=
  if hk : k.val < 32 then h ⟨k.val, hk⟩ else x ⟨k.val - 32, by omega⟩

/-- One output feature of an affine map: the weighted sum over the 480 numbers plus the bias. -/
def lin (v : Fin 480 → EReal) (W : Fin 480 → Fin 32 → EReal) (b : Fin 32 → EReal) (d : Fin 32) : EReal :=
  (∑ k : Fin 480, v k * W k d) + b d

/-- The gated update of one joint from its source state `h` and the input `x`. -/
def cell (h : Fin 32 → EReal) (x : Fin 448 → EReal)
    (Wz : Fin 480 → Fin 32 → EReal) (bz : Fin 32 → EReal)
    (Wr : Fin 480 → Fin 32 → EReal) (br : Fin 32 → EReal)
    (Wq : Fin 480 → Fin 32 → EReal) (bq : Fin 32 → EReal) (d : Fin 32) : EReal :=
  (one - Ideal.logistic (lin (cat h x) Wz bz d)) * h d
    + Ideal.logistic (lin (cat h x) Wz bz d)
      * Ideal.tanh (lin (cat (fun e => Ideal.logistic (lin (cat h x) Wr br e) * h e) x) Wq bq d)

/-- The joint whose state joint `j` reads: the root reads itself, every other joint its parent in the tree. -/
def src : Fin 24 → Fin 24 :=
  ![0, 0, 0, 0, 1, 2, 3, 4, 5, 6, 7, 8, 9, 9, 9, 12, 13, 14, 16, 17, 18, 19, 20, 21]

/-- All joints' states of one row after the first `k` joints have been visited. -/
def state (h0 : Fin 24 → Fin 32 → EReal) (x : Fin 448 → EReal)
    (Wz : Fin 24 → Fin 480 → Fin 32 → EReal) (bz : Fin 24 → Fin 32 → EReal)
    (Wr : Fin 24 → Fin 480 → Fin 32 → EReal) (br : Fin 24 → Fin 32 → EReal)
    (Wq : Fin 24 → Fin 480 → Fin 32 → EReal) (bq : Fin 24 → Fin 32 → EReal) : ℕ → Fin 24 → Fin 32 → EReal
  | 0 => h0
  | k + 1 => fun j =>
      if j.val = k then cell (state h0 x Wz bz Wr br Wq bq k (src j)) x (Wz j) (bz j) (Wr j) (br j) (Wq j) (bq j)
      else state h0 x Wz bz Wr br Wq bq k j

theorem state_zero (h0 : Fin 24 → Fin 32 → EReal) (x : Fin 448 → EReal)
    (Wz : Fin 24 → Fin 480 → Fin 32 → EReal) (bz : Fin 24 → Fin 32 → EReal)
    (Wr : Fin 24 → Fin 480 → Fin 32 → EReal) (br : Fin 24 → Fin 32 → EReal)
    (Wq : Fin 24 → Fin 480 → Fin 32 → EReal) (bq : Fin 24 → Fin 32 → EReal) :
    state h0 x Wz bz Wr br Wq bq 0 = h0 := rfl

/-- Visiting joint `k` replaces that joint's state by the gated update from its source and leaves the others. -/
theorem state_succ (h0 : Fin 24 → Fin 32 → EReal) (x : Fin 448 → EReal)
    (Wz : Fin 24 → Fin 480 → Fin 32 → EReal) (bz : Fin 24 → Fin 32 → EReal)
    (Wr : Fin 24 → Fin 480 → Fin 32 → EReal) (br : Fin 24 → Fin 32 → EReal)
    (Wq : Fin 24 → Fin 480 → Fin 32 → EReal) (bq : Fin 24 → Fin 32 → EReal) (k : ℕ) (j : Fin 24) :
    state h0 x Wz bz Wr br Wq bq (k + 1) j =
      if j.val = k then cell (state h0 x Wz bz Wr br Wq bq k (src j)) x (Wz j) (bz j) (Wr j) (br j) (Wq j) (bq j)
      else state h0 x Wz bz Wr br Wq bq k j := rfl

/-! ## The state of a joint once it has been visited -/

section Final

variable (h0 : Fin 24 → Fin 32 → EReal) (x : Fin 448 → EReal)
  (Wz : Fin 24 → Fin 480 → Fin 32 → EReal) (bz : Fin 24 → Fin 32 → EReal)
  (Wr : Fin 24 → Fin 480 → Fin 32 → EReal) (br : Fin 24 → Fin 32 → EReal)
  (Wq : Fin 24 → Fin 480 → Fin 32 → EReal) (bq : Fin 24 → Fin 32 → EReal)

/-- Joint `j`'s state right after its own visit; no later visit touches it. -/
def final (j : Fin 24) : Fin 32 → EReal := state h0 x Wz bz Wr br Wq bq (j.val + 1) j

/-- A joint not yet visited still has its initial state. -/
theorem state_of_le (k : ℕ) (j : Fin 24) (h : k ≤ j.val) : state h0 x Wz bz Wr br Wq bq k j = h0 j := by
  induction k with
  | zero => rfl
  | succ k ih => rw [state_succ, if_neg (by omega), ih (by omega)]

/-- A joint already visited keeps the state its own visit gave it. -/
theorem state_of_lt (k : ℕ) (j : Fin 24) (h : j.val < k) :
    state h0 x Wz bz Wr br Wq bq k j = final h0 x Wz bz Wr br Wq bq j := by
  induction k with
  | zero => omega
  | succ k ih =>
    by_cases hk : j.val = k
    · subst hk; rfl
    · rw [state_succ, if_neg hk, ih (by omega)]

/-- Every joint but the root reads a joint of smaller number. -/
theorem src_lt : ∀ j : Fin 24, 0 < j.val → (src j).val < j.val := by decide

/-- The root is updated from its own initial state. -/
theorem final_root :
    final h0 x Wz bz Wr br Wq bq 0 = cell (h0 0) x (Wz 0) (bz 0) (Wr 0) (br 0) (Wq 0) (bq 0) := by
  show state h0 x Wz bz Wr br Wq bq (0 + 1) 0 = _
  rw [state_succ, if_pos (show ((0 : Fin 24) : ℕ) = 0 from rfl)]
  rfl

/-- Every other joint is updated from the final state of its parent. -/
theorem final_step (j : Fin 24) (hj : 0 < j.val) :
    final h0 x Wz bz Wr br Wq bq j =
      cell (final h0 x Wz bz Wr br Wq bq (src j)) x (Wz j) (bz j) (Wr j) (br j) (Wq j) (bq j) := by
  show state h0 x Wz bz Wr br Wq bq (j.val + 1) j = _
  rw [state_succ, if_pos rfl, state_of_lt h0 x Wz bz Wr br Wq bq j.val (src j) (src_lt j hj)]

/-- After all 24 visits every joint is at its final state. -/
theorem state_end (j : Fin 24) : state h0 x Wz bz Wr br Wq bq 24 j = final h0 x Wz bz Wr br Wq bq j :=
  state_of_lt h0 x Wz bz Wr br Wq bq 24 j j.isLt

end Final

/-- The result over arrays with a leading batch axis of `n` rows: row by row, the states after all 24 joints. -/
def rows {n : ℕ} (hp : (⟨3, ![n, 24, 32]⟩ : Shape).Idx → EReal) (x : (⟨2, ![n, 448]⟩ : Shape).Idx → EReal)
    (Wz : (⟨3, ![24, 480, 32]⟩ : Shape).Idx → EReal) (bz : (⟨2, ![24, 32]⟩ : Shape).Idx → EReal)
    (Wr : (⟨3, ![24, 480, 32]⟩ : Shape).Idx → EReal) (br : (⟨2, ![24, 32]⟩ : Shape).Idx → EReal)
    (Wq : (⟨3, ![24, 480, 32]⟩ : Shape).Idx → EReal) (bq : (⟨2, ![24, 32]⟩ : Shape).Idx → EReal) :
    (⟨3, ![n, 24, 32]⟩ : Shape).Idx → EReal :=
  fun i => state (fun j d => hp (ix3 (i 0 : Fin n) j d)) (fun k => x (ix2 (i 0 : Fin n) k))
    (fun j k d => Wz (ix3 j k d)) (fun j d => bz (ix2 j d))
    (fun j k d => Wr (ix3 j k d)) (fun j d => br (ix2 j d))
    (fun j k d => Wq (ix3 j k d)) (fun j d => bq (ix2 j d)) 24 (i 1 : Fin 24) (i 2 : Fin 32)

/-- Read at coordinates. -/
theorem rows_apply {n : ℕ} (hp : (⟨3, ![n, 24, 32]⟩ : Shape).Idx → EReal) (x : (⟨2, ![n, 448]⟩ : Shape).Idx → EReal)
    (Wz : (⟨3, ![24, 480, 32]⟩ : Shape).Idx → EReal) (bz : (⟨2, ![24, 32]⟩ : Shape).Idx → EReal)
    (Wr : (⟨3, ![24, 480, 32]⟩ : Shape).Idx → EReal) (br : (⟨2, ![24, 32]⟩ : Shape).Idx → EReal)
    (Wq : (⟨3, ![24, 480, 32]⟩ : Shape).Idx → EReal) (bq : (⟨2, ![24, 32]⟩ : Shape).Idx → EReal)
    (r : Fin n) (j : Fin 24) (d : Fin 32) :
    rows hp x Wz bz Wr br Wq bq (ix3 r j d) =
      state (fun j d => hp (ix3 r j d)) (fun k => x (ix2 r k))
        (fun j k d => Wz (ix3 j k d)) (fun j d => bz (ix2 j d))
        (fun j k d => Wr (ix3 j k d)) (fun j d => br (ix2 j d))
        (fun j k d => Wq (ix3 j k d)) (fun j d => bq (ix2 j d)) 24 j d := rfl

/-- The binary32 word of 1.0 is the number one. -/
theorem one_eq : one = 1 := by
  simp [one, Ideal.ofBits, Ideal.ieee]
  rw [← EReal.coe_one, ← EReal.coe_mul]
  congr 1
  norm_num

end Cert.PoseGru

end
-- ==== Proof.KCell.lean ====
/-
  One joint's gated update as the kernel computes it on a block of 1024 batch rows, and what it is row by row.

  The kernel reads the source joint's state as a [1024, 1, 32] slice of its working copy of the hidden states, puts the
  input features behind it, and forms the update gate, the reset gate and the candidate by three products with the
  joint's [480, 32] weight matrices (each plus the joint's bias row), the gates through the logistic function and the
  candidate through tanh; the new state `(1 - z) * h + z * q` goes back as a [1024, 1, 32] slice. At the ideal values
  the changes of float format are the identity and each product is the plain sum over the 480 contracted positions, so
  batch row `r` of the slice is `PoseGru.cell` of row `r` of the source state and of the input.
-/
import proofs.«114622_j72524817760644_1_alg».proof.Proof.Gen.KernelIdeal
import proofs.«114622_j72524817760644_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PoseCell

open Idealize.ShloMosaic Idealize.ShloMosaic.ValueIdx Cert.KernelIdeal Cert.KernelIdeal.Gen

variable {F : FTy → Type} [FloatOps F]

/-- A hidden state followed by the input features, both in the matrix unit's input format. -/
def cat (h : FVec F S1024x32 .f32) (xb : FVec F S1024x448 .bf16) : FVec F S1024x480 .bf16 :=
  concatenate S1024x480 1 [⟨S1024x32, truncf .bf16 h bitsLt_bf16_f32⟩, ⟨S1024x448, xb⟩] concatenates_S1024x32_S1024x448_S1024x480_d1

/-- One affine map on the block: the rows of `hx` times the joint's weight matrix, plus the joint's bias row. -/
def pre (hx : FVec F S1024x480 .bf16) (w : Vec F S1x480x32 .f32) (b : Vec F S1x32 .f32) : FVec F S1024x32 .f32 :=
  addf
    (matmul dot_S1024x480_S480x32_S1024x32_1_0_0_1_n_n none hx
      (truncf .bf16 (shapeCast S480x32 w shapeCasts_S1x480x32_S480x32) bitsLt_bf16_f32)
      (constant S1024x32 .f32 0x00000000#32))
    (broadcastTo S1024x32 (shapeCast S1x32 (shapeCast S32 b shapeCasts_S1x32_S32) shapeCasts_S32_S1x32) broadcasts_S1x32_S1024x32)

/-- The slice a joint stores: its gated update from the loaded source slice `hraw`, the loaded input block `x` and the
    joint's loaded weight slices and bias rows. -/
def cellV (hraw : Vec F S1024x1x32 .f32) (x : Vec F S1024x448 .f32)
    (wz : Vec F S1x480x32 .f32) (bz : Vec F S1x32 .f32) (wr : Vec F S1x480x32 .f32) (br : Vec F S1x32 .f32)
    (wq : Vec F S1x480x32 .f32) (bq : Vec F S1x32 .f32) : FVec F S1024x1x32 .f32 :=
  shapeCast S1024x1x32
    (addf
      (mulf
        (subf (broadcast S1024x32 (Scalar.ofBits .f32 0x3F800000#32))
          (logistic (pre (cat (shapeCast S1024x32 hraw shapeCasts_S1024x1x32_S1024x32) (truncf .bf16 x bitsLt_bf16_f32)) wz bz)))
        (shapeCast S1024x32 hraw shapeCasts_S1024x1x32_S1024x32))
      (mulf
        (logistic (pre (cat (shapeCast S1024x32 hraw shapeCasts_S1024x1x32_S1024x32) (truncf .bf16 x bitsLt_bf16_f32)) wz bz))
        (tanh (pre
          (cat
            (mulf (logistic (pre (cat (shapeCast S1024x32 hraw shapeCasts_S1024x1x32_S1024x32) (truncf .bf16 x bitsLt_bf16_f32)) wr br))
              (shapeCast S1024x32 hraw shapeCasts_S1024x1x32_S1024x32))
            (truncf .bf16 x bitsLt_bf16_f32))
          wq bq))))
    shapeCasts_S1024x32_S1024x1x32

/-! ## The contraction of the block product, axis by axis

The product contracts axis 1 of the rows with axis 0 of the weight matrix. At output index `(r, d)` and contracted
position `c` the two operand indices are `(r, c)` and `(c, d)`. -/

/-- The left operand's index keeps the output's row. -/
theorem lhsIdx_zero (r : Fin 1024) (d : Fin 32) (c : Fin 480) :
    ((dot_S1024x480_S480x32_S1024x32_1_0_0_1_n_n.lhsIdx (ix2 r d)
      ((contrEquiv1 dot_S1024x480_S480x32_S1024x32_1_0_0_1_n_n 480 rfl rfl).symm c)) 0).val = r.val := by
  simp [DotDims.lhsIdx, dot_S1024x480_S480x32_S1024x32_1_0_0_1_n_n]; rfl

/-- The left operand's index takes the contracted position on its second axis. -/
theorem lhsIdx_one (r : Fin 1024) (d : Fin 32) (c : Fin 480) :
    ((dot_S1024x480_S480x32_S1024x32_1_0_0_1_n_n.lhsIdx (ix2 r d)
      ((contrEquiv1 dot_S1024x480_S480x32_S1024x32_1_0_0_1_n_n 480 rfl rfl).symm c)) 1).val = c.val := by
  simp [DotDims.lhsIdx, dot_S1024x480_S480x32_S1024x32_1_0_0_1_n_n]
  exact contrEquiv1_symm_val dot_S1024x480_S480x32_S1024x32_1_0_0_1_n_n 480 rfl rfl c

/-- The right operand's index takes the contracted position on its first axis. -/
theorem rhsIdx_zero (r : Fin 1024) (d : Fin 32) (c : Fin 480) :
    ((dot_S1024x480_S480x32_S1024x32_1_0_0_1_n_n.rhsIdx (ix2 r d)
      ((contrEquiv1 dot_S1024x480_S480x32_S1024x32_1_0_0_1_n_n 480 rfl rfl).symm c)) 0).val = c.val := by
  simp [DotDims.rhsIdx, dot_S1024x480_S480x32_S1024x32_1_0_0_1_n_n]
  exact contrEquiv1_symm_val dot_S1024x480_S480x32_S1024x32_1_0_0_1_n_n 480 rfl rfl c

/-- The right operand's index keeps the output's column. -/
theorem rhsIdx_one (r : Fin 1024) (d : Fin 32) (c : Fin 480) :
    ((dot_S1024x480_S480x32_S1024x32_1_0_0_1_n_n.rhsIdx (ix2 r d)
      ((contrEquiv1 dot_S1024x480_S480x32_S1024x32_1_0_0_1_n_n 480 rfl rfl).symm c)) 1).val = d.val := by
  simp [DotDims.rhsIdx, dot_S1024x480_S480x32_S1024x32_1_0_0_1_n_n]; rfl

/-- The left operand's index is `(r, c)`. -/
theorem lhsIdx_eq (r : Fin 1024) (d : Fin 32) (c : Fin 480) :
    dot_S1024x480_S480x32_S1024x32_1_0_0_1_n_n.lhsIdx (ix2 r d)
      ((contrEquiv1 dot_S1024x480_S480x32_S1024x32_1_0_0_1_n_n 480 rfl rfl).symm c) = ix2 r c :=
  Shape.idx_ext₂ (lhsIdx_zero r d c) (lhsIdx_one r d c)

/-- The right operand's index is `(c, d)`. -/
theorem rhsIdx_eq (r : Fin 1024) (d : Fin 32) (c : Fin 480) :
    dot_S1024x480_S480x32_S1024x32_1_0_0_1_n_n.rhsIdx (ix2 r d)
      ((contrEquiv1 dot_S1024x480_S480x32_S1024x32_1_0_0_1_n_n 480 rfl rfl).symm c) = ix2 c d :=
  Shape.idx_ext₂ (rhsIdx_zero r d c) (rhsIdx_one r d c)

/-! ## The three pieces read at an index -/

/-- Row `r` of the concatenation is the row of the state followed by the row of the input. -/
theorem cat_apply (h : FVec Ideal S1024x32 .f32) (xb : FVec Ideal S1024x448 .bf16) (r : Fin 1024) (k : Fin 480) :
    cat h xb (ix2 r k) = PoseGru.cat (fun e => h (ix2 r e)) (fun e => xb (ix2 r e)) k := by
  unfold cat PoseGru.cat
  by_cases hk : k.val < 32
  · rw [dif_pos hk]
    exact concatenate_pair_apply_left (t := S1024x480) (s₁ := S1024x32) (s₂ := S1024x448) 1
      (truncf .bf16 h bitsLt_bf16_f32) xb concatenates_S1024x32_S1024x448_S1024x480_d1 (ix2 r k) rfl
      (ix2 r (⟨k.val, hk⟩ : Fin 32)) (fun b => match b with | ⟨0, _⟩ => rfl | ⟨1, _⟩ => rfl)
  · rw [dif_neg hk]
    exact concatenate_pair_apply_right (t := S1024x480) (s₁ := S1024x32) (s₂ := S1024x448) 1
      (truncf .bf16 h bitsLt_bf16_f32) xb concatenates_S1024x32_S1024x448_S1024x480_d1 (ix2 r k) rfl rfl
      (ix2 r (⟨k.val - 32, by omega⟩ : Fin 448))
      (fun b hb => match b, hb with | ⟨0, _⟩, _ => rfl | ⟨1, _⟩, hb => absurd rfl hb)
      (show k.val - 32 + 32 = k.val by omega)

/-- A weight slice seen as a matrix: dropping the unit joint axis keeps the other two coordinates. -/
theorem weight_apply (w : Vec Ideal S1x480x32 .f32) (c : Fin 480) (d : Fin 32) :
    shapeCast S480x32 w shapeCasts_S1x480x32_S480x32 (ix2 c d) = w (ix3 (0 : Fin 1) c d) :=
  shapeCast_apply w _ (ix2 c d) (ix3 (0 : Fin 1) c d) (by
    rw [Shape.rowMajor_val_three, Shape.rowMajor_val_two]
    show (0 * 480 + c.val) * 32 + d.val = c.val * 32 + d.val
    omega)

/-- The bias row, spread over the block: every batch row reads the same 32 numbers. -/
theorem bias_apply (b : Vec Ideal S1x32 .f32) (r : Fin 1024) (d : Fin 32) :
    broadcastTo S1024x32 (shapeCast S1x32 (shapeCast S32 b shapeCasts_S1x32_S32) shapeCasts_S32_S1x32)
      broadcasts_S1x32_S1024x32 (ix2 r d) = b (ix2 (0 : Fin 1) d) := by
  rw [shapeCast_shapeCast]
  exact broadcastTo_apply b _ (ix2 r d) (ix2 (0 : Fin 1) d)
    (fun a => match a with | ⟨0, _⟩ => rfl | ⟨1, _⟩ => rfl)

/-- One affine map at `(r, d)`: the sum over the 480 positions of row `r` against column `d` of the weight matrix,
    plus entry `d` of the bias. -/
theorem pre_apply (hx : FVec Ideal S1024x480 .bf16) (w : Vec Ideal S1x480x32 .f32) (b : Vec Ideal S1x32 .f32)
    (r : Fin 1024) (d : Fin 32) :
    pre hx w b (ix2 r d) =
      PoseGru.lin (fun k => hx (ix2 r k)) (fun k e => w (ix3 (0 : Fin 1) k e)) (fun e => b (ix2 (0 : Fin 1) e)) d := by
  unfold pre PoseGru.lin
  rw [addf_apply, bias_apply]
  congr 1
  show FloatOps.matmul dot_S1024x480_S480x32_S1024x32_1_0_0_1_n_n none hx _ (constant S1024x32 .f32 0x00000000#32) (ix2 r d) = _
  rw [Ideal.matmul_constant_zero_apply,
    ← Equiv.sum_comp (contrEquiv1 dot_S1024x480_S480x32_S1024x32_1_0_0_1_n_n 480 rfl rfl).symm]
  refine Finset.sum_congr rfl fun c _ => ?_
  rw [lhsIdx_eq, rhsIdx_eq, truncf_apply, weight_apply]

/-- The loaded source slice seen as a block of rows: dropping the unit joint axis keeps the other two coordinates. -/
theorem hrow_apply (hraw : Vec Ideal S1024x1x32 .f32) (r : Fin 1024) (e : Fin 32) :
    shapeCast S1024x32 hraw shapeCasts_S1024x1x32_S1024x32 (ix2 r e) = hraw (ix3 r (0 : Fin 1) e) :=
  shapeCast_apply hraw _ (ix2 r e) (ix3 r (0 : Fin 1) e) (by
    rw [Shape.rowMajor_val_three, Shape.rowMajor_val_two]
    show (r.val * 1 + 0) * 32 + e.val = r.val * 32 + e.val
    omega)

/-- The block of rows put back as a slice with a unit joint axis: the same two coordinates. -/
theorem store_apply (v : FVec Ideal S1024x32 .f32) (r : Fin 1024) (d : Fin 32) :
    shapeCast S1024x1x32 v shapeCasts_S1024x32_S1024x1x32 (ix3 r (0 : Fin 1) d) = v (ix2 r d) :=
  shapeCast_apply v _ (ix3 r (0 : Fin 1) d) (ix2 r d) (by
    rw [Shape.rowMajor_val_three, Shape.rowMajor_val_two]
    show r.val * 32 + d.val = (r.val * 1 + 0) * 32 + d.val
    omega)

/-- The logistic function of a block, at an index. -/
theorem logistic_apply {s : Shape} {φ : FTy} (v : FVec Ideal s φ) (i : s.Idx) : logistic v i = Ideal.logistic (v i) := rfl

/-- The hyperbolic tangent of a block, at an index. -/
theorem tanh_apply {s : Shape} {φ : FTy} (v : FVec Ideal s φ) (i : s.Idx) : tanh v i = Ideal.tanh (v i) := rfl

/-- One affine map of "state, then input" at `(r, d)`. -/
theorem pre_cat_apply (h : FVec Ideal S1024x32 .f32) (xb : FVec Ideal S1024x448 .bf16)
    (w : Vec Ideal S1x480x32 .f32) (b : Vec Ideal S1x32 .f32) (r : Fin 1024) (d : Fin 32) :
    pre (cat h xb) w b (ix2 r d) =
      PoseGru.lin (PoseGru.cat (fun e => h (ix2 r e)) (fun k => xb (ix2 r k)))
        (fun k e => w (ix3 (0 : Fin 1) k e)) (fun e => b (ix2 (0 : Fin 1) e)) d := by
  rw [pre_apply, show (fun k => cat h xb (ix2 r k)) = PoseGru.cat (fun e => h (ix2 r e)) (fun k => xb (ix2 r k)) from
    funext (cat_apply h xb r)]

/-- Batch row `r` of the stored slice is the gated update of row `r` of the source slice and of the input block. -/
theorem cellV_apply (hraw : Vec Ideal S1024x1x32 .f32) (x : Vec Ideal S1024x448 .f32)
    (wz : Vec Ideal S1x480x32 .f32) (bz : Vec Ideal S1x32 .f32) (wr : Vec Ideal S1x480x32 .f32) (br : Vec Ideal S1x32 .f32)
    (wq : Vec Ideal S1x480x32 .f32) (bq : Vec Ideal S1x32 .f32) (r : Fin 1024) (d : Fin 32) :
    cellV hraw x wz bz wr br wq bq (ix3 r (0 : Fin 1) d) =
      PoseGru.cell (fun e => hraw (ix3 r (0 : Fin 1) e)) (fun k => x (ix2 r k))
        (fun k e => wz (ix3 (0 : Fin 1) k e)) (fun e => bz (ix2 (0 : Fin 1) e))
        (fun k e => wr (ix3 (0 : Fin 1) k e)) (fun e => br (ix2 (0 : Fin 1) e))
        (fun k e => wq (ix3 (0 : Fin 1) k e)) (fun e => bq (ix2 (0 : Fin 1) e)) d := by
  -- row `r` of the source slice and of the input block, as the specification takes them
  have hH : (fun e => shapeCast S1024x32 hraw shapeCasts_S1024x1x32_S1024x32 (ix2 r e))
      = fun e => hraw (ix3 r (0 : Fin 1) e) := funext (hrow_apply hraw r)
  -- an affine map of "source state, then input" at row `r`
  have hG : ∀ (w : Vec Ideal S1x480x32 .f32) (b : Vec Ideal S1x32 .f32) (e : Fin 32),
      pre (cat (shapeCast S1024x32 hraw shapeCasts_S1024x1x32_S1024x32) (truncf .bf16 x bitsLt_bf16_f32)) w b (ix2 r e)
        = PoseGru.lin (PoseGru.cat (fun e => hraw (ix3 r (0 : Fin 1) e)) (fun k => x (ix2 r k)))
            (fun k e => w (ix3 (0 : Fin 1) k e)) (fun e => b (ix2 (0 : Fin 1) e)) e := by
    intro w b e
    rw [pre_cat_apply, hH]
    rfl
  -- row `r` of "reset gate times source state"
  have hR : (fun e => mulf
        (logistic (pre (cat (shapeCast S1024x32 hraw shapeCasts_S1024x1x32_S1024x32) (truncf .bf16 x bitsLt_bf16_f32)) wr br))
        (shapeCast S1024x32 hraw shapeCasts_S1024x1x32_S1024x32) (ix2 r e))
      = fun e => Ideal.logistic (PoseGru.lin (PoseGru.cat (fun e => hraw (ix3 r (0 : Fin 1) e)) (fun k => x (ix2 r k)))
            (fun k e => wr (ix3 (0 : Fin 1) k e)) (fun e => br (ix2 (0 : Fin 1) e)) e) * hraw (ix3 r (0 : Fin 1) e) := by
    funext e
    rw [mulf_apply, logistic_apply, hG, hrow_apply]
  unfold cellV PoseGru.cell
  rw [store_apply, addf_apply, mulf_apply, mulf_apply, subf_apply, broadcast_apply, logistic_apply, tanh_apply, hG,
    pre_cat_apply, hR, hrow_apply]
  rfl

end Cert.KernelIdeal.PoseCell

end
-- ==== Proof.KChain.lean ====
/-
  What the kernel's working copy of the hidden states holds after each joint, on one block of 1024 batch rows.

  The body first copies the block of initial states into its working copy, then visits the joints in order: joint `k`
  loads the [1024, 1, 32] slice of its source joint from the working copy, forms the gated update (KCell.lean's
  `cellV`) with joint `k`'s slices of the weights and biases, and stores it as slice `k`. So the working copy after
  the first `k` joints, read at (row, joint, feature), is `PoseGru.state … k` of that row's data: slice `k` is
  replaced by the update from the source's slice as it stood, and every other slice stays. After joint 23 the working
  copy is copied out whole as the block's result.
-/
import proofs.«114622_j72524817760644_1_alg».proof.Proof.Gen.KernelIdeal.Frame
import proofs.«114622_j72524817760644_1_alg».proof.Proof.KCell
import Idealize.ShloMosaic.Lib.ValueIdx
import Idealize.ShloMosaic.Lib.Pipeline.Value

set_option maxRecDepth 65536

noncomputable section

namespace Cert.KernelIdeal.PoseChain

open Idealize.ShloMosaic Idealize.ShloMosaic.ValueIdx Cert.KernelIdeal Cert.KernelIdeal.Gen

/-! ## Slices of the working copy -/

/-- The slice of joint `k`: all rows, the one joint `k`, all features. -/
abbrev sliceRect (k : ℕ) (hk : ∀ a, (![0, k, 0] : Fin 3 → ℕ) a + S1024x1x32.size a ≤ S1024x24x32.size a) : Rect S1024x24x32 :=
  Rect.unit (s := S1024x24x32) ![0, k, 0] S1024x1x32.size hk

theorem slice_lt (k : ℕ) (hk : ∀ a, (![0, k, 0] : Fin 3 → ℕ) a + S1024x1x32.size a ≤ S1024x24x32.size a) : k < 24 := by
  have := hk 1
  simp at this
  omega

/-- Position (row, 0, feature) of slice `k` is position (row, k, feature) of the working copy. -/
theorem slice_idx (k : ℕ) (hk : ∀ a, (![0, k, 0] : Fin 3 → ℕ) a + S1024x1x32.size a ≤ S1024x24x32.size a)
    (r : Fin 1024) (d : Fin 32) :
    (sliceRect k hk).idx (ix3 r (0 : Fin 1) d) = ix3 r (⟨k, slice_lt k hk⟩ : Fin 24) d := by
  funext a
  match a with
  | ⟨0, _⟩ => exact Fin.ext (by simp [LoadRect.idx])
  | ⟨1, _⟩ => exact Fin.ext (by simp [LoadRect.idx])
  | ⟨2, _⟩ => exact Fin.ext (by simp [LoadRect.idx])

/-- A position lies in slice `k` exactly when its joint is `k`. -/
theorem mem_slice (k : ℕ) (hk : ∀ a, (![0, k, 0] : Fin 3 → ℕ) a + S1024x1x32.size a ≤ S1024x24x32.size a)
    (r : Fin 1024) (j : Fin 24) (d : Fin 32) :
    (ix3 r j d : S1024x24x32.Idx) ∈ (sliceRect k hk).set ↔ j.val = k := by
  rw [Rect.mem_set_unit]
  constructor
  · intro h
    have h1 := h (1 : Fin 3)
    change k ≤ j.val ∧ j.val < k + 1 at h1
    omega
  · intro h a
    match a with
    | ⟨0, _⟩ => exact ⟨Nat.zero_le _, by show r.val < 0 + 1024; omega⟩
    | ⟨1, _⟩ => exact (by show k ≤ j.val ∧ j.val < k + 1; omega)
    | ⟨2, _⟩ => exact ⟨Nat.zero_le _, by show d.val < 0 + 32; omega⟩

/-- After a store of slice `k`, joint `k` reads the stored slice and every other joint what was there before. -/
theorem canon_slice (k : ℕ) (hk : ∀ a, (![0, k, 0] : Fin 3 → ℕ) a + S1024x1x32.size a ≤ S1024x24x32.size a)
    (w : (sliceRect k hk).shape.Idx → Elt Ideal .f32)
    (L : List (View.Piece (Elt Ideal) S1024x24x32 .f32)) (r : Fin 1024) (j : Fin 24) (d : Fin 32) :
    View.canon (⟨sliceRect k hk, w⟩ :: L) (ix3 r j d)
      = if j.val = k then w (ix3 r (0 : Fin 1) d) else View.canon L (ix3 r j d) := by
  by_cases h : j.val = k
  · rw [if_pos h]
    have e : (ix3 r j d : S1024x24x32.Idx) = (sliceRect k hk).emb (ix3 r (0 : Fin 1) d) := by
      have : j = ⟨k, slice_lt k hk⟩ := Fin.ext h
      subst this
      exact (slice_idx k hk r d).symm
    rw [e]
    exact View.canon_cons_emb _ w L _
  · rw [if_neg h]
    exact View.canon_cons_of_not_mem _ L (fun hm => h ((mem_slice k hk r j d).mp hm))

/-! ## The loads of the weights and biases -/

/-- Position (0, k', e) of slice `k` of a stacked weight array is position (k, k', e) of the array. -/
theorem wslice_idx (k : ℕ) (hk : ∀ a, (![k, 0, 0] : Fin 3 → ℕ) a + S1x480x32.size a ≤ S24x480x32.size a) (hk' : k < 24)
    (q : Fin 480) (e : Fin 32) :
    (Rect.unit (s := S24x480x32) ![k, 0, 0] S1x480x32.size hk).idx (ix3 (0 : Fin 1) q e) = ix3 (⟨k, hk'⟩ : Fin 24) q e := by
  funext a
  match a with
  | ⟨0, _⟩ => exact Fin.ext (by simp [LoadRect.idx])
  | ⟨1, _⟩ => exact Fin.ext (by simp [LoadRect.idx])
  | ⟨2, _⟩ => exact Fin.ext (by simp [LoadRect.idx])

/-- Position (0, e) of row `k` of a stacked bias array is position (k, e) of the array. -/
theorem bslice_idx (k : ℕ) (hk : ∀ a, (![k, 0] : Fin 2 → ℕ) a + S1x32.size a ≤ S24x32.size a) (hk' : k < 24) (e : Fin 32) :
    (Rect.unit (s := S24x32) ![k, 0] S1x32.size hk).idx (ix2 (0 : Fin 1) e) = ix2 (⟨k, hk'⟩ : Fin 24) e := by
  funext a
  match a with
  | ⟨0, _⟩ => exact Fin.ext (by simp [LoadRect.idx])
  | ⟨1, _⟩ => exact Fin.ext (by simp [LoadRect.idx])

/-- The whole input block read at (row, position). -/
theorem xwhole_idx (r : Fin 1024) (q : Fin 448) :
    (Rect.unit (s := S1024x448) ![0, 0] S1024x448.size inb_S1024x448_S1024x448_0_0).idx (ix2 r q) = ix2 r q := by
  funext a
  match a with
  | ⟨0, _⟩ => exact Fin.ext (by simp [LoadRect.idx])
  | ⟨1, _⟩ => exact Fin.ext (by simp [LoadRect.idx])

/-- The whole block of initial states read at (row, joint, feature). -/
theorem hwhole_idx (r : Fin 1024) (j : Fin 24) (d : Fin 32) :
    (Rect.unit (s := S1024x24x32) ![0, 0, 0] S1024x24x32.size inb_S1024x24x32_S1024x24x32_0_0_0).idx (ix3 r j d) = ix3 r j d := by
  funext a
  match a with
  | ⟨0, _⟩ => exact Fin.ext (by simp [LoadRect.idx])
  | ⟨1, _⟩ => exact Fin.ext (by simp [LoadRect.idx])
  | ⟨2, _⟩ => exact Fin.ext (by simp [LoadRect.idx])

/-! ## One row's data, and one joint's step -/

section Chain

variable (c : Dev nD) (arg1 : Memref sig .tc .vmem S1024x24x32 .f32) (harg1 : arg1.IsWhole) (arg2 : Memref sig .tc .vmem S1024x448 .f32) (harg2 : arg2.IsWhole) (arg3 : Memref sig .tc .vmem S24x480x32 .f32) (harg3 : arg3.IsWhole) (arg4 : Memref sig .tc .vmem S24x32 .f32) (harg4 : arg4.IsWhole) (arg5 : Memref sig .tc .vmem S24x480x32 .f32) (harg5 : arg5.IsWhole) (arg6 : Memref sig .tc .vmem S24x32 .f32) (harg6 : arg6.IsWhole) (arg7 : Memref sig .tc .vmem S24x480x32 .f32) (harg7 : arg7.IsWhole) (arg8 : Memref sig .tc .vmem S24x32 .f32) (harg8 : arg8.IsWhole) (arg10 : Memref sig .tc .vmem S1024x24x32 .f32)
    (x0 : Vec Ideal S1024x24x32 .f32) (x1 : Vec Ideal S1024x448 .f32) (x2 : Vec Ideal S24x480x32 .f32) (x3 : Vec Ideal S24x32 .f32) (x4 : Vec Ideal S24x480x32 .f32) (x5 : Vec Ideal S24x32 .f32) (x6 : Vec Ideal S24x480x32 .f32) (x7 : Vec Ideal S24x32 .f32)

/-- The states of batch row `r` of the block after the first `k` joints. -/
def rowState (r : Fin 1024) (k : ℕ) : Fin 24 → Fin 32 → EReal :=
  PoseGru.state (fun j d => x0 (ix3 r j d)) (fun q => x1 (ix2 r q))
    (fun j q e => x2 (ix3 j q e)) (fun j e => x3 (ix2 j e))
    (fun j q e => x4 (ix3 j q e)) (fun j e => x5 (ix2 j e))
    (fun j q e => x6 (ix3 j q e)) (fun j e => x7 (ix2 j e)) k

/-- One joint: if the working copy `L` holds the states after `k` joints, then with slice `k` replaced by the gated
    update from slice `p`, `p` the source of joint `k`, it holds the states after `k + 1` joints. -/
theorem step (L : List (View.Piece (Elt Ideal) S1024x24x32 .f32)) (k p : ℕ)
    (hk : ∀ a, (![0, k, 0] : Fin 3 → ℕ) a + S1024x1x32.size a ≤ S1024x24x32.size a)
    (hp : ∀ a, (![0, p, 0] : Fin 3 → ℕ) a + S1024x1x32.size a ≤ S1024x24x32.size a)
    (hW : ∀ a, (![k, 0, 0] : Fin 3 → ℕ) a + S1x480x32.size a ≤ S24x480x32.size a)
    (hB : ∀ a, (![k, 0] : Fin 2 → ℕ) a + S1x32.size a ≤ S24x32.size a)
    (hsrc : (PoseGru.src ⟨k, slice_lt k hk⟩).val = p)
    (hL : ∀ r j d, View.canon L (ix3 r j d) = rowState x0 x1 x2 x3 x4 x5 x6 x7 r k j d)
    (r : Fin 1024) (j : Fin 24) (d : Fin 32) :
    View.canon (⟨sliceRect k hk,
        PoseCell.cellV (arg10.view.readCov L (sliceRect p hp).toLoadRect)
          (View.readAt (Elt Ideal) arg2.view (Rect.unit (s := S1024x448) ![0, 0] S1024x448.size inb_S1024x448_S1024x448_0_0).toLoadRect (harg2.unread x1))
          (View.readAt (Elt Ideal) arg3.view (Rect.unit (s := S24x480x32) ![k, 0, 0] S1x480x32.size hW).toLoadRect (harg3.unread x2))
          (View.readAt (Elt Ideal) arg4.view (Rect.unit (s := S24x32) ![k, 0] S1x32.size hB).toLoadRect (harg4.unread x3))
          (View.readAt (Elt Ideal) arg5.view (Rect.unit (s := S24x480x32) ![k, 0, 0] S1x480x32.size hW).toLoadRect (harg5.unread x4))
          (View.readAt (Elt Ideal) arg6.view (Rect.unit (s := S24x32) ![k, 0] S1x32.size hB).toLoadRect (harg6.unread x5))
          (View.readAt (Elt Ideal) arg7.view (Rect.unit (s := S24x480x32) ![k, 0, 0] S1x480x32.size hW).toLoadRect (harg7.unread x6))
          (View.readAt (Elt Ideal) arg8.view (Rect.unit (s := S24x32) ![k, 0] S1x32.size hB).toLoadRect (harg8.unread x7))⟩ :: L) (ix3 r j d)
      = rowState x0 x1 x2 x3 x4 x5 x6 x7 r (k + 1) j d := by
  have hk24 : k < 24 := slice_lt k hk
  rw [canon_slice]
  unfold rowState
  rw [PoseGru.state_succ]
  by_cases h : j.val = k
  · rw [if_pos h, if_pos h, PoseCell.cellV_apply]
    have hj : j = ⟨k, hk24⟩ := Fin.ext h
    subst hj
    have hs : PoseGru.src ⟨k, hk24⟩ = ⟨p, slice_lt p hp⟩ := Fin.ext hsrc
    congr 1
    · funext e
      rw [View.readCov_eq_canon']
      show View.canon L ((sliceRect p hp).idx (ix3 r (0 : Fin 1) e)) = _
      rw [slice_idx, hL, hs]
      rfl
    · funext q
      rw [View.readAt_eq_ld, harg2.read_unread]
      show x1 ((Rect.unit (s := S1024x448) ![0, 0] S1024x448.size inb_S1024x448_S1024x448_0_0).idx (ix2 r q)) = _
      rw [xwhole_idx]
    · funext q e
      rw [View.readAt_eq_ld, harg3.read_unread]
      show x2 ((Rect.unit (s := S24x480x32) ![k, 0, 0] S1x480x32.size hW).idx (ix3 (0 : Fin 1) q e)) = _
      rw [wslice_idx k hW hk24]
    · funext e
      rw [View.readAt_eq_ld, harg4.read_unread]
      show x3 ((Rect.unit (s := S24x32) ![k, 0] S1x32.size hB).idx (ix2 (0 : Fin 1) e)) = _
      rw [bslice_idx k hB hk24]
    · funext q e
      rw [View.readAt_eq_ld, harg5.read_unread]
      show x4 ((Rect.unit (s := S24x480x32) ![k, 0, 0] S1x480x32.size hW).idx (ix3 (0 : Fin 1) q e)) = _
      rw [wslice_idx k hW hk24]
    · funext e
      rw [View.readAt_eq_ld, harg6.read_unread]
      show x5 ((Rect.unit (s := S24x32) ![k, 0] S1x32.size hB).idx (ix2 (0 : Fin 1) e)) = _
      rw [bslice_idx k hB hk24]
    · funext q e
      rw [View.readAt_eq_ld, harg7.read_unread]
      show x6 ((Rect.unit (s := S24x480x32) ![k, 0, 0] S1x480x32.size hW).idx (ix3 (0 : Fin 1) q e)) = _
      rw [wslice_idx k hW hk24]
    · funext e
      rw [View.readAt_eq_ld, harg8.read_unread]
      show x7 ((Rect.unit (s := S24x32) ![k, 0] S1x32.size hB).idx (ix2 (0 : Fin 1) e)) = _
      rw [bslice_idx k hB hk24]
  · rw [if_neg h, if_neg h]
    exact hL r j d

/-! ## The 24 joints, one after the other -/

/-- The working copy after the copy-in: the block of initial states. -/
theorem inv0 (r : Fin 1024) (j : Fin 24) (d : Fin 32) :
    View.canon (kernelRun0_A.sl.HS0_1 (F := Ideal) c arg1 harg1 x0) (ix3 r j d)
      = rowState x0 x1 x2 x3 x4 x5 x6 x7 r 0 j d := by
  unfold kernelRun0_A.sl.HS0_1
  have e : (ix3 r j d : S1024x24x32.Idx)
      = (Rect.unit (s := S1024x24x32) ![0, 0, 0] S1024x24x32.size inb_S1024x24x32_S1024x24x32_0_0_0).emb (ix3 r j d) :=
    (hwhole_idx r j d).symm
  rw [e, View.canon_cons_emb]
  unfold k0_pay2
  rw [shapeCast_self, View.readAt_eq_ld, harg1.read_unread]
  show x0 ((Rect.unit (s := S1024x24x32) ![0, 0, 0] S1024x24x32.size inb_S1024x24x32_S1024x24x32_0_0_0).idx (ix3 r j d)) = _
  rw [hwhole_idx]
  rfl

/-- After joint 0's slice is stored (its source is joint 0's slice of the working copy). -/
theorem inv1 (r : Fin 1024) (j : Fin 24) (d : Fin 32) :
    View.canon (kernelRun0_A.sl.HS0_2 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 1 j d :=
  step arg2 harg2 arg3 harg3 arg4 harg4 arg5 harg5 arg6 harg6 arg7 harg7 arg8 harg8 arg10 x0 x1 x2 x3 x4 x5 x6 x7
    (kernelRun0_A.sl.HS0_1 (F := Ideal) c arg1 harg1 x0)
    0 0 inb_S1024x24x32_S1024x1x32_0_0_0 inb_S1024x24x32_S1024x1x32_0_0_0 inb_S24x480x32_S1x480x32_0_0_0 inb_S24x32_S1x32_0_0 rfl
    (inv0 c arg1 harg1 x0 x1 x2 x3 x4 x5 x6 x7) r j d

/-- After joint 1's slice is stored (its source is joint 0's slice of the working copy). -/
theorem inv2 (r : Fin 1024) (j : Fin 24) (d : Fin 32) :
    View.canon (kernelRun0_A.sl.HS0_3 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 2 j d :=
  step arg2 harg2 arg3 harg3 arg4 harg4 arg5 harg5 arg6 harg6 arg7 harg7 arg8 harg8 arg10 x0 x1 x2 x3 x4 x5 x6 x7
    (kernelRun0_A.sl.HS0_2 (F := Ideal) c arg1 harg1 arg2 harg2 arg3 harg3 arg4 harg4 arg5 harg5 arg6 harg6 arg7 harg7 arg8 harg8 arg10 x0 x1 x2 x3 x4 x5 x6 x7)
    1 0 inb_S1024x24x32_S1024x1x32_0_1_0 inb_S1024x24x32_S1024x1x32_0_0_0 inb_S24x480x32_S1x480x32_1_0_0 inb_S24x32_S1x32_1_0 rfl
    (inv1 c arg1 harg1 arg2 harg2 arg3 harg3 arg4 harg4 arg5 harg5 arg6 harg6 arg7 harg7 arg8 harg8 arg10 x0 x1 x2 x3 x4 x5 x6 x7) r j d

/-- After joint 2's slice is stored (its source is joint 0's slice of the working copy). -/
theorem inv3 (r : Fin 1024) (j : Fin 24) (d : Fin 32) :
    View.canon (kernelRun0_A.sl.HS0_4 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 3 j d :=
  step arg2 harg2 arg3 harg3 arg4 harg4 arg5 harg5 arg6 harg6 arg7 harg7 arg8 harg8 arg10 x0 x1 x2 x3 x4 x5 x6 x7
    (kernelRun0_A.sl.HS0_3 (F := Ideal) c arg1 harg1 arg2 harg2 arg3 harg3 arg4 harg4 arg5 harg5 arg6 harg6 arg7 harg7 arg8 harg8 arg10 x0 x1 x2 x3 x4 x5 x6 x7)
    2 0 inb_S1024x24x32_S1024x1x32_0_2_0 inb_S1024x24x32_S1024x1x32_0_0_0 inb_S24x480x32_S1x480x32_2_0_0 inb_S24x32_S1x32_2_0 rfl
    (inv2 c arg1 harg1 arg2 harg2 arg3 harg3 arg4 harg4 arg5 harg5 arg6 harg6 arg7 harg7 arg8 harg8 arg10 x0 x1 x2 x3 x4 x5 x6 x7) r j d

/-- After joint 3's slice is stored (its source is joint 0's slice of the working copy). -/
theorem inv4 (r : Fin 1024) (j : Fin 24) (d : Fin 32) :
    View.canon (kernelRun0_A.sl.HS0_5 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 4 j d :=
  step arg2 harg2 arg3 harg3 arg4 harg4 arg5 harg5 arg6 harg6 arg7 harg7 arg8 harg8 arg10 x0 x1 x2 x3 x4 x5 x6 x7
    (kernelRun0_A.sl.HS0_4 (F := Ideal) c arg1 harg1 arg2 harg2 arg3 harg3 arg4 harg4 arg5 harg5 arg6 harg6 arg7 harg7 arg8 harg8 arg10 x0 x1 x2 x3 x4 x5 x6 x7)
    3 0 inb_S1024x24x32_S1024x1x32_0_3_0 inb_S1024x24x32_S1024x1x32_0_0_0 inb_S24x480x32_S1x480x32_3_0_0 inb_S24x32_S1x32_3_0 rfl
    (inv3 c arg1 harg1 arg2 harg2 arg3 harg3 arg4 harg4 arg5 harg5 arg6 harg6 arg7 harg7 arg8 harg8 arg10 x0 x1 x2 x3 x4 x5 x6 x7) r j d

/-- After joint 4's slice is stored (its source is joint 1's slice of the working copy). -/
theorem inv5 (r : Fin 1024) (j : Fin 24) (d : Fin 32) :
    View.canon (kernelRun0_A.sl.HS0_6 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 5 j d :=
  step arg2 harg2 arg3 harg3 arg4 harg4 arg5 harg5 arg6 harg6 arg7 harg7 arg8 harg8 arg10 x0 x1 x2 x3 x4 x5 x6 x7
    (kernelRun0_A.sl.HS0_5 (F := Ideal) c arg1 harg1 arg2 harg2 arg3 harg3 arg4 harg4 arg5 harg5 arg6 harg6 arg7 harg7 arg8 harg8 arg10 x0 x1 x2 x3 x4 x5 x6 x7)
    4 1 inb_S1024x24x32_S1024x1x32_0_4_0 inb_S1024x24x32_S1024x1x32_0_1_0 inb_S24x480x32_S1x480x32_4_0_0 inb_S24x32_S1x32_4_0 rfl
    (inv4 c arg1 harg1 arg2 harg2 arg3 harg3 arg4 harg4 arg5 harg5 arg6 harg6 arg7 harg7 arg8 harg8 arg10 x0 x1 x2 x3 x4 x5 x6 x7) r j d

/-- After joint 5's slice is stored (its source is joint 2's slice of the working copy). -/
theorem inv6 (r : Fin 1024) (j : Fin 24) (d : Fin 32) :
    View.canon (kernelRun0_A.sl.HS0_7 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 6 j d :=
  step arg2 harg2 arg3 harg3 arg4 harg4 arg5 harg5 arg6 harg6 arg7 harg7 arg8 harg8 arg10 x0 x1 x2 x3 x4 x5 x6 x7
    (kernelRun0_A.sl.HS0_6 (F := Ideal) c arg1 harg1 arg2 harg2 arg3 harg3 arg4 harg4 arg5 harg5 arg6 harg6 arg7 harg7 arg8 harg8 arg10 x0 x1 x2 x3 x4 x5 x6 x7)
    5 2 inb_S1024x24x32_S1024x1x32_0_5_0 inb_S1024x24x32_S1024x1x32_0_2_0 inb_S24x480x32_S1x480x32_5_0_0 inb_S24x32_S1x32_5_0 rfl
    (inv5 c arg1 harg1 arg2 harg2 arg3 harg3 arg4 harg4 arg5 harg5 arg6 harg6 arg7 harg7 arg8 harg8 arg10 x0 x1 x2 x3 x4 x5 x6 x7) r j d

/-- After joint 6's slice is stored (its source is joint 3's slice of the working copy). -/
theorem inv7 (r : Fin 1024) (j : Fin 24) (d : Fin 32) :
    View.canon (kernelRun0_A.sl.HS0_8 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 7 j d :=
  step arg2 harg2 arg3 harg3 arg4 harg4 arg5 harg5 arg6 harg6 arg7 harg7 arg8 harg8 arg10 x0 x1 x2 x3 x4 x5 x6 x7
    (kernelRun0_A.sl.HS0_7 (F := Ideal) c arg1 harg1 arg2 harg2 arg3 harg3 arg4 harg4 arg5 harg5 arg6 harg6 arg7 harg7 arg8 harg8 arg10 x0 x1 x2 x3 x4 x5 x6 x7)
    6 3 inb_S1024x24x32_S1024x1x32_0_6_0 inb_S1024x24x32_S1024x1x32_0_3_0 inb_S24x480x32_S1x480x32_6_0_0 inb_S24x32_S1x32_6_0 rfl
    (inv6 c arg1 harg1 arg2 harg2 arg3 harg3 arg4 harg4 arg5 harg5 arg6 harg6 arg7 harg7 arg8 harg8 arg10 x0 x1 x2 x3 x4 x5 x6 x7) r j d

/-- After joint 7's slice is stored (its source is joint 4's slice of the working copy). -/
theorem inv8 (r : Fin 1024) (j : Fin 24) (d : Fin 32) :
    View.canon (kernelRun0_A.sl.HS0_9 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 8 j d :=
  step arg2 harg2 arg3 harg3 arg4 harg4 arg5 harg5 arg6 harg6 arg7 harg7 arg8 harg8 arg10 x0 x1 x2 x3 x4 x5 x6 x7
    (kernelRun0_A.sl.HS0_8 (F := Ideal) c arg1 harg1 arg2 harg2 arg3 harg3 arg4 harg4 arg5 harg5 arg6 harg6 arg7 harg7 arg8 harg8 arg10 x0 x1 x2 x3 x4 x5 x6 x7)
    7 4 inb_S1024x24x32_S1024x1x32_0_7_0 inb_S1024x24x32_S1024x1x32_0_4_0 inb_S24x480x32_S1x480x32_7_0_0 inb_S24x32_S1x32_7_0 rfl
    (inv7 c arg1 harg1 arg2 harg2 arg3 harg3 arg4 harg4 arg5 harg5 arg6 harg6 arg7 harg7 arg8 harg8 arg10 x0 x1 x2 x3 x4 x5 x6 x7) r j d

/-- After joint 8's slice is stored (its source is joint 5's slice of the working copy). -/
theorem inv9 (r : Fin 1024) (j : Fin 24) (d : Fin 32) :
    View.canon (kernelRun0_A.sl.HS0_10 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 9 j d :=
  step arg2 harg2 arg3 harg3 arg4 harg4 arg5 harg5 arg6 harg6 arg7 harg7 arg8 harg8 arg10 x0 x1 x2 x3 x4 x5 x6 x7
    (kernelRun0_A.sl.HS0_9 (F := Ideal) c arg1 harg1 arg2 harg2 arg3 harg3 arg4 harg4 arg5 harg5 arg6 harg6 arg7 harg7 arg8 harg8 arg10 x0 x1 x2 x3 x4 x5 x6 x7)
    8 5 inb_S1024x24x32_S1024x1x32_0_8_0 inb_S1024x24x32_S1024x1x32_0_5_0 inb_S24x480x32_S1x480x32_8_0_0 inb_S24x32_S1x32_8_0 rfl
    (inv8 c arg1 harg1 arg2 harg2 arg3 harg3 arg4 harg4 arg5 harg5 arg6 harg6 arg7 harg7 arg8 harg8 arg10 x0 x1 x2 x3 x4 x5 x6 x7) r j d

/-- After joint 9's slice is stored (its source is joint 6's slice of the working copy). -/
theorem inv10 (r : Fin 1024) (j : Fin 24) (d : Fin 32) :
    View.canon (kernelRun0_A.sl.HS0_11 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 10 j d :=
  step arg2 harg2 arg3 harg3 arg4 harg4 arg5 harg5 arg6 harg6 arg7 harg7 arg8 harg8 arg10 x0 x1 x2 x3 x4 x5 x6 x7
    (kernelRun0_A.sl.HS0_10 (F := Ideal) c arg1 harg1 arg2 harg2 arg3 harg3 arg4 harg4 arg5 harg5 arg6 harg6 arg7 harg7 arg8 harg8 arg10 x0 x1 x2 x3 x4 x5 x6 x7)
    9 6 inb_S1024x24x32_S1024x1x32_0_9_0 inb_S1024x24x32_S1024x1x32_0_6_0 inb_S24x480x32_S1x480x32_9_0_0 inb_S24x32_S1x32_9_0 rfl
    (inv9 c arg1 harg1 arg2 harg2 arg3 harg3 arg4 harg4 arg5 harg5 arg6 harg6 arg7 harg7 arg8 harg8 arg10 x0 x1 x2 x3 x4 x5 x6 x7) r j d

/-- After joint 10's slice is stored (its source is joint 7's slice of the working copy). -/
theorem inv11 (r : Fin 1024) (j : Fin 24) (d : Fin 32) :
    View.canon (kernelRun0_A.sl.HS0_12 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 11 j d :=
  step arg2 harg2 arg3 harg3 arg4 harg4 arg5 harg5 arg6 harg6 arg7 harg7 arg8 harg8 arg10 x0 x1 x2 x3 x4 x5 x6 x7
    (kernelRun0_A.sl.HS0_11 (F := Ideal) c arg1 harg1 arg2 harg2 arg3 harg3 arg4 harg4 arg5 harg5 arg6 harg6 arg7 harg7 arg8 harg8 arg10 x0 x1 x2 x3 x4 x5 x6 x7)
    10 7 inb_S1024x24x32_S1024x1x32_0_10_0 inb_S1024x24x32_S1024x1x32_0_7_0 inb_S24x480x32_S1x480x32_10_0_0 inb_S24x32_S1x32_10_0 rfl
    (inv10 c arg1 harg1 arg2 harg2 arg3 harg3 arg4 harg4 arg5 harg5 arg6 harg6 arg7 harg7 arg8 harg8 arg10 x0 x1 x2 x3 x4 x5 x6 x7) r j d

/-- After joint 11's slice is stored (its source is joint 8's slice of the working copy). -/
theorem inv12 (r : Fin 1024) (j : Fin 24) (d : Fin 32) :
    View.canon (kernelRun0_A.sl.HS0_13 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 12 j d :=
  step arg2 harg2 arg3 harg3 arg4 harg4 arg5 harg5 arg6 harg6 arg7 harg7 arg8 harg8 arg10 x0 x1 x2 x3 x4 x5 x6 x7
    (kernelRun0_A.sl.HS0_12 (F := Ideal) c arg1 harg1 arg2 harg2 arg3 harg3 arg4 harg4 arg5 harg5 arg6 harg6 arg7 harg7 arg8 harg8 arg10 x0 x1 x2 x3 x4 x5 x6 x7)
    11 8 inb_S1024x24x32_S1024x1x32_0_11_0 inb_S1024x24x32_S1024x1x32_0_8_0 inb_S24x480x32_S1x480x32_11_0_0 inb_S24x32_S1x32_11_0 rfl
    (inv11 c arg1 harg1 arg2 harg2 arg3 harg3 arg4 harg4 arg5 harg5 arg6 harg6 arg7 harg7 arg8 harg8 arg10 x0 x1 x2 x3 x4 x5 x6 x7) r j d

/-- After joint 12's slice is stored (its source is joint 9's slice of the working copy). -/
theorem inv13 (r : Fin 1024) (j : Fin 24) (d : Fin 32) :
    View.canon (kernelRun0_A.sl.HS0_14 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 13 j d :=
  step arg2 harg2 arg3 harg3 arg4 harg4 arg5 harg5 arg6 harg6 arg7 harg7 arg8 harg8 arg10 x0 x1 x2 x3 x4 x5 x6 x7
    (kernelRun0_A.sl.HS0_13 (F := Ideal) c arg1 harg1 arg2 harg2 arg3 harg3 arg4 harg4 arg5 harg5 arg6 harg6 arg7 harg7 arg8 harg8 arg10 x0 x1 x2 x3 x4 x5 x6 x7)
    12 9 inb_S1024x24x32_S1024x1x32_0_12_0 inb_S1024x24x32_S1024x1x32_0_9_0 inb_S24x480x32_S1x480x32_12_0_0 inb_S24x32_S1x32_12_0 rfl
    (inv12 c arg1 harg1 arg2 harg2 arg3 harg3 arg4 harg4 arg5 harg5 arg6 harg6 arg7 harg7 arg8 harg8 arg10 x0 x1 x2 x3 x4 x5 x6 x7) r j d

/-- After joint 13's slice is stored (its source is joint 9's slice of the working copy). -/
theorem inv14 (r : Fin 1024) (j : Fin 24) (d : Fin 32) :
    View.canon (kernelRun0_A.sl.HS0_15 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 14 j d :=
  step arg2 harg2 arg3 harg3 arg4 harg4 arg5 harg5 arg6 harg6 arg7 harg7 arg8 harg8 arg10 x0 x1 x2 x3 x4 x5 x6 x7
    (kernelRun0_A.sl.HS0_14 (F := Ideal) c arg1 harg1 arg2 harg2 arg3 harg3 arg4 harg4 arg5 harg5 arg6 harg6 arg7 harg7 arg8 harg8 arg10 x0 x1 x2 x3 x4 x5 x6 x7)
    13 9 inb_S1024x24x32_S1024x1x32_0_13_0 inb_S1024x24x32_S1024x1x32_0_9_0 inb_S24x480x32_S1x480x32_13_0_0 inb_S24x32_S1x32_13_0 rfl
    (inv13 c arg1 harg1 arg2 harg2 arg3 harg3 arg4 harg4 arg5 harg5 arg6 harg6 arg7 harg7 arg8 harg8 arg10 x0 x1 x2 x3 x4 x5 x6 x7) r j d

/-- After joint 14's slice is stored (its source is joint 9's slice of the working copy). -/
theorem inv15 (r : Fin 1024) (j : Fin 24) (d : Fin 32) :
    View.canon (kernelRun0_A.sl.HS0_16 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 15 j d :=
  step arg2 harg2 arg3 harg3 arg4 harg4 arg5 harg5 arg6 harg6 arg7 harg7 arg8 harg8 arg10 x0 x1 x2 x3 x4 x5 x6 x7
    (kernelRun0_A.sl.HS0_15 (F := Ideal) c arg1 harg1 arg2 harg2 arg3 harg3 arg4 harg4 arg5 harg5 arg6 harg6 arg7 harg7 arg8 harg8 arg10 x0 x1 x2 x3 x4 x5 x6 x7)
    14 9 inb_S1024x24x32_S1024x1x32_0_14_0 inb_S1024x24x32_S1024x1x32_0_9_0 inb_S24x480x32_S1x480x32_14_0_0 inb_S24x32_S1x32_14_0 rfl
    (inv14 c arg1 harg1 arg2 harg2 arg3 harg3 arg4 harg4 arg5 harg5 arg6 harg6 arg7 harg7 arg8 harg8 arg10 x0 x1 x2 x3 x4 x5 x6 x7) r j d

/-- After joint 15's slice is stored (its source is joint 12's slice of the working copy). -/
theorem inv16 (r : Fin 1024) (j : Fin 24) (d : Fin 32) :
    View.canon (kernelRun0_A.sl.HS0_17 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 16 j d :=
  step arg2 harg2 arg3 harg3 arg4 harg4 arg5 harg5 arg6 harg6 arg7 harg7 arg8 harg8 arg10 x0 x1 x2 x3 x4 x5 x6 x7
    (kernelRun0_A.sl.HS0_16 (F := Ideal) c arg1 harg1 arg2 harg2 arg3 harg3 arg4 harg4 arg5 harg5 arg6 harg6 arg7 harg7 arg8 harg8 arg10 x0 x1 x2 x3 x4 x5 x6 x7)
    15 12 inb_S1024x24x32_S1024x1x32_0_15_0 inb_S1024x24x32_S1024x1x32_0_12_0 inb_S24x480x32_S1x480x32_15_0_0 inb_S24x32_S1x32_15_0 rfl
    (inv15 c arg1 harg1 arg2 harg2 arg3 harg3 arg4 harg4 arg5 harg5 arg6 harg6 arg7 harg7 arg8 harg8 arg10 x0 x1 x2 x3 x4 x5 x6 x7) r j d

/-- After joint 16's slice is stored (its source is joint 13's slice of the working copy). -/
theorem inv17 (r : Fin 1024) (j : Fin 24) (d : Fin 32) :
    View.canon (kernelRun0_A.sl.HS0_18 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 17 j d :=
  step arg2 harg2 arg3 harg3 arg4 harg4 arg5 harg5 arg6 harg6 arg7 harg7 arg8 harg8 arg10 x0 x1 x2 x3 x4 x5 x6 x7
    (kernelRun0_A.sl.HS0_17 (F := Ideal) c arg1 harg1 arg2 harg2 arg3 harg3 arg4 harg4 arg5 harg5 arg6 harg6 arg7 harg7 arg8 harg8 arg10 x0 x1 x2 x3 x4 x5 x6 x7)
    16 13 inb_S1024x24x32_S1024x1x32_0_16_0 inb_S1024x24x32_S1024x1x32_0_13_0 inb_S24x480x32_S1x480x32_16_0_0 inb_S24x32_S1x32_16_0 rfl
    (inv16 c arg1 harg1 arg2 harg2 arg3 harg3 arg4 harg4 arg5 harg5 arg6 harg6 arg7 harg7 arg8 harg8 arg10 x0 x1 x2 x3 x4 x5 x6 x7) r j d

/-- After joint 17's slice is stored (its source is joint 14's slice of the working copy). -/
theorem inv18 (r : Fin 1024) (j : Fin 24) (d : Fin 32) :
    View.canon (kernelRun0_A.sl.HS0_19 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 18 j d :=
  step arg2 harg2 arg3 harg3 arg4 harg4 arg5 harg5 arg6 harg6 arg7 harg7 arg8 harg8 arg10 x0 x1 x2 x3 x4 x5 x6 x7
    (kernelRun0_A.sl.HS0_18 (F := Ideal) c arg1 harg1 arg2 harg2 arg3 harg3 arg4 harg4 arg5 harg5 arg6 harg6 arg7 harg7 arg8 harg8 arg10 x0 x1 x2 x3 x4 x5 x6 x7)
    17 14 inb_S1024x24x32_S1024x1x32_0_17_0 inb_S1024x24x32_S1024x1x32_0_14_0 inb_S24x480x32_S1x480x32_17_0_0 inb_S24x32_S1x32_17_0 rfl
    (inv17 c arg1 harg1 arg2 harg2 arg3 harg3 arg4 harg4 arg5 harg5 arg6 harg6 arg7 harg7 arg8 harg8 arg10 x0 x1 x2 x3 x4 x5 x6 x7) r j d

/-- After joint 18's slice is stored (its source is joint 16's slice of the working copy). -/
theorem inv19 (r : Fin 1024) (j : Fin 24) (d : Fin 32) :
    View.canon (kernelRun0_A.sl.HS0_20 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 19 j d :=
  step arg2 harg2 arg3 harg3 arg4 harg4 arg5 harg5 arg6 harg6 arg7 harg7 arg8 harg8 arg10 x0 x1 x2 x3 x4 x5 x6 x7
    (kernelRun0_A.sl.HS0_19 (F := Ideal) c arg1 harg1 arg2 harg2 arg3 harg3 arg4 harg4 arg5 harg5 arg6 harg6 arg7 harg7 arg8 harg8 arg10 x0 x1 x2 x3 x4 x5 x6 x7)
    18 16 inb_S1024x24x32_S1024x1x32_0_18_0 inb_S1024x24x32_S1024x1x32_0_16_0 inb_S24x480x32_S1x480x32_18_0_0 inb_S24x32_S1x32_18_0 rfl
    (inv18 c arg1 harg1 arg2 harg2 arg3 harg3 arg4 harg4 arg5 harg5 arg6 harg6 arg7 harg7 arg8 harg8 arg10 x0 x1 x2 x3 x4 x5 x6 x7) r j d

/-- After joint 19's slice is stored (its source is joint 17's slice of the working copy). -/
theorem inv20 (r : Fin 1024) (j : Fin 24) (d : Fin 32) :
    View.canon (kernelRun0_A.sl.HS0_21 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 20 j d :=
  step arg2 harg2 arg3 harg3 arg4 harg4 arg5 harg5 arg6 harg6 arg7 harg7 arg8 harg8 arg10 x0 x1 x2 x3 x4 x5 x6 x7
    (kernelRun0_A.sl.HS0_20 (F := Ideal) c arg1 harg1 arg2 harg2 arg3 harg3 arg4 harg4 arg5 harg5 arg6 harg6 arg7 harg7 arg8 harg8 arg10 x0 x1 x2 x3 x4 x5 x6 x7)
    19 17 inb_S1024x24x32_S1024x1x32_0_19_0 inb_S1024x24x32_S1024x1x32_0_17_0 inb_S24x480x32_S1x480x32_19_0_0 inb_S24x32_S1x32_19_0 rfl
    (inv19 c arg1 harg1 arg2 harg2 arg3 harg3 arg4 harg4 arg5 harg5 arg6 harg6 arg7 harg7 arg8 harg8 arg10 x0 x1 x2 x3 x4 x5 x6 x7) r j d

/-- After joint 20's slice is stored (its source is joint 18's slice of the working copy). -/
theorem inv21 (r : Fin 1024) (j : Fin 24) (d : Fin 32) :
    View.canon (kernelRun0_A.sl.HS0_22 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 21 j d :=
  step arg2 harg2 arg3 harg3 arg4 harg4 arg5 harg5 arg6 harg6 arg7 harg7 arg8 harg8 arg10 x0 x1 x2 x3 x4 x5 x6 x7
    (kernelRun0_A.sl.HS0_21 (F := Ideal) c arg1 harg1 arg2 harg2 arg3 harg3 arg4 harg4 arg5 harg5 arg6 harg6 arg7 harg7 arg8 harg8 arg10 x0 x1 x2 x3 x4 x5 x6 x7)
    20 18 inb_S1024x24x32_S1024x1x32_0_20_0 inb_S1024x24x32_S1024x1x32_0_18_0 inb_S24x480x32_S1x480x32_20_0_0 inb_S24x32_S1x32_20_0 rfl
    (inv20 c arg1 harg1 arg2 harg2 arg3 harg3 arg4 harg4 arg5 harg5 arg6 harg6 arg7 harg7 arg8 harg8 arg10 x0 x1 x2 x3 x4 x5 x6 x7) r j d

/-- After joint 21's slice is stored (its source is joint 19's slice of the working copy). -/
theorem inv22 (r : Fin 1024) (j : Fin 24) (d : Fin 32) :
    View.canon (kernelRun0_A.sl.HS0_23 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 22 j d :=
  step arg2 harg2 arg3 harg3 arg4 harg4 arg5 harg5 arg6 harg6 arg7 harg7 arg8 harg8 arg10 x0 x1 x2 x3 x4 x5 x6 x7
    (kernelRun0_A.sl.HS0_22 (F := Ideal) c arg1 harg1 arg2 harg2 arg3 harg3 arg4 harg4 arg5 harg5 arg6 harg6 arg7 harg7 arg8 harg8 arg10 x0 x1 x2 x3 x4 x5 x6 x7)
    21 19 inb_S1024x24x32_S1024x1x32_0_21_0 inb_S1024x24x32_S1024x1x32_0_19_0 inb_S24x480x32_S1x480x32_21_0_0 inb_S24x32_S1x32_21_0 rfl
    (inv21 c arg1 harg1 arg2 harg2 arg3 harg3 arg4 harg4 arg5 harg5 arg6 harg6 arg7 harg7 arg8 harg8 arg10 x0 x1 x2 x3 x4 x5 x6 x7) r j d

/-- After joint 22's slice is stored (its source is joint 20's slice of the working copy). -/
theorem inv23 (r : Fin 1024) (j : Fin 24) (d : Fin 32) :
    View.canon (kernelRun0_A.sl.HS0_24 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 23 j d :=
  step arg2 harg2 arg3 harg3 arg4 harg4 arg5 harg5 arg6 harg6 arg7 harg7 arg8 harg8 arg10 x0 x1 x2 x3 x4 x5 x6 x7
    (kernelRun0_A.sl.HS0_23 (F := Ideal) c arg1 harg1 arg2 harg2 arg3 harg3 arg4 harg4 arg5 harg5 arg6 harg6 arg7 harg7 arg8 harg8 arg10 x0 x1 x2 x3 x4 x5 x6 x7)
    22 20 inb_S1024x24x32_S1024x1x32_0_22_0 inb_S1024x24x32_S1024x1x32_0_20_0 inb_S24x480x32_S1x480x32_22_0_0 inb_S24x32_S1x32_22_0 rfl
    (inv22 c arg1 harg1 arg2 harg2 arg3 harg3 arg4 harg4 arg5 harg5 arg6 harg6 arg7 harg7 arg8 harg8 arg10 x0 x1 x2 x3 x4 x5 x6 x7) r j d

/-- After joint 23's slice is stored (its source is joint 21's slice of the working copy). -/
theorem inv24 (r : Fin 1024) (j : Fin 24) (d : Fin 32) :
    View.canon (kernelRun0_A.sl.HS0_25 (F := Ideal) c arg1 harg1 arg2 harg2 arg3 harg3 arg4 harg4 arg5 harg5 arg6 harg6 arg7 harg7 arg8 harg8 arg10 x0 x1 x2 x3 x4 x5 x6 x7) (ix3 r j d)
      = rowState x0 x1 x2 x3 x4 x5 x6 x7 r 24 j d :=
  step arg2 harg2 arg3 harg3 arg4 harg4 arg5 harg5 arg6 harg6 arg7 harg7 arg8 harg8 arg10 x0 x1 x2 x3 x4 x5 x6 x7
    (kernelRun0_A.sl.HS0_24 (F := Ideal) c arg1 harg1 arg2 harg2 arg3 harg3 arg4 harg4 arg5 harg5 arg6 harg6 arg7 harg7 arg8 harg8 arg10 x0 x1 x2 x3 x4 x5 x6 x7)
    23 21 inb_S1024x24x32_S1024x1x32_0_23_0 inb_S1024x24x32_S1024x1x32_0_21_0 inb_S24x480x32_S1x480x32_23_0_0 inb_S24x32_S1x32_23_0 rfl
    (inv23 c arg1 harg1 arg2 harg2 arg3 harg3 arg4 harg4 arg5 harg5 arg6 harg6 arg7 harg7 arg8 harg8 arg10 x0 x1 x2 x3 x4 x5 x6 x7) r j d

/-! ## The block's result -/

/-- What the body leaves in the block of the result: the working copy after all 24 joints, copied out whole — row by
    row the pose GRU of the block's rows of the initial states and of the input, with the whole weights and biases. -/
theorem out_eq (i : grid0.Coords) (arg9 : Memref sig .tc .vmem S1024x24x32 .f32) (harg9 : arg9.IsWhole) (harg10 : arg10.IsWhole) :
    out0_A_8 (F := Ideal) c i arg1 harg1 arg2 harg2 arg3 harg3 arg4 harg4 arg5 harg5 arg6 harg6 arg7 harg7 arg8 harg8 arg9 harg9 arg10 harg10 x0 x1 x2 x3 x4 x5 x6 x7
      = PoseGru.rows (n := 1024) x0 x1 x2 x3 x4 x5 x6 x7 := by
  funext y
  obtain ⟨r, j, d, rfl⟩ : ∃ (r : Fin 1024) (j : Fin 24) (d : Fin 32), y = ix3 r j d := ⟨y 0, y 1, y 2, eq_ix3 y⟩
  rw [PoseGru.rows_apply]
  unfold out0_A_8
  rw [View.read_writes_junk_apply_eq_canon]
  show View.canon [⟨Rect.unit (s := S1024x24x32) ![0, 0, 0] S1024x24x32.size inb_S1024x24x32_S1024x24x32_0_0_0,
      kernelRun0_A.sl.v1086 (F := Ideal) c arg1 harg1 arg2 harg2 arg3 harg3 arg4 harg4 arg5 harg5 arg6 harg6 arg7 harg7 arg8 harg8 arg10 x0 x1 x2 x3 x4 x5 x6 x7⟩]
    (ix3 r j d) = _
  have e : (ix3 r j d : S1024x24x32.Idx)
      = (Rect.unit (s := S1024x24x32) ![0, 0, 0] S1024x24x32.size inb_S1024x24x32_S1024x24x32_0_0_0).emb (ix3 r j d) :=
    (hwhole_idx r j d).symm
  rw [e, View.canon_cons_emb]
  show arg10.view.readCov (kernelRun0_A.sl.HS0_25 (F := Ideal) c arg1 harg1 arg2 harg2 arg3 harg3 arg4 harg4 arg5 harg5 arg6 harg6 arg7 harg7 arg8 harg8 arg10 x0 x1 x2 x3 x4 x5 x6 x7)
      (Rect.unit (s := S1024x24x32) ![0, 0, 0] S1024x24x32.size inb_S1024x24x32_S1024x24x32_0_0_0).toLoadRect (ix3 r j d) = _
  rw [View.readCov_eq_canon']
  show View.canon _ ((Rect.unit (s := S1024x24x32) ![0, 0, 0] S1024x24x32.size inb_S1024x24x32_S1024x24x32_0_0_0).idx (ix3 r j d)) = _
  rw [hwhole_idx, inv24]
  rfl

end Chain

end Cert.KernelIdeal.PoseChain

end
-- ==== Proof.Blocks.lean ====
/-
  From the blocks to the array: after the run, the kernel's result array is the row-by-row pose GRU of its arguments.

  Grid point `t` stages rows 1024 t … 1024 t + 1023 of the initial states and of the input, and the six weight and bias
  arrays whole; the body leaves in the result's staging buffer the pose GRU of those rows (KChain.lean's `out_eq`), and
  the write-back puts them at rows 1024 t … of the result array. The pose GRU treats every batch row alone, so the
  block of the whole-array function at point `t` is the function of the blocks; the 32 blocks tile the 32768 rows.
-/
import proofs.«114622_j72524817760644_1_alg».proof.Proof.Gen.KernelIdeal.Value
import proofs.«114622_j72524817760644_1_alg».proof.Proof.KChain
import Idealize.ShloMosaic.Lib.ValueIdx
import Idealize.ShloMosaic.Lib.Pipeline.Value

set_option maxRecDepth 16384

noncomputable section

namespace Cert.KernelIdeal.PoseBlocks

open Idealize.ShloMosaic Idealize.ShloMosaic.ValueIdx Idealize.ShloMosaic.TcCoe Idealize.SL.Sem
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The whole-array function of the kernel's arguments as launched. -/
abbrev G (c : Dev nD) : S32768x24x32.Idx → EReal :=
  PoseGru.rows (n := 32768) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-! ## Where each window's block sits -/

/-- The printed index maps, decided over the 32 grid points: the states, the input and the result move one block of 1024
    rows per point along the batch axis and sit at block 0 on the other axes. -/
theorem idx_rows : ∀ t : Fin cfg0.N, t.val < 32
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- The six weight and bias windows stage their whole arrays at every point: block 0 on every axis. -/
theorem idx_whole : ∀ t : Fin cfg0.N,
    (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0) :=
  (by decide +kernel : ∀ t : Fin grid0.N, _)

/-! ## The staged blocks, read at an index -/

/-- The block of initial states at point `t`. -/
abbrev hblk (c : Dev nD) (t : Fin cfg0.N) : Vec Ideal S1024x24x32 .f32 := iblk m c 0 t
/-- The block of input rows at point `t`. -/
abbrev xblk (c : Dev nD) (t : Fin cfg0.N) : Vec Ideal S1024x448 .f32 := iblk m c 1 t

/-- Row `r` of the states' block at point `t` is row `1024 t + r` of the array. -/
theorem hblk_apply (c : Dev nD) (t : Fin cfg0.N) (r : Fin 1024) (j : Fin 24) (d : Fin 32) (hr : 1024 * t.val + r.val < 32768) :
    hblk m c t (ix3 r j d)
      = (m ((c : Thread nD τ).loc main_arg0) : S32768x24x32.Idx → EReal) (ix3 (⟨1024 * t.val + r.val, hr⟩ : Fin 32768) j d) := by
  obtain ⟨-, e0, e1, e2, -⟩ := idx_rows t
  unfold hblk iblk
  rw [View.read_apply]
  show V m c main_arg0 _ = m (c.tc.loc main_arg0) _
  unfold V
  congr 1
  funext a
  apply Fin.ext
  match a with
  | ⟨0, _⟩ => show win0_0.index t (0 : Fin 3) * 1024 + 1 * r.val = 1024 * t.val + r.val; rw [e0]; omega
  | ⟨1, _⟩ => show win0_0.index t (1 : Fin 3) * 24 + 1 * j.val = j.val; rw [e1]; omega
  | ⟨2, _⟩ => show win0_0.index t (2 : Fin 3) * 32 + 1 * d.val = d.val; rw [e2]; omega

/-- Row `r` of the input's block at point `t` is row `1024 t + r` of the array. -/
theorem xblk_apply (c : Dev nD) (t : Fin cfg0.N) (r : Fin 1024) (q : Fin 448) (hr : 1024 * t.val + r.val < 32768) :
    xblk m c t (ix2 r q)
      = (m ((c : Thread nD τ).loc main_arg1) : S32768x448.Idx → EReal) (ix2 (⟨1024 * t.val + r.val, hr⟩ : Fin 32768) q) := by
  obtain ⟨-, -, -, -, e0, e1, -⟩ := idx_rows t
  unfold xblk iblk
  rw [View.read_apply]
  show V m c main_arg1 _ = m (c.tc.loc main_arg1) _
  unfold V
  congr 1
  funext a
  apply Fin.ext
  match a with
  | ⟨0, _⟩ => show win0_1.index t (0 : Fin 2) * 1024 + 1 * r.val = 1024 * t.val + r.val; rw [e0]; omega
  | ⟨1, _⟩ => show win0_1.index t (1 : Fin 2) * 448 + 1 * q.val = q.val; rw [e1]; omega

/-- The update gate's weights as staged at point `t`: the whole array. -/
abbrev wzblk (c : Dev nD) (t : Fin cfg0.N) : Vec Ideal S24x480x32 .f32 := iblk m c 2 t
theorem wzblk_eq (c : Dev nD) (t : Fin cfg0.N) :
    wzblk m c t = (m ((c : Thread nD τ).loc main_arg2) : S24x480x32.Idx → EReal) := by
  obtain ⟨e0, e1, e2⟩ := (idx_whole t).1
  funext y
  unfold wzblk iblk
  rw [View.read_apply]
  show V m c main_arg2 _ = m (c.tc.loc main_arg2) _
  unfold V
  congr 1
  funext a
  apply Fin.ext
  match a with
  | ⟨0, _⟩ => show win0_2.index t (0 : Fin 3) * 24 + 1 * (y 0).val = (y 0).val; rw [e0]; omega
  | ⟨1, _⟩ => show win0_2.index t (1 : Fin 3) * 480 + 1 * (y 1).val = (y 1).val; rw [e1]; omega
  | ⟨2, _⟩ => show win0_2.index t (2 : Fin 3) * 32 + 1 * (y 2).val = (y 2).val; rw [e2]; omega

/-- The update gate's biases as staged at point `t`: the whole array. -/
abbrev bzblk (c : Dev nD) (t : Fin cfg0.N) : Vec Ideal S24x32 .f32 := iblk m c 3 t
theorem bzblk_eq (c : Dev nD) (t : Fin cfg0.N) :
    bzblk m c t = (m ((c : Thread nD τ).loc main_arg3) : S24x32.Idx → EReal) := by
  obtain ⟨e0, e1⟩ := (idx_whole t).2.1
  funext y
  unfold bzblk iblk
  rw [View.read_apply]
  show V m c main_arg3 _ = m (c.tc.loc main_arg3) _
  unfold V
  congr 1
  funext a
  apply Fin.ext
  match a with
  | ⟨0, _⟩ => show win0_3.index t (0 : Fin 2) * 24 + 1 * (y 0).val = (y 0).val; rw [e0]; omega
  | ⟨1, _⟩ => show win0_3.index t (1 : Fin 2) * 32 + 1 * (y 1).val = (y 1).val; rw [e1]; omega

/-- The reset gate's weights as staged at point `t`: the whole array. -/
abbrev wrblk (c : Dev nD) (t : Fin cfg0.N) : Vec Ideal S24x480x32 .f32 := iblk m c 4 t
theorem wrblk_eq (c : Dev nD) (t : Fin cfg0.N) :
    wrblk m c t = (m ((c : Thread nD τ).loc main_arg4) : S24x480x32.Idx → EReal) := by
  obtain ⟨e0, e1, e2⟩ := (idx_whole t).2.2.1
  funext y
  unfold wrblk iblk
  rw [View.read_apply]
  show V m c main_arg4 _ = m (c.tc.loc main_arg4) _
  unfold V
  congr 1
  funext a
  apply Fin.ext
  match a with
  | ⟨0, _⟩ => show win0_4.index t (0 : Fin 3) * 24 + 1 * (y 0).val = (y 0).val; rw [e0]; omega
  | ⟨1, _⟩ => show win0_4.index t (1 : Fin 3) * 480 + 1 * (y 1).val = (y 1).val; rw [e1]; omega
  | ⟨2, _⟩ => show win0_4.index t (2 : Fin 3) * 32 + 1 * (y 2).val = (y 2).val; rw [e2]; omega

/-- The reset gate's biases as staged at point `t`: the whole array. -/
abbrev brblk (c : Dev nD) (t : Fin cfg0.N) : Vec Ideal S24x32 .f32 := iblk m c 5 t
theorem brblk_eq (c : Dev nD) (t : Fin cfg0.N) :
    brblk m c t = (m ((c : Thread nD τ).loc main_arg5) : S24x32.Idx → EReal) := by
  obtain ⟨e0, e1⟩ := (idx_whole t).2.2.2.1
  funext y
  unfold brblk iblk
  rw [View.read_apply]
  show V m c main_arg5 _ = m (c.tc.loc main_arg5) _
  unfold V
  congr 1
  funext a
  apply Fin.ext
  match a with
  | ⟨0, _⟩ => show win0_5.index t (0 : Fin 2) * 24 + 1 * (y 0).val = (y 0).val; rw [e0]; omega
  | ⟨1, _⟩ => show win0_5.index t (1 : Fin 2) * 32 + 1 * (y 1).val = (y 1).val; rw [e1]; omega

/-- The candidate's weights as staged at point `t`: the whole array. -/
abbrev wqblk (c : Dev nD) (t : Fin cfg0.N) : Vec Ideal S24x480x32 .f32 := iblk m c 6 t
theorem wqblk_eq (c : Dev nD) (t : Fin cfg0.N) :
    wqblk m c t = (m ((c : Thread nD τ).loc main_arg6) : S24x480x32.Idx → EReal) := by
  obtain ⟨e0, e1, e2⟩ := (idx_whole t).2.2.2.2.1
  funext y
  unfold wqblk iblk
  rw [View.read_apply]
  show V m c main_arg6 _ = m (c.tc.loc main_arg6) _
  unfold V
  congr 1
  funext a
  apply Fin.ext
  match a with
  | ⟨0, _⟩ => show win0_6.index t (0 : Fin 3) * 24 + 1 * (y 0).val = (y 0).val; rw [e0]; omega
  | ⟨1, _⟩ => show win0_6.index t (1 : Fin 3) * 480 + 1 * (y 1).val = (y 1).val; rw [e1]; omega
  | ⟨2, _⟩ => show win0_6.index t (2 : Fin 3) * 32 + 1 * (y 2).val = (y 2).val; rw [e2]; omega

/-- The candidate's biases as staged at point `t`: the whole array. -/
abbrev bqblk (c : Dev nD) (t : Fin cfg0.N) : Vec Ideal S24x32 .f32 := iblk m c 7 t
theorem bqblk_eq (c : Dev nD) (t : Fin cfg0.N) :
    bqblk m c t = (m ((c : Thread nD τ).loc main_arg7) : S24x32.Idx → EReal) := by
  obtain ⟨e0, e1⟩ := (idx_whole t).2.2.2.2.2
  funext y
  unfold bqblk iblk
  rw [View.read_apply]
  show V m c main_arg7 _ = m (c.tc.loc main_arg7) _
  unfold V
  congr 1
  funext a
  apply Fin.ext
  match a with
  | ⟨0, _⟩ => show win0_7.index t (0 : Fin 2) * 24 + 1 * (y 0).val = (y 0).val; rw [e0]; omega
  | ⟨1, _⟩ => show win0_7.index t (1 : Fin 2) * 32 + 1 * (y 1).val = (y 1).val; rw [e1]; omega

/-! ## The function of the blocks is the block of the function -/

/-- The pose GRU treats every batch row alone: on the blocks staged at point `t`, its row `r` is row `1024 t + r` of the
    whole-array function. -/
theorem rows_block (c : Dev nD) (t : Fin cfg0.N) (r : Fin 1024) (j : Fin 24) (d : Fin 32) (hr : 1024 * t.val + r.val < 32768) :
    PoseGru.rows (n := 1024) (hblk m c t) (xblk m c t) (wzblk m c t) (bzblk m c t) (wrblk m c t) (brblk m c t)
        (wqblk m c t) (bqblk m c t) (ix3 r j d)
      = G m c (ix3 (⟨1024 * t.val + r.val, hr⟩ : Fin 32768) j d) := by
  unfold G
  rw [PoseGru.rows_apply, PoseGru.rows_apply, wzblk_eq, bzblk_eq, wrblk_eq, brblk_eq, wqblk_eq, bqblk_eq]
  simp only [hblk_apply m c t r _ _ hr, xblk_apply m c t r _ hr]

/-- The same over any index of the block and the index of the array it is written to. -/
theorem rows_block_at (c : Dev nD) (t : Fin cfg0.N) (y : S1024x24x32.Idx) (i : S32768x24x32.Idx)
    (h0 : (i 0).val = 1024 * t.val + (y 0).val) (h1 : (i 1).val = (y 1).val) (h2 : (i 2).val = (y 2).val) :
    PoseGru.rows (n := 1024) (hblk m c t) (xblk m c t) (wzblk m c t) (bzblk m c t) (wrblk m c t) (brblk m c t)
        (wqblk m c t) (bqblk m c t) y
      = G m c i := by
  obtain ⟨r, j, d, rfl⟩ : ∃ (r : Fin 1024) (j : Fin 24) (d : Fin 32), y = ix3 r j d := ⟨y 0, y 1, y 2, eq_ix3 y⟩
  have hi : (i 0).val < 32768 := (i 0).isLt
  have h0' : (i 0).val = 1024 * t.val + r.val := h0
  have hr : 1024 * t.val + r.val < 32768 := by omega
  obtain rfl : i = ix3 (⟨1024 * t.val + r.val, hr⟩ : Fin 32768) j d := by
    funext a
    apply Fin.ext
    match a with
    | ⟨0, _⟩ => exact h0
    | ⟨1, _⟩ => exact h1
    | ⟨2, _⟩ => exact h2
  exact rows_block m c t r j d hr

/-- What point `t` writes back is block `t` of the whole-array function. -/
theorem flushed_eq (c : Dev nD) (t : Fin cfg0.N) :
    (dats m 0 c).flushed 8 t = ((cfg0.win 8).blk t).view.read (Elt Ideal) (G m c) := by
  rw [Value.flushed8_A,
    PoseChain.out_eq c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0
      (iblk m c 0 t) (iblk m c 1 t) (iblk m c 2 t) (iblk m c 3 t) (iblk m c 4 t) (iblk m c 5 t) (iblk m c 6 t) (iblk m c 7 t)
      (grid0.coords t) (ms0_8 t) (hs0_8 t) (Memref.isWhole_whole _)]
  obtain ⟨-, -, -, -, -, -, e0, e1, e2⟩ := idx_rows t
  funext y
  refine rows_block_at m c t y (((cfg0.win 8).blk t).view.emb y) ?_ ?_ ?_
  · show win0_8.index t (0 : Fin 3) * 1024 + 1 * (y 0).val = 1024 * t.val + (y 0).val; rw [e0]; omega
  · show win0_8.index t (1 : Fin 3) * 24 + 1 * (y 1).val = (y 1).val; rw [e1]; omega
  · show win0_8.index t (2 : Fin 3) * 32 + 1 * (y 2).val = (y 2).val; rw [e2]; omega

/-! ## The 32 blocks tile the result array -/

/-- An index of the array is in point `t`'s block iff each coordinate is in the block's range on its axis. -/
theorem mem_blk (t : Fin cfg0.N) (i : S32768x24x32.Idx) :
    i ∈ ((cfg0.win 8).blk t).view.set ↔ ∀ a : Fin 3, win0_8.index t a * S1024x24x32.size a ≤ (i a).val
      ∧ (i a).val < win0_8.index t a * S1024x24x32.size a + S1024x24x32.size a := by
  show i ∈ ((View.whole main_v0).slice (win0_8.rect t)).set ↔ _
  rw [View.set_slice_whole, Rect.mem_set_unit]
  exact Iff.rfl

/-- Row `b` of the result lies in the block of point `b / 1024`. -/
theorem cover (i : S32768x24x32.Idx) :
    ∃ t : Fin cfg0.N, (cfg0.win 8).flush t = true ∧ i ∈ ((cfg0.win 8).blk t).view.set := by
  have hi0 : (i 0).val < 32768 := (i 0).isLt
  have hi1 : (i 1).val < 24 := (i 1).isLt
  have hi2 : (i 2).val < 32 := (i 2).isLt
  have hN : cfg0.N = 32 := by decide
  obtain ⟨t, ht⟩ : ∃ t : Fin cfg0.N, t.val = (i 0).val / 1024 := ⟨⟨(i 0).val / 1024, by rw [hN]; omega⟩, rfl⟩
  obtain ⟨-, -, -, -, -, -, e0, e1, e2⟩ := idx_rows t
  refine ⟨t, flush0_8 t, ?_⟩
  rw [mem_blk]
  intro a
  match a with
  | ⟨0, _⟩ =>
    show win0_8.index t (0 : Fin 3) * 1024 ≤ (i 0).val ∧ (i 0).val < win0_8.index t (0 : Fin 3) * 1024 + 1024
    rw [e0, ht]; omega
  | ⟨1, _⟩ =>
    show win0_8.index t (1 : Fin 3) * 24 ≤ (i 1).val ∧ (i 1).val < win0_8.index t (1 : Fin 3) * 24 + 24
    rw [e1]; omega
  | ⟨2, _⟩ =>
    show win0_8.index t (2 : Fin 3) * 32 ≤ (i 2).val ∧ (i 2).val < win0_8.index t (2 : Fin 3) * 32 + 32
    rw [e2]; omega

/-- After the run the result array is the whole-array function of the arguments. -/
theorem final8 (c : Dev nD) : (dats m 0 c).arrAt 8 cfg0.N = G m c := by
  exact (dats m 0 c).arrAt_eq_of_cover 8 (G m c) (fun t _ => flushed_eq m c t) cover

/-- The kernel's run with its result named: the pose GRU of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2⟩) (Value.run_blocks m ρ)

end Cert.KernelIdeal.PoseBlocks

end
-- ==== Proof.RefCell.lean ====
/-
  One joint's gated update as the reference computes it on all 32768 batch rows, and what it is row by row.

  The reference takes the source joint's state as a [32768, 32] array, puts the [32768, 448] input behind it, and forms
  the update gate, the reset gate and the candidate by three products with the joint's [480, 32] weight matrices — slice
  `i` of the stacked weights — each plus slice `i` of the stacked biases; the gates are `1 / (1 + exp (-v))`, spelt
  out, and the candidate is tanh. At the ideal values each product is the plain sum over the 480 contracted positions
  and the spelt-out quotient is the logistic function, so row `b` of the result is `PoseGru.cell` of row `b` of the
  source state and of the input, with joint `i`'s weights.
-/
import proofs.«114622_j72524817760644_1_alg».proof.Proof.Gen.ReferenceIdeal
import proofs.«114622_j72524817760644_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.PoseCell

open Idealize.ShloMosaic Idealize.ShloMosaic.ValueIdx Cert.ReferenceIdeal Cert.ReferenceIdeal.Gen

variable {F : FTy → Type} [FloatOps F]

/-- The constant one over all rows and features. -/
def ones : FVec F S32768x32 .f32 :=
  broadcastInDim S32768x32 ![] bcast_S_S32768x32 (constant S_ .f32 0x3F800000#32)

/-- A hidden state followed by the input features. -/
def cat (h : FVec F S32768x32 .f32) (x : FVec F S32768x448 .f32) : FVec F S32768x480 .f32 :=
  concatenate S32768x480 1 [⟨S32768x32, h⟩, ⟨S32768x448, x⟩] concatenates_S32768x32_S32768x448_S32768x480_d1

/-- One affine map: the rows of `hx` times slice `i` of the stacked weights, plus slice `i` of the stacked biases. -/
def pre (hx : FVec F S32768x480 .f32) (W : FVec F S24x480x32 .f32) (b : FVec F S24x32 .f32) (i : ℕ)
    (hW : S24x480x32.Slices ![i, 0, 0] S1x480x32) (hb : S24x32.Slices ![i, 0] S1x32) : FVec F S32768x32 .f32 :=
  addf
    (Host.dotGeneral dot_S32768x480_S480x32_S32768x32_1_0_0_1_n_n none hx
      (shapeCast S480x32 (extractStridedSlice S1x480x32 ![i, 0, 0] W hW) shapeCasts_S1x480x32_S480x32))
    (broadcastInDim S32768x32 ![0, 1] bcast_S1x32_S32768x32_0_1
      (broadcastInDim S1x32 ![1] bcast_S32_S1x32_1
        (shapeCast S32 (extractStridedSlice S1x32 ![i, 0] b hb) shapeCasts_S1x32_S32)))

/-- The logistic function as the reference spells it: `1 / (1 + exp (-v))`. -/
def sigm (v : FVec F S32768x32 .f32) : FVec F S32768x32 .f32 :=
  Host.divf ones (addf ones (Host.exp (Host.negf v)))

/-- Joint `i`'s new state from the source state `h` and the input `x`, with the update gate `z` given. -/
def outV (z h : FVec F S32768x32 .f32) (x : FVec F S32768x448 .f32)
    (Wr : FVec F S24x480x32 .f32) (br : FVec F S24x32 .f32) (Wq : FVec F S24x480x32 .f32) (bq : FVec F S24x32 .f32) (i : ℕ)
    (hW : S24x480x32.Slices ![i, 0, 0] S1x480x32) (hb : S24x32.Slices ![i, 0] S1x32) : FVec F S32768x32 .f32 :=
  addf (mulf (subf ones z) h)
    (mulf z (Host.tanh (pre (cat (mulf (sigm (pre (cat h x) Wr br i hW hb)) h) x) Wq bq i hW hb)))

/-- Joint `i`'s new state from the source state `h` and the input `x`. -/
def cellV (h : FVec F S32768x32 .f32) (x : FVec F S32768x448 .f32)
    (Wz : FVec F S24x480x32 .f32) (bz : FVec F S24x32 .f32) (Wr : FVec F S24x480x32 .f32) (br : FVec F S24x32 .f32)
    (Wq : FVec F S24x480x32 .f32) (bq : FVec F S24x32 .f32) (i : ℕ)
    (hW : S24x480x32.Slices ![i, 0, 0] S1x480x32) (hb : S24x32.Slices ![i, 0] S1x32) : FVec F S32768x32 .f32 :=
  outV (sigm (pre (cat h x) Wz bz i hW hb)) h x Wr br Wq bq i hW hb

/-! ## The pieces read at a row and a feature -/

/-- The constant is the binary32 word of one everywhere. -/
theorem ones_apply (r : Fin 32768) (d : Fin 32) : (ones (F := Ideal)) (ix2 r d) = PoseGru.one := by
  unfold ones
  rw [broadcastInDim_apply _ _ _ _ ix0 (fun a => a.elim0)]
  rfl

/-- Position `k` of a row of "state, then input" is the state's feature `k` below 32 and the input's feature
    `k - 32` from there on. -/
theorem cat_apply (h : FVec Ideal S32768x32 .f32) (x : FVec Ideal S32768x448 .f32) (r : Fin 32768) (k : Fin 480) :
    cat h x (ix2 r k) = PoseGru.cat (fun e => h (ix2 r e)) (fun k => x (ix2 r k)) k := by
  unfold cat PoseGru.cat
  by_cases hk : k.val < 32
  · rw [dif_pos hk]
    exact concatenate_pair_apply_left (1 : Fin 2) h x _ (ix2 r k) rfl (ix2 r ⟨k.val, hk⟩)
      (fun b => match b with | ⟨0, _⟩ => rfl | ⟨1, _⟩ => rfl)
  · rw [dif_neg hk]
    exact concatenate_pair_apply_right (1 : Fin 2) h x _ (ix2 r k) rfl rfl (ix2 r ⟨k.val - 32, by omega⟩)
      (fun b hb => match b, hb with | ⟨0, _⟩, _ => rfl | ⟨1, _⟩, hb => absurd rfl hb)
      (by show (k.val - 32) + 32 = k.val; omega)

/-! The product's operand indices, axis by axis: the left operand is read at (row of the result, contracted position),
    the right operand at (contracted position, column of the result). -/

theorem lhs_0 (j : S32768x32.Idx) (k : dot_S32768x480_S480x32_S32768x32_1_0_0_1_n_n.contr.Idx) :
    (dot_S32768x480_S480x32_S32768x32_1_0_0_1_n_n.lhsIdx j k 0).val = (j 0).val := by
  unfold DotDims.lhsIdx
  rw [dif_neg (show ¬(0 : Fin S32768x480.rank) ∈ dot_S32768x480_S480x32_S32768x32_1_0_0_1_n_n.lhsBatch by decide),
    dif_pos (show (0 : Fin S32768x480.rank) ∈ dot_S32768x480_S480x32_S32768x32_1_0_0_1_n_n.lhsNonContracting by decide)]
  rfl

theorem lhs_1 (j : S32768x32.Idx) (k : dot_S32768x480_S480x32_S32768x32_1_0_0_1_n_n.contr.Idx) :
    (dot_S32768x480_S480x32_S32768x32_1_0_0_1_n_n.lhsIdx j k 1).val = (k ⟨0, by decide⟩).val :=
  dot_S32768x480_S480x32_S32768x32_1_0_0_1_n_n.lhsIdx_val_of_single (cl := 1) rfl j k

theorem rhs_0 (j : S32768x32.Idx) (k : dot_S32768x480_S480x32_S32768x32_1_0_0_1_n_n.contr.Idx) :
    (dot_S32768x480_S480x32_S32768x32_1_0_0_1_n_n.rhsIdx j k 0).val = (k ⟨0, by decide⟩).val :=
  dot_S32768x480_S480x32_S32768x32_1_0_0_1_n_n.rhsIdx_val_of_single (cr := 0) rfl j k

theorem rhs_1 (j : S32768x32.Idx) (k : dot_S32768x480_S480x32_S32768x32_1_0_0_1_n_n.contr.Idx) :
    (dot_S32768x480_S480x32_S32768x32_1_0_0_1_n_n.rhsIdx j k 1).val = (j 1).val := by
  unfold DotDims.rhsIdx
  rw [dif_neg (show ¬(1 : Fin S480x32.rank) ∈ dot_S32768x480_S480x32_S32768x32_1_0_0_1_n_n.rhsBatch by decide),
    dif_pos (show (1 : Fin S480x32.rank) ∈ dot_S32768x480_S480x32_S32768x32_1_0_0_1_n_n.rhsNonContracting by decide)]
  rfl

/-- Entry (r, d) of the [32768, 480] × [480, 32] product is the sum over the 480 contracted positions of
    `l (r, k) * w (k, d)`: the sum over the one-axis contraction index, re-indexed by its coordinate. -/
theorem dot_apply (l : FVec Ideal S32768x480 .f32) (w : FVec Ideal S480x32 .f32) (r : Fin 32768) (d : Fin 32) :
    Host.dotGeneral dot_S32768x480_S480x32_S32768x32_1_0_0_1_n_n none l w (ix2 r d)
      = ∑ k : Fin 480, l (ix2 r k) * w (ix2 k d) := by
  simp only [Host.dotGeneral]
  rw [Ideal.dotGeneral_apply]
  rw [← Equiv.sum_comp (contrEquiv1 dot_S32768x480_S480x32_S32768x32_1_0_0_1_n_n 480 rfl rfl).symm]
  refine Finset.sum_congr rfl fun k _ => ?_
  have hk := contrEquiv1_symm_val dot_S32768x480_S480x32_S32768x32_1_0_0_1_n_n 480 rfl rfl k
  congr 1
  · refine congrArg l (Shape.idx_ext₂ ?_ ?_)
    · exact lhs_0 _ _
    · exact (lhs_1 _ _).trans hk
  · refine congrArg w (Shape.idx_ext₂ ?_ ?_)
    · exact (rhs_0 _ _).trans hk
    · exact rhs_1 _ _

/-- Slice `i` of the stacked weights, with its unit axis dropped, at (k, e) is the stack at (i, k, e). -/
theorem wslice_apply (W : FVec Ideal S24x480x32 .f32) (i : ℕ) (hi : i < 24)
    (hW : S24x480x32.Slices ![i, 0, 0] S1x480x32) (k : Fin 480) (e : Fin 32) :
    shapeCast S480x32 (extractStridedSlice S1x480x32 ![i, 0, 0] W hW) shapeCasts_S1x480x32_S480x32 (ix2 k e)
      = W (ix3 (⟨i, hi⟩ : Fin 24) k e) := by
  rw [shapeCast_dropUnit_apply ![480, 32]]
  exact extractStridedSlice_apply _ W hW _ (ix3 (⟨i, hi⟩ : Fin 24) k e)
    (fun a => match a with
      | ⟨0, _⟩ => rfl
      | ⟨1, _⟩ => (Nat.zero_add _).symm
      | ⟨2, _⟩ => (Nat.zero_add _).symm)

/-- Slice `i` of the stacked biases, repeated down all rows, at (r, d) is the stack at (i, d). -/
theorem bias_apply (b : FVec Ideal S24x32 .f32) (i : ℕ) (hi : i < 24) (hb : S24x32.Slices ![i, 0] S1x32)
    (r : Fin 32768) (d : Fin 32) :
    broadcastInDim S32768x32 ![0, 1] bcast_S1x32_S32768x32_0_1
      (broadcastInDim S1x32 ![1] bcast_S32_S1x32_1
        (shapeCast S32 (extractStridedSlice S1x32 ![i, 0] b hb) shapeCasts_S1x32_S32)) (ix2 r d)
      = b (ix2 (⟨i, hi⟩ : Fin 24) d) := by
  rw [broadcastInDim_apply _ _ _ _ (ix2 (0 : Fin 1) d) (fun a => match a with | ⟨0, _⟩ => rfl | ⟨1, _⟩ => rfl)]
  rw [broadcastInDim_apply _ _ _ _ (ix1 d) (fun a => match a with | ⟨0, _⟩ => rfl)]
  rw [shapeCast_dropUnit_apply ![32]]
  exact extractStridedSlice_apply _ b hb _ (ix2 (⟨i, hi⟩ : Fin 24) d)
    (fun a => match a with
      | ⟨0, _⟩ => rfl
      | ⟨1, _⟩ => (Nat.zero_add _).symm)

/-- One affine map at (r, d): the weighted sum of row `r` with column `d` of joint `i`'s matrix, plus joint `i`'s
    bias at `d`. -/
theorem pre_apply (hx : FVec Ideal S32768x480 .f32) (W : FVec Ideal S24x480x32 .f32) (b : FVec Ideal S24x32 .f32)
    (i : ℕ) (hi : i < 24) (hW : S24x480x32.Slices ![i, 0, 0] S1x480x32) (hb : S24x32.Slices ![i, 0] S1x32)
    (r : Fin 32768) (d : Fin 32) :
    pre hx W b i hW hb (ix2 r d)
      = PoseGru.lin (fun k => hx (ix2 r k)) (fun k e => W (ix3 (⟨i, hi⟩ : Fin 24) k e))
          (fun e => b (ix2 (⟨i, hi⟩ : Fin 24) e)) d := by
  unfold pre PoseGru.lin
  rw [addf_apply, dot_apply, bias_apply b i hi hb r d]
  congr 1
  refine Finset.sum_congr rfl fun k _ => ?_
  rw [wslice_apply W i hi hW k d]

/-- The same on "state, then input": the row is `PoseGru.cat` of the state's row and the input's row. -/
theorem pre_cat_apply (h : FVec Ideal S32768x32 .f32) (x : FVec Ideal S32768x448 .f32)
    (W : FVec Ideal S24x480x32 .f32) (b : FVec Ideal S24x32 .f32)
    (i : ℕ) (hi : i < 24) (hW : S24x480x32.Slices ![i, 0, 0] S1x480x32) (hb : S24x32.Slices ![i, 0] S1x32)
    (r : Fin 32768) (d : Fin 32) :
    pre (cat h x) W b i hW hb (ix2 r d)
      = PoseGru.lin (PoseGru.cat (fun e => h (ix2 r e)) (fun k => x (ix2 r k)))
          (fun k e => W (ix3 (⟨i, hi⟩ : Fin 24) k e)) (fun e => b (ix2 (⟨i, hi⟩ : Fin 24) e)) d := by
  rw [pre_apply _ W b i hi hW hb r d]
  have hc : (fun k => cat h x (ix2 r k)) = PoseGru.cat (fun e => h (ix2 r e)) (fun k => x (ix2 r k)) :=
    funext (cat_apply h x r)
  rw [hc]

/-- The spelt-out quotient `1 / (1 + exp (-v))`, its two ones evaluated, is the logistic function by definition. -/
theorem sigm_apply (v : FVec Ideal S32768x32 .f32) (r : Fin 32768) (d : Fin 32) :
    sigm v (ix2 r d) = Ideal.logistic (v (ix2 r d)) := by
  unfold sigm
  show Ideal.div ((ones (F := Ideal)) (ix2 r d)) ((ones (F := Ideal)) (ix2 r d) + Ideal.exp (-(v (ix2 r d)))) = _
  rw [ones_apply, PoseGru.one_eq]
  rfl

/-- Row `b` of joint `i`'s new state is the gated update of row `b` of the source state and of the input, with
    joint `i`'s weights and biases. -/
theorem cellV_apply (h : FVec Ideal S32768x32 .f32) (x : FVec Ideal S32768x448 .f32)
    (Wz : FVec Ideal S24x480x32 .f32) (bz : FVec Ideal S24x32 .f32) (Wr : FVec Ideal S24x480x32 .f32) (br : FVec Ideal S24x32 .f32)
    (Wq : FVec Ideal S24x480x32 .f32) (bq : FVec Ideal S24x32 .f32) (i : ℕ) (hi : i < 24)
    (hW : S24x480x32.Slices ![i, 0, 0] S1x480x32) (hb : S24x32.Slices ![i, 0] S1x32) (b : Fin 32768) (d : Fin 32) :
    cellV h x Wz bz Wr br Wq bq i hW hb (ix2 b d) =
      PoseGru.cell (fun e => h (ix2 b e)) (fun k => x (ix2 b k))
        (fun k e => Wz (ix3 (⟨i, hi⟩ : Fin 24) k e)) (fun e => bz (ix2 (⟨i, hi⟩ : Fin 24) e))
        (fun k e => Wr (ix3 (⟨i, hi⟩ : Fin 24) k e)) (fun e => br (ix2 (⟨i, hi⟩ : Fin 24) e))
        (fun k e => Wq (ix3 (⟨i, hi⟩ : Fin 24) k e)) (fun e => bq (ix2 (⟨i, hi⟩ : Fin 24) e)) d := by
  have hr : (fun e => mulf (sigm (pre (cat h x) Wr br i hW hb)) h (ix2 b e))
      = fun e => Ideal.logistic (PoseGru.lin (PoseGru.cat (fun e => h (ix2 b e)) (fun k => x (ix2 b k)))
          (fun k e => Wr (ix3 (⟨i, hi⟩ : Fin 24) k e)) (fun e => br (ix2 (⟨i, hi⟩ : Fin 24) e)) e) * h (ix2 b e) := by
    funext e
    rw [mulf_apply, sigm_apply, pre_cat_apply h x Wr br i hi hW hb b e]
  unfold cellV outV PoseGru.cell
  rw [addf_apply, mulf_apply, mulf_apply, subf_apply, ones_apply, sigm_apply, pre_cat_apply h x Wz bz i hi hW hb b d]
  show _ + _ * Ideal.tanh (pre (cat (mulf (sigm (pre (cat h x) Wr br i hW hb)) h) x) Wq bq i hW hb (ix2 b d)) = _
  rw [pre_cat_apply _ x Wq bq i hi hW hb b d, hr]

end Cert.ReferenceIdeal.PoseCell

end
-- ==== Proof.RefStack.lean ====
/-
  The 24 joints' arrays stacked along a new middle axis, read at an index.

  The reference turns each joint's [32768, 32] array into a [32768, 1, 32] slab, concatenates the first sixteen slabs and
  the last eight along the middle axis, and then the two halves. Position (b, j, d) of the result is position (b, d) of
  joint `j`'s array.
-/
import proofs.«114622_j72524817760644_1_alg».proof.Proof.Gen.ReferenceIdeal
import Idealize.ShloMosaic.Lib.ValueIdx
import Idealize.ShloMosaic.Lib.ValueLayout
import Idealize.ShloMosaic.Lib.Pipeline.Value

noncomputable section

namespace Cert.ReferenceIdeal.PoseStack

open Idealize.ShloMosaic Idealize.ShloMosaic.ValueIdx Cert.ReferenceIdeal Cert.ReferenceIdeal.Gen

variable {F : FTy → Type} [FloatOps F]

/-- A joint's array as a slab with a middle axis of one. -/
def slab (a : FVec F S32768x32 .f32) : FVec F S32768x1x32 .f32 :=
  broadcastInDim S32768x1x32 ![0, 2] bcast_S32768x32_S32768x1x32_0_2 a

/-- The stack of the 24 joints' arrays, as the reference builds it: sixteen slabs, eight slabs, then the two halves. -/
def stack (c0 c1 c2 c3 c4 c5 c6 c7 c8 c9 c10 c11 c12 c13 c14 c15 c16 c17 c18 c19 c20 c21 c22 c23 : FVec F S32768x32 .f32) :
    FVec F S32768x24x32 .f32 :=
  concatenate S32768x24x32 1
    [⟨S32768x16x32, concatenate S32768x16x32 1
        [⟨S32768x1x32, slab c0⟩, ⟨S32768x1x32, slab c1⟩, ⟨S32768x1x32, slab c2⟩, ⟨S32768x1x32, slab c3⟩,
         ⟨S32768x1x32, slab c4⟩, ⟨S32768x1x32, slab c5⟩, ⟨S32768x1x32, slab c6⟩, ⟨S32768x1x32, slab c7⟩,
         ⟨S32768x1x32, slab c8⟩, ⟨S32768x1x32, slab c9⟩, ⟨S32768x1x32, slab c10⟩, ⟨S32768x1x32, slab c11⟩,
         ⟨S32768x1x32, slab c12⟩, ⟨S32768x1x32, slab c13⟩, ⟨S32768x1x32, slab c14⟩, ⟨S32768x1x32, slab c15⟩]
        concatenates_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x16x32_d1⟩,
     ⟨S32768x8x32, concatenate S32768x8x32 1
        [⟨S32768x1x32, slab c16⟩, ⟨S32768x1x32, slab c17⟩, ⟨S32768x1x32, slab c18⟩, ⟨S32768x1x32, slab c19⟩,
         ⟨S32768x1x32, slab c20⟩, ⟨S32768x1x32, slab c21⟩, ⟨S32768x1x32, slab c22⟩, ⟨S32768x1x32, slab c23⟩]
        concatenates_S32768x1x32_S32768x1x32_S32768x1x32_S32768x1x32_S32768x1x32_S32768x1x32_S32768x1x32_S32768x1x32_S32768x8x32_d1⟩]
    concatenates_S32768x16x32_S32768x8x32_S32768x24x32_d1

/-- A slab at (b, 0, d) is the array at (b, d). -/
theorem slab_apply (a : FVec Ideal S32768x32 .f32) (b : Fin 32768) (d : Fin 32) :
    slab a (ix3 b (0 : Fin 1) d) = a (ix2 b d) := by
  unfold slab
  exact broadcastInDim_apply _ _ _ _ (ix2 b d) (fun a => match a with | ⟨0, _⟩ => rfl | ⟨1, _⟩ => rfl)

/-- Sixteen slabs side by side: position (b, k, d) is position (b, d) of the k-th array. -/
theorem lo_apply (c0 c1 c2 c3 c4 c5 c6 c7 c8 c9 c10 c11 c12 c13 c14 c15 : FVec Ideal S32768x32 .f32)
    (b : Fin 32768) (k : Fin 16) (d : Fin 32) :
    concatenate S32768x16x32 1
        [⟨S32768x1x32, slab c0⟩, ⟨S32768x1x32, slab c1⟩, ⟨S32768x1x32, slab c2⟩, ⟨S32768x1x32, slab c3⟩, ⟨S32768x1x32, slab c4⟩, ⟨S32768x1x32, slab c5⟩, ⟨S32768x1x32, slab c6⟩, ⟨S32768x1x32, slab c7⟩, ⟨S32768x1x32, slab c8⟩, ⟨S32768x1x32, slab c9⟩, ⟨S32768x1x32, slab c10⟩, ⟨S32768x1x32, slab c11⟩, ⟨S32768x1x32, slab c12⟩, ⟨S32768x1x32, slab c13⟩, ⟨S32768x1x32, slab c14⟩, ⟨S32768x1x32, slab c15⟩]
        concatenates_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x16x32_d1 (ix3 b k d)
      = (![c0, c1, c2, c3, c4, c5, c6, c7, c8, c9, c10, c11, c12, c13, c14, c15] k) (ix2 b d) := by
  refine Eq.trans ?_ (slab_apply _ b d)
  exact concatenate_ofFn_unit_apply (t := S32768x16x32) (s₁ := S32768x1x32) (1 : Fin 3)
    (fun n : Fin 16 => slab (![c0, c1, c2, c3, c4, c5, c6, c7, c8, c9, c10, c11, c12, c13, c14, c15] n))
    concatenates_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x16x32_d1 rfl rfl (ix3 b k d) k rfl (ix3 b (0 : Fin 1) d)
    (fun a ha => match a, ha with | ⟨0, _⟩, _ => rfl | ⟨1, _⟩, ha => absurd rfl ha | ⟨2, _⟩, _ => rfl)

/-- Eight slabs side by side: position (b, k, d) is position (b, d) of the k-th array. -/
theorem hi_apply (c0 c1 c2 c3 c4 c5 c6 c7 : FVec Ideal S32768x32 .f32)
    (b : Fin 32768) (k : Fin 8) (d : Fin 32) :
    concatenate S32768x8x32 1
        [⟨S32768x1x32, slab c0⟩, ⟨S32768x1x32, slab c1⟩, ⟨S32768x1x32, slab c2⟩, ⟨S32768x1x32, slab c3⟩, ⟨S32768x1x32, slab c4⟩, ⟨S32768x1x32, slab c5⟩, ⟨S32768x1x32, slab c6⟩, ⟨S32768x1x32, slab c7⟩]
        concatenates_S32768x1x32_S32768x1x32_S32768x1x32_S32768x1x32_S32768x1x32_S32768x1x32_S32768x1x32_S32768x1x32_S32768x8x32_d1 (ix3 b k d)
      = (![c0, c1, c2, c3, c4, c5, c6, c7] k) (ix2 b d) := by
  refine Eq.trans ?_ (slab_apply _ b d)
  exact concatenate_ofFn_unit_apply (t := S32768x8x32) (s₁ := S32768x1x32) (1 : Fin 3)
    (fun n : Fin 8 => slab (![c0, c1, c2, c3, c4, c5, c6, c7] n))
    concatenates_S32768x1x32_S32768x1x32_S32768x1x32_S32768x1x32_S32768x1x32_S32768x1x32_S32768x1x32_S32768x1x32_S32768x8x32_d1 rfl rfl (ix3 b k d) k rfl (ix3 b (0 : Fin 1) d)
    (fun a ha => match a, ha with | ⟨0, _⟩, _ => rfl | ⟨1, _⟩, ha => absurd rfl ha | ⟨2, _⟩, _ => rfl)

/-- Position (b, j, d) of the stack is position (b, d) of joint `j`'s array. -/
theorem stack_apply (c0 c1 c2 c3 c4 c5 c6 c7 c8 c9 c10 c11 c12 c13 c14 c15 c16 c17 c18 c19 c20 c21 c22 c23 : FVec Ideal S32768x32 .f32)
    (b : Fin 32768) (j : Fin 24) (d : Fin 32) :
    stack c0 c1 c2 c3 c4 c5 c6 c7 c8 c9 c10 c11 c12 c13 c14 c15 c16 c17 c18 c19 c20 c21 c22 c23 (ix3 b j d)
      = (![c0, c1, c2, c3, c4, c5, c6, c7, c8, c9, c10, c11, c12, c13, c14, c15, c16, c17, c18, c19, c20, c21, c22, c23] j) (ix2 b d) := by
  by_cases hj : j.val < 16
  · unfold stack
    rw [concatenate_pair_apply_left (t := S32768x24x32) (s₁ := S32768x16x32) (s₂ := S32768x8x32) (1 : Fin 3) _ _ _ (ix3 b j d) rfl (ix3 b (⟨j.val, hj⟩ : Fin 16) d)
      (fun a => match a with | ⟨0, _⟩ => rfl | ⟨1, _⟩ => rfl | ⟨2, _⟩ => rfl)]
    rw [lo_apply]
    obtain ⟨j, hj'⟩ := j
    simp only at hj
    interval_cases j <;> rfl
  · unfold stack
    rw [concatenate_pair_apply_right (t := S32768x24x32) (s₁ := S32768x16x32) (s₂ := S32768x8x32) (1 : Fin 3) _ _ _ (ix3 b j d) rfl rfl (ix3 b (⟨j.val - 16, by omega⟩ : Fin 8) d)
      (fun a ha => match a, ha with | ⟨0, _⟩, _ => rfl | ⟨1, _⟩, ha => absurd rfl ha | ⟨2, _⟩, _ => rfl)
      (by show (j.val - 16) + 16 = j.val; omega)]
    rw [hi_apply]
    obtain ⟨j, hj'⟩ := j
    simp only at hj
    interval_cases j <;> rfl

end Cert.ReferenceIdeal.PoseStack

end
-- ==== Proof.RefChain.lean ====
/-
  The reference's result is the row-by-row pose GRU of its arguments.

  The reference keeps one [32768, 32] array per joint. It visits the joints in order; joint `i`'s array becomes the gated
  update (RefCell.lean's `cellV`) of its source joint's array — the root's own initial slice for the root, the parent's
  already updated array otherwise — with slice `i` of the stacked weights and biases; the 24 arrays are then stacked
  along a new middle axis (RefStack.lean's `stack`). Row by row, joint `i`'s array is `PoseGru.final … i`, by
  `PoseGru.final_root` and `PoseGru.final_step` along the tree, and the stack read at (b, j, d) is joint `j`'s array
  at (b, d).

  Each joint's array is, as a term, literally `cellV` of its source's array: the two spell the same operations in the
  same order, so the equation holds by unfolding the names on both sides. The five leaves of the tree (joints 10, 11,
  15, 22, 23) are read by no later joint; the reference gives their arrays no name and their updates stand inside the
  stack, so they get names here.
-/
import proofs.«114622_j72524817760644_1_alg».proof.Proof.RefRun
import proofs.«114622_j72524817760644_1_alg».proof.Proof.RefCell
import proofs.«114622_j72524817760644_1_alg».proof.Proof.RefStack

noncomputable section

namespace Cert.ReferenceIdeal.PoseRef

open Idealize.ShloMosaic Idealize.ShloMosaic.ValueIdx Idealize.ShloMosaic.StableHlo
open Cert.ReferenceIdeal Cert.ReferenceIdeal.Gen Cert.ReferenceIdeal.Value

section Joints

variable (V0 : Valuation τ sig (Elt Ideal))

/-- The initial state of joint `j` of batch row `b`. -/
abbrev rowH (b : Fin 32768) : Fin 24 → Fin 32 → EReal := fun j d => V0 (Proc.devRef .tc main_arg0) (ix3 b j d)
abbrev rowX (b : Fin 32768) : Fin 448 → EReal := fun k => V0 (Proc.devRef .tc main_arg1) (ix2 b k)
abbrev matWz : Fin 24 → Fin 480 → Fin 32 → EReal := fun j k d => V0 (Proc.devRef .tc main_arg2) (ix3 j k d)
abbrev vecBz : Fin 24 → Fin 32 → EReal := fun j d => V0 (Proc.devRef .tc main_arg3) (ix2 j d)
abbrev matWr : Fin 24 → Fin 480 → Fin 32 → EReal := fun j k d => V0 (Proc.devRef .tc main_arg4) (ix3 j k d)
abbrev vecBr : Fin 24 → Fin 32 → EReal := fun j d => V0 (Proc.devRef .tc main_arg5) (ix2 j d)
abbrev matWq : Fin 24 → Fin 480 → Fin 32 → EReal := fun j k d => V0 (Proc.devRef .tc main_arg6) (ix3 j k d)
abbrev vecBq : Fin 24 → Fin 32 → EReal := fun j d => V0 (Proc.devRef .tc main_arg7) (ix2 j d)

/-- Joint `j`'s final state in batch row `b`. -/
def fin (b : Fin 32768) (j : Fin 24) : Fin 32 → EReal :=
  PoseGru.final (rowH V0 b) (rowX V0 b) (matWz V0) (vecBz V0) (matWr V0) (vecBr V0) (matWq V0) (vecBq V0) j

/-- The gated update of joint `i` over all rows, from the array `s` of its source joint. -/
abbrev upd (s : FVec Ideal S32768x32 .f32) (i : ℕ) (hW : S24x480x32.Slices ![i, 0, 0] S1x480x32)
    (hb : S24x32.Slices ![i, 0] S1x32) : FVec Ideal S32768x32 .f32 :=
  PoseCell.cellV s (V0 (Proc.devRef .tc main_arg1))
      (V0 (Proc.devRef .tc main_arg2)) (V0 (Proc.devRef .tc main_arg3))
      (V0 (Proc.devRef .tc main_arg4)) (V0 (Proc.devRef .tc main_arg5))
      (V0 (Proc.devRef .tc main_arg6)) (V0 (Proc.devRef .tc main_arg7)) i hW hb

/-- Column 0 of the initial states, as the reference cuts it out. -/
theorem v49_apply (b : Fin 32768) (e : Fin 32) :
    res_main_v49 V0 (ix2 b e) = V0 (Proc.devRef .tc main_arg0) (ix3 b (0 : Fin 24) e) := by
  unfold res_main_v49
  refine (shapeCast_apply _ _ (ix2 b e) (ix3 b (⟨0, by decide⟩ : Fin 1) e) ?_).trans ?_
  · rw [Shape.rowMajor_val_three, Shape.rowMajor_val_two]
    show (b.val * 1 + 0) * 32 + e.val = b.val * 32 + e.val
    omega
  · exact extractStridedSlice_apply _ _ _ _ _ (fun a => match a with
      | ⟨0, _⟩ => by show b.val = 0 + b.val; omega
      | ⟨1, _⟩ => by show 0 = 0 + 0; omega
      | ⟨2, _⟩ => by show e.val = 0 + e.val; omega)

/-- The root: updated from its own initial state. -/
theorem root_apply (s : FVec Ideal S32768x32 .f32)
    (hs : ∀ b e, s (ix2 b e) = V0 (Proc.devRef .tc main_arg0) (ix3 b (0 : Fin 24) e))
    (hW : S24x480x32.Slices ![0, 0, 0] S1x480x32) (hb : S24x32.Slices ![0, 0] S1x32) (b : Fin 32768) (d : Fin 32) :
    upd V0 s 0 hW hb (ix2 b d) = fin V0 b ⟨0, by decide⟩ d := by
  refine (PoseCell.cellV_apply _ _ _ _ _ _ _ _ 0 (by decide) hW hb b d).trans ?_
  have e0 : (fun e => s (ix2 b e)) = rowH V0 b 0 := funext fun e => hs b e
  rw [e0]
  exact (congrFun (PoseGru.final_root (rowH V0 b) (rowX V0 b) (matWz V0) (vecBz V0) (matWr V0) (vecBr V0) (matWq V0) (vecBq V0)) d).symm

/-- Any other joint `i`: updated from its parent `p`'s final state. -/
theorem step_apply (s : FVec Ideal S32768x32 .f32) (i : ℕ) (hi : i < 24) (hpos : 0 < i) (p : Fin 24)
    (hp : PoseGru.src ⟨i, hi⟩ = p) (hs : ∀ b e, s (ix2 b e) = fin V0 b p e)
    (hW : S24x480x32.Slices ![i, 0, 0] S1x480x32) (hb : S24x32.Slices ![i, 0] S1x32) (b : Fin 32768) (d : Fin 32) :
    upd V0 s i hW hb (ix2 b d) = fin V0 b ⟨i, hi⟩ d := by
  refine (PoseCell.cellV_apply _ _ _ _ _ _ _ _ i hi hW hb b d).trans ?_
  have e0 : (fun e => s (ix2 b e)) = fin V0 b p := funext fun e => hs b e
  rw [e0]
  unfold fin
  rw [PoseGru.final_step _ _ _ _ _ _ _ _ ⟨i, hi⟩ hpos, hp]

/-! ## The 24 joints, in the order the reference visits them -/

theorem j0 (b : Fin 32768) (d : Fin 32) : res_main_v94 V0 (ix2 b d) = fin V0 b ⟨0, by decide⟩ d :=
  root_apply V0 (res_main_v49 V0) (v49_apply V0) slices_S24x480x32_S1x480x32_0_0_0 slices_S24x32_S1x32_0_0 b d

theorem j1 (b : Fin 32768) (d : Fin 32) : res_main_v139 V0 (ix2 b d) = fin V0 b ⟨1, by decide⟩ d :=
  step_apply V0 (res_main_v94 V0) 1 (by decide) (by decide) ⟨0, by decide⟩ rfl (j0 V0)
    slices_S24x480x32_S1x480x32_1_0_0 slices_S24x32_S1x32_1_0 b d

theorem j2 (b : Fin 32768) (d : Fin 32) : res_main_v184 V0 (ix2 b d) = fin V0 b ⟨2, by decide⟩ d :=
  step_apply V0 (res_main_v94 V0) 2 (by decide) (by decide) ⟨0, by decide⟩ rfl (j0 V0)
    slices_S24x480x32_S1x480x32_2_0_0 slices_S24x32_S1x32_2_0 b d

theorem j3 (b : Fin 32768) (d : Fin 32) : res_main_v229 V0 (ix2 b d) = fin V0 b ⟨3, by decide⟩ d :=
  step_apply V0 (res_main_v94 V0) 3 (by decide) (by decide) ⟨0, by decide⟩ rfl (j0 V0)
    slices_S24x480x32_S1x480x32_3_0_0 slices_S24x32_S1x32_3_0 b d

theorem j4 (b : Fin 32768) (d : Fin 32) : res_main_v274 V0 (ix2 b d) = fin V0 b ⟨4, by decide⟩ d :=
  step_apply V0 (res_main_v139 V0) 4 (by decide) (by decide) ⟨1, by decide⟩ rfl (j1 V0)
    slices_S24x480x32_S1x480x32_4_0_0 slices_S24x32_S1x32_4_0 b d

theorem j5 (b : Fin 32768) (d : Fin 32) : res_main_v319 V0 (ix2 b d) = fin V0 b ⟨5, by decide⟩ d :=
  step_apply V0 (res_main_v184 V0) 5 (by decide) (by decide) ⟨2, by decide⟩ rfl (j2 V0)
    slices_S24x480x32_S1x480x32_5_0_0 slices_S24x32_S1x32_5_0 b d

theorem j6 (b : Fin 32768) (d : Fin 32) : res_main_v364 V0 (ix2 b d) = fin V0 b ⟨6, by decide⟩ d :=
  step_apply V0 (res_main_v229 V0) 6 (by decide) (by decide) ⟨3, by decide⟩ rfl (j3 V0)
    slices_S24x480x32_S1x480x32_6_0_0 slices_S24x32_S1x32_6_0 b d

theorem j7 (b : Fin 32768) (d : Fin 32) : res_main_v409 V0 (ix2 b d) = fin V0 b ⟨7, by decide⟩ d :=
  step_apply V0 (res_main_v274 V0) 7 (by decide) (by decide) ⟨4, by decide⟩ rfl (j4 V0)
    slices_S24x480x32_S1x480x32_7_0_0 slices_S24x32_S1x32_7_0 b d

theorem j8 (b : Fin 32768) (d : Fin 32) : res_main_v454 V0 (ix2 b d) = fin V0 b ⟨8, by decide⟩ d :=
  step_apply V0 (res_main_v319 V0) 8 (by decide) (by decide) ⟨5, by decide⟩ rfl (j5 V0)
    slices_S24x480x32_S1x480x32_8_0_0 slices_S24x32_S1x32_8_0 b d

theorem j9 (b : Fin 32768) (d : Fin 32) : res_main_v499 V0 (ix2 b d) = fin V0 b ⟨9, by decide⟩ d :=
  step_apply V0 (res_main_v364 V0) 9 (by decide) (by decide) ⟨6, by decide⟩ rfl (j6 V0)
    slices_S24x480x32_S1x480x32_9_0_0 slices_S24x32_S1x32_9_0 b d

/-- Joint 10 is a leaf of the tree: the reference names no array for it, its update of joint 7's array stands in the stack. -/
abbrev leaf10 : FVec Ideal S32768x32 .f32 :=
  upd V0 (res_main_v409 V0) 10 slices_S24x480x32_S1x480x32_10_0_0 slices_S24x32_S1x32_10_0

theorem j10 (b : Fin 32768) (d : Fin 32) : leaf10 V0 (ix2 b d) = fin V0 b ⟨10, by decide⟩ d :=
  step_apply V0 (res_main_v409 V0) 10 (by decide) (by decide) ⟨7, by decide⟩ rfl (j7 V0)
    slices_S24x480x32_S1x480x32_10_0_0 slices_S24x32_S1x32_10_0 b d

/-- Joint 11, a leaf: the update of joint 8's array. -/
abbrev leaf11 : FVec Ideal S32768x32 .f32 :=
  upd V0 (res_main_v454 V0) 11 slices_S24x480x32_S1x480x32_11_0_0 slices_S24x32_S1x32_11_0

theorem j11 (b : Fin 32768) (d : Fin 32) : leaf11 V0 (ix2 b d) = fin V0 b ⟨11, by decide⟩ d :=
  step_apply V0 (res_main_v454 V0) 11 (by decide) (by decide) ⟨8, by decide⟩ rfl (j8 V0)
    slices_S24x480x32_S1x480x32_11_0_0 slices_S24x32_S1x32_11_0 b d

theorem j12 (b : Fin 32768) (d : Fin 32) : res_main_v634 V0 (ix2 b d) = fin V0 b ⟨12, by decide⟩ d :=
  step_apply V0 (res_main_v499 V0) 12 (by decide) (by decide) ⟨9, by decide⟩ rfl (j9 V0)
    slices_S24x480x32_S1x480x32_12_0_0 slices_S24x32_S1x32_12_0 b d

theorem j13 (b : Fin 32768) (d : Fin 32) : res_main_v679 V0 (ix2 b d) = fin V0 b ⟨13, by decide⟩ d :=
  step_apply V0 (res_main_v499 V0) 13 (by decide) (by decide) ⟨9, by decide⟩ rfl (j9 V0)
    slices_S24x480x32_S1x480x32_13_0_0 slices_S24x32_S1x32_13_0 b d

theorem j14 (b : Fin 32768) (d : Fin 32) : res_main_v724 V0 (ix2 b d) = fin V0 b ⟨14, by decide⟩ d :=
  step_apply V0 (res_main_v499 V0) 14 (by decide) (by decide) ⟨9, by decide⟩ rfl (j9 V0)
    slices_S24x480x32_S1x480x32_14_0_0 slices_S24x32_S1x32_14_0 b d

/-- Joint 15, a leaf: the update of joint 12's array. -/
abbrev leaf15 : FVec Ideal S32768x32 .f32 :=
  upd V0 (res_main_v634 V0) 15 slices_S24x480x32_S1x480x32_15_0_0 slices_S24x32_S1x32_15_0

theorem j15 (b : Fin 32768) (d : Fin 32) : leaf15 V0 (ix2 b d) = fin V0 b ⟨15, by decide⟩ d :=
  step_apply V0 (res_main_v634 V0) 15 (by decide) (by decide) ⟨12, by decide⟩ rfl (j12 V0)
    slices_S24x480x32_S1x480x32_15_0_0 slices_S24x32_S1x32_15_0 b d

theorem j16 (b : Fin 32768) (d : Fin 32) : res_main_v814 V0 (ix2 b d) = fin V0 b ⟨16, by decide⟩ d :=
  step_apply V0 (res_main_v679 V0) 16 (by decide) (by decide) ⟨13, by decide⟩ rfl (j13 V0)
    slices_S24x480x32_S1x480x32_16_0_0 slices_S24x32_S1x32_16_0 b d

theorem j17 (b : Fin 32768) (d : Fin 32) : res_main_v859 V0 (ix2 b d) = fin V0 b ⟨17, by decide⟩ d :=
  step_apply V0 (res_main_v724 V0) 17 (by decide) (by decide) ⟨14, by decide⟩ rfl (j14 V0)
    slices_S24x480x32_S1x480x32_17_0_0 slices_S24x32_S1x32_17_0 b d

theorem j18 (b : Fin 32768) (d : Fin 32) : res_main_v904 V0 (ix2 b d) = fin V0 b ⟨18, by decide⟩ d :=
  step_apply V0 (res_main_v814 V0) 18 (by decide) (by decide) ⟨16, by decide⟩ rfl (j16 V0)
    slices_S24x480x32_S1x480x32_18_0_0 slices_S24x32_S1x32_18_0 b d

theorem j19 (b : Fin 32768) (d : Fin 32) : res_main_v949 V0 (ix2 b d) = fin V0 b ⟨19, by decide⟩ d :=
  step_apply V0 (res_main_v859 V0) 19 (by decide) (by decide) ⟨17, by decide⟩ rfl (j17 V0)
    slices_S24x480x32_S1x480x32_19_0_0 slices_S24x32_S1x32_19_0 b d

theorem j20 (b : Fin 32768) (d : Fin 32) : res_main_v994 V0 (ix2 b d) = fin V0 b ⟨20, by decide⟩ d :=
  step_apply V0 (res_main_v904 V0) 20 (by decide) (by decide) ⟨18, by decide⟩ rfl (j18 V0)
    slices_S24x480x32_S1x480x32_20_0_0 slices_S24x32_S1x32_20_0 b d

theorem j21 (b : Fin 32768) (d : Fin 32) : res_main_v1039 V0 (ix2 b d) = fin V0 b ⟨21, by decide⟩ d :=
  step_apply V0 (res_main_v949 V0) 21 (by decide) (by decide) ⟨19, by decide⟩ rfl (j19 V0)
    slices_S24x480x32_S1x480x32_21_0_0 slices_S24x32_S1x32_21_0 b d

/-- Joint 22, a leaf: the update of joint 20's array. -/
abbrev leaf22 : FVec Ideal S32768x32 .f32 :=
  upd V0 (res_main_v994 V0) 22 slices_S24x480x32_S1x480x32_22_0_0 slices_S24x32_S1x32_22_0

theorem j22 (b : Fin 32768) (d : Fin 32) : leaf22 V0 (ix2 b d) = fin V0 b ⟨22, by decide⟩ d :=
  step_apply V0 (res_main_v994 V0) 22 (by decide) (by decide) ⟨20, by decide⟩ rfl (j20 V0)
    slices_S24x480x32_S1x480x32_22_0_0 slices_S24x32_S1x32_22_0 b d

/-- Joint 23, a leaf: the update of joint 21's array. -/
abbrev leaf23 : FVec Ideal S32768x32 .f32 :=
  upd V0 (res_main_v1039 V0) 23 slices_S24x480x32_S1x480x32_23_0_0 slices_S24x32_S1x32_23_0

theorem j23 (b : Fin 32768) (d : Fin 32) : leaf23 V0 (ix2 b d) = fin V0 b ⟨23, by decide⟩ d :=
  step_apply V0 (res_main_v1039 V0) 23 (by decide) (by decide) ⟨21, by decide⟩ rfl (j21 V0)
    slices_S24x480x32_S1x480x32_23_0_0 slices_S24x32_S1x32_23_0 b d

/-! ## The stack of the 24 arrays -/

/-- The reference's result is the stack of the 24 joints' arrays, the five leaves' arrays standing where the
    reference spells their updates out. -/
theorem result_stack :
    res_main_v1156 V0 = PoseStack.stack (res_main_v94 V0) (res_main_v139 V0) (res_main_v184 V0) (res_main_v229 V0)
      (res_main_v274 V0) (res_main_v319 V0) (res_main_v364 V0) (res_main_v409 V0) (res_main_v454 V0) (res_main_v499 V0)
      (leaf10 V0) (leaf11 V0) (res_main_v634 V0) (res_main_v679 V0) (res_main_v724 V0) (leaf15 V0)
      (res_main_v814 V0) (res_main_v859 V0) (res_main_v904 V0) (res_main_v949 V0) (res_main_v994 V0) (res_main_v1039 V0)
      (leaf22 V0) (leaf23 V0) := rfl

end Joints

/-- The reference's result array, as a function of its eight argument arrays, is the pose GRU row by row. -/
theorem result_eq (V0 : Valuation τ sig (Elt Ideal)) :
    res_main_v1156 V0 =
      PoseGru.rows (n := 32768) (V0 (Proc.devRef .tc main_arg0)) (V0 (Proc.devRef .tc main_arg1))
        (V0 (Proc.devRef .tc main_arg2)) (V0 (Proc.devRef .tc main_arg3))
        (V0 (Proc.devRef .tc main_arg4)) (V0 (Proc.devRef .tc main_arg5))
        (V0 (Proc.devRef .tc main_arg6)) (V0 (Proc.devRef .tc main_arg7)) := by
  funext i
  obtain ⟨b, j, d, rfl⟩ : ∃ (b : Fin 32768) (j : Fin 24) (d : Fin 32), i = ix3 b j d := ⟨i 0, i 1, i 2, eq_ix3 i⟩
  rw [PoseGru.rows_apply, PoseGru.state_end]
  refine ((congrFun (result_stack V0) (ix3 b j d)).trans (PoseStack.stack_apply _ _ _ _ _ _ _ _ _ _ _ _ _ _ _ _ _ _ _ _ _ _ _ _ b j d)).trans ?_
  match j with
  | ⟨0, _⟩ => exact j0 V0 b d
  | ⟨1, _⟩ => exact j1 V0 b d
  | ⟨2, _⟩ => exact j2 V0 b d
  | ⟨3, _⟩ => exact j3 V0 b d
  | ⟨4, _⟩ => exact j4 V0 b d
  | ⟨5, _⟩ => exact j5 V0 b d
  | ⟨6, _⟩ => exact j6 V0 b d
  | ⟨7, _⟩ => exact j7 V0 b d
  | ⟨8, _⟩ => exact j8 V0 b d
  | ⟨9, _⟩ => exact j9 V0 b d
  | ⟨10, _⟩ => exact j10 V0 b d
  | ⟨11, _⟩ => exact j11 V0 b d
  | ⟨12, _⟩ => exact j12 V0 b d
  | ⟨13, _⟩ => exact j13 V0 b d
  | ⟨14, _⟩ => exact j14 V0 b d
  | ⟨15, _⟩ => exact j15 V0 b d
  | ⟨16, _⟩ => exact j16 V0 b d
  | ⟨17, _⟩ => exact j17 V0 b d
  | ⟨18, _⟩ => exact j18 V0 b d
  | ⟨19, _⟩ => exact j19 V0 b d
  | ⟨20, _⟩ => exact j20 V0 b d
  | ⟨21, _⟩ => exact j21 V0 b d
  | ⟨22, _⟩ => exact j22 V0 b d
  | ⟨23, _⟩ => exact j23 V0 b d
  | ⟨n + 24, h⟩ => exact absurd h (by omega)

end Cert.ReferenceIdeal.PoseRef

end
-- ==== Proof.lean ====
/-
  The pose GRU kernel against its jnp reference, over the extended reals.

  Both programs update the hidden states of 24 joints of a kinematic tree, one joint after the other: joint `j` reads the
  state of its source joint (the root reads itself, every other joint its parent, which has a smaller number and is
  therefore already updated), forms an update gate, a reset gate and a candidate from three affine maps of "source
  state, then input" and replaces its own state by `(1 - z) * h + z * q`. The kernel does this on blocks of 1024 batch
  rows, in the matrix unit's input format and with the logistic function as one operation; the reference does it on all
  32768 rows at once, in single precision, with the logistic function spelt `1 / (1 + exp (-v))`. On the extended reals
  a change of float format is the identity, each matrix product is the plain sum over the 480 contracted positions, and
  the spelt-out quotient is the logistic function by its definition: so both compute, for every batch row on its own, the
  function `PoseGru.state … 24` of Spec.lean (`PoseGru.rows` over the arrays). No law of arithmetic that needs finite
  operands is used, so the precondition is never opened.

  The kernel's side: one joint's update on a block row by row (KCell.lean), the working copy of the states after each
  of the 24 joints (KChain.lean), the blocks tiling the result array (Blocks.lean). The reference's side: one joint's
  update row by row (RefCell.lean), the 24 joints' arrays along the tree and their stack (RefStack.lean, RefChain.lean),
  over the reference's run with its result named (RefRun.lean).
  The idealization rewrote no operation, so `preserves` has nothing to state.
-/
import proofs.«114622_j72524817760644_1_alg».proof.Defs
import proofs.«114622_j72524817760644_1_alg».proof.Proof.Gen.Kernel
import proofs.«114622_j72524817760644_1_alg».proof.Proof.Gen.Kernel.Skeleton
import proofs.«114622_j72524817760644_1_alg».proof.Proof.Gen.Kernel.Launch
import proofs.«114622_j72524817760644_1_alg».proof.Proof.Gen.Kernel.Points
import proofs.«114622_j72524817760644_1_alg».proof.Proof.Gen.Kernel.Frame
import proofs.«114622_j72524817760644_1_alg».proof.Proof.Gen.KernelIdeal
import proofs.«114622_j72524817760644_1_alg».proof.Proof.Gen.KernelIdeal.Skeleton
import proofs.«114622_j72524817760644_1_alg».proof.Proof.Gen.KernelIdeal.Launch
import proofs.«114622_j72524817760644_1_alg».proof.Proof.Gen.KernelIdeal.Points
import proofs.«114622_j72524817760644_1_alg».proof.Proof.Gen.KernelIdeal.Frame
import proofs.«114622_j72524817760644_1_alg».proof.Proof.Gen.ReferenceIdeal
import proofs.«114622_j72524817760644_1_alg».proof.Proof.Gen.Pre_finite_inputs
import proofs.«114622_j72524817760644_1_alg».proof.Proof.Gen.KernelIdeal.Value
import proofs.«114622_j72524817760644_1_alg».proof.Proof.RefRun
import proofs.«114622_j72524817760644_1_alg».proof.Proof.Blocks
import proofs.«114622_j72524817760644_1_alg».proof.Proof.RefChain
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are the same function of arguments that
    agree: the pose GRU, row by row. -/
theorem algebraic : Cert.algebraic_KernelIdeal_ReferenceIdeal := by
  intro m ρ m' ρ' _ hagree
  refine ⟨fun c => Cert.KernelIdeal.PoseBlocks.G m c, Cert.KernelIdeal.PoseBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.PoseRef.result_eq]
  show PoseGru.rows (n := 32768)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
